-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x32 : Shape := ⟨2, ![800000, 32]⟩
abbrev S96x160 : Shape := ⟨2, ![96, 160]⟩
abbrev S96 : Shape := ⟨1, ![96]⟩
abbrev S64x128 : Shape := ⟨2, ![64, 128]⟩
abbrev S64 : Shape := ⟨1, ![64]⟩
abbrev S32x32 : Shape := ⟨2, ![32, 32]⟩
abbrev S32 : Shape := ⟨1, ![32]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S96x160 : S_.BroadcastsInDim S96x160 (![] : Fin 0 → Fin S96x160.rank)
  reducesTo_S96x160_S_d0_1 : S96x160.ReducesTo [0, 1] S_
  bcast_S_S96 : S_.BroadcastsInDim S96 (![] : Fin 0 → Fin S96.rank)
  reducesTo_S96_S_d0 : S96.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S64x128 .f32) (main_arg5 : FVec F S64 .f32) (main_arg6 : FVec F S32x32 .f32) (main_arg7 : FVec F S32 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S800000x32 .f32) (main_arg2 : FVec F S96x160 .f32) (main_arg3 : FVec F S96 .f32) (main_arg4 : FVec F S64x128 .f32) (main_arg5 : FVec F S64 .f32) (main_arg6 : FVec F S32x32 .f32) (main_arg7 : FVec F S32 .f32) (main_arg8 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S96x160 .f32 := Host.absf main_arg2
  let main_cst_2 : FVec F S_ .f32 := constant S_ .f32 0x7F800000#32
  let main_v10 : FVec F S96x160 .f32 := broadcastInDim S96x160 ![] bcast_S_S96x160 main_cst_2
  let main_v11 : IVec S96x160 1 := cmpf .olt main_v9 main_v10
  let main_c_3 : IVec S_ 1 := constantI S_ 1 1#1
  let main_v12 : IVec S_ 1 := (fun x v => Host.reduce IntOp.andi x v reducesTo_S96x160_S_d0_1 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_arg5 main_arg6 main_arg7 main_v13 main_v16
-- ==== Kernel.lean ====
abbrev S50000x128 : Shape := ⟨2, ![50000, 128]⟩
abbrev S800000x32 : Shape := ⟨2, ![800000, 32]⟩
abbrev S96x160 : Shape := ⟨2, ![96, 160]⟩
abbrev S96 : Shape := ⟨1, ![96]⟩
abbrev S64x128 : Shape := ⟨2, ![64, 128]⟩
abbrev S64 : Shape := ⟨1, ![64]⟩
abbrev S32x32 : Shape := ⟨2, ![32, 32]⟩
abbrev S32 : Shape := ⟨1, ![32]⟩
abbrev S2x800000 : Shape := ⟨2, ![2, 800000]⟩
abbrev S1x800000 : Shape := ⟨2, ![1, 800000]⟩
abbrev S800000 : Shape := ⟨1, ![800000]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S128x64 : Shape := ⟨2, ![128, 64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x32 : Shape := ⟨2, ![1, 32]⟩
abbrev S8000x32 : Shape := ⟨2, ![8000, 32]⟩
abbrev S50000x32 : Shape := ⟨2, ![50000, 32]⟩
abbrev S96x128 : Shape := ⟨2, ![96, 128]⟩
abbrev S96x32 : Shape := ⟨2, ![96, 32]⟩
abbrev S1x96 : Shape := ⟨2, ![1, 96]⟩
abbrev S800000x96 : Shape := ⟨2, ![800000, 96]⟩
abbrev S4000x128 : Shape := ⟨2, ![4000, 128]⟩
abbrev S4000x32 : Shape := ⟨2, ![4000, 32]⟩
abbrev S4000x1 : Shape := ⟨2, ![4000, 1]⟩
abbrev S4000x96 : Shape := ⟨2, ![4000, 96]⟩
abbrev S128x96 : Shape := ⟨2, ![128, 96]⟩
abbrev S32x96 : Shape := ⟨2, ![32, 96]⟩
abbrev S50000x96 : Shape := ⟨2, ![50000, 96]⟩
abbrev S50000x224 : Shape := ⟨2, ![50000, 224]⟩

abbrev nBuf : Space → Nat
  | .hbm => 83
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S96x160, .f32⟩
  | .hbm, ⟨3, _⟩ => ⟨S96, .f32⟩
  | .hbm, ⟨4, _⟩ => ⟨S64x128, .f32⟩
  | .hbm, ⟨5, _⟩ => ⟨S64, .f32⟩
  | .hbm, ⟨6, _⟩ => ⟨S32x32, .f32⟩
  | .hbm, ⟨7, _⟩ => ⟨S32, .f32⟩
  | .hbm, ⟨8, _⟩ => ⟨S2x800000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S1x64, .f32⟩
  | .hbm, ⟨14, _⟩ => ⟨S50000x64, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S1x32, .f32⟩
  | .hbm, ⟨50, _⟩ => ⟨S800000x32, .f32⟩
  | .hbm, ⟨51, _⟩ => ⟨S_, .f32⟩
  | .hbm, ⟨52, _⟩ => ⟨S50000x32, .f32⟩
  | .hbm, ⟨53, _⟩ => ⟨S800000x1, .i32⟩
  | .hbm, ⟨54, _⟩ => ⟨S50000x32, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x32, .f32⟩
  | .hbm, ⟨64, _⟩ => ⟨S96x128, .f32⟩
  | .hbm, ⟨65, _⟩ => ⟨S96x32, .f32⟩
  | .hbm, ⟨66, _⟩ => ⟨S800000x1, .f32⟩
  | .hbm, ⟨67, _⟩ => ⟨S1x96, .f32⟩
  | .hbm, ⟨68, _⟩ => ⟨S800000x96, .f32⟩
  | .hbm, ⟨69, _⟩ => ⟨S800000x32, .f32⟩
  | .hbm, ⟨70, _⟩ => ⟨S_, .f32⟩
  | .hbm, ⟨71, _⟩ => ⟨S50000x96, .f32⟩
  | .hbm, ⟨72, _⟩ => ⟨S800000x1, .i32⟩
  | .hbm, ⟨73, _⟩ => ⟨S50000x96, .f32⟩
  | .hbm, ⟨74, _⟩ => ⟨S_, .f32⟩
  | .hbm, ⟨75, _⟩ => ⟨S50000x96, .f32⟩
  | .hbm, ⟨76, _⟩ => ⟨S50000x96, .f32⟩
  | .hbm, ⟨77, _⟩ => ⟨S_, .f32⟩
  | .hbm, ⟨78, _⟩ => ⟨S50000x32, .f32⟩
  | .hbm, ⟨79, _⟩ => ⟨S800000x1, .i32⟩
  | .hbm, ⟨80, _⟩ => ⟨S50000x32, .f32⟩
  | .hbm, ⟨81, _⟩ => ⟨S50000x64, .f32⟩
  | .hbm, ⟨82, _⟩ => ⟨S50000x224, .f32⟩
  | .local _ .vmem, ⟨0, _⟩ => ⟨S5000x128, .f32⟩
  | .local _ .vmem, ⟨1, _⟩ => ⟨S5000x128, .f32⟩
  | .local _ .vmem, ⟨2, _⟩ => ⟨S64x128, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S8000x32, .f32⟩
  | .local _ .vmem, ⟨7, _⟩ => ⟨S8000x32, .f32⟩
  | .local _ .vmem, ⟨8, _⟩ => ⟨S32x32, .f32⟩
  | .local _ .vmem, ⟨9, _⟩ => ⟨S1x32, .f32⟩
  | .local _ .vmem, ⟨10, _⟩ => ⟨S8000x32, .f32⟩
  | .local _ .vmem, ⟨11, _⟩ => ⟨S8000x32, .f32⟩
  | .local _ .vmem, ⟨12, _⟩ => ⟨S4000x128, .f32⟩
  | .local _ .vmem, ⟨13, _⟩ => ⟨S4000x128, .f32⟩
  | .local _ .vmem, ⟨14, _⟩ => ⟨S4000x32, .f32⟩
  | .local _ .vmem, ⟨15, _⟩ => ⟨S4000x32, .f32⟩
  | .local _ .vmem, ⟨16, _⟩ => ⟨S4000x1, .f32⟩
  | .local _ .vmem, ⟨17, _⟩ => ⟨S4000x1, .f32⟩
  | .local _ .vmem, ⟨18, _⟩ => ⟨S4000x32, .f32⟩
  | .local _ .vmem, ⟨19, _⟩ => ⟨S4000x32, .f32⟩
  | .local _ .vmem, ⟨20, _⟩ => ⟨S96x128, .f32⟩
  | .local _ .vmem, ⟨21, _⟩ => ⟨S96x32, .f32⟩
  | .local _ .vmem, ⟨22, _⟩ => ⟨S1x96, .f32⟩
  | .local _ .vmem, ⟨23, _⟩ => ⟨S4000x96, .f32⟩
  | .local _ .vmem, ⟨24, _⟩ => ⟨S4000x96, .f32⟩
  | .local _ .vmem, ⟨25, _⟩ => ⟨S4000x32, .f32⟩
  | .local _ .vmem, ⟨26, _⟩ => ⟨S4000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45_0 : Ref sig .tc := ⟨.hbm, 68, rfl⟩
abbrev main_v45_1 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc2_stg8_0 : Ref sig .tc := ⟨.vmem, 25, rfl⟩
abbrev cc2_stg8_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc2_sem8_0 : DmaSem sig := 25
abbrev cc2_sem8_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S96x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S96x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x96 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x96 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S4000x32 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_1_0 : S2x800000.Slices ![1, 0] S1x800000
  shapeCasts_S1x800000_S800000 : S1x800000.ShapeCasts S800000
  slices_S2x800000_S1x800000_0_0 : S2x800000.Slices ![0, 0] S1x800000
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S32_S1x32 : S32.ShapeCasts S1x32
  inb_S8000x32_S8000x32_0_0 : ∀ a, (![0, 0] : Fin 2 → Nat) a + S8000x32.size a ≤ S8000x32.size a
  h_S8000x32 : 0 < S8000x32.numel
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  bcast_S_S50000x32 : S_.BroadcastsInDim S50000x32 (![] : Fin 0 → Fin S50000x32.rank)
  slices_S96x160_S96x128_0_0 : S96x160.Slices ![0, 0] S96x128
  slices_S96x160_S96x32_0_128 : S96x160.Slices ![0, 128] S96x32
  shapeCasts_S800000_S800000x1 : S800000.ShapeCasts S800000x1
  shapeCasts_S96_S1x96 : S96.ShapeCasts S1x96
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x32_S4000x32_0_0 : ∀ a, (![0, 0] : Fin 2 → Nat) a + S4000x32.size a ≤ S4000x32.size a
  h_S4000x32 : 0 < S4000x32.numel
  inb_S96x128_S96x128_0_0 : ∀ a, (![0, 0] : Fin 2 → Nat) a + S96x128.size a ≤ S96x128.size a
  h_S96x128 : 0 < S96x128.numel
  shapeCasts_S96x128_S96x128 : S96x128.ShapeCasts S96x128
  inb_S96x32_S96x32_0_0 : ∀ a, (![0, 0] : Fin 2 → Nat) a + S96x32.size a ≤ S96x32.size a
  h_S96x32 : 0 < S96x32.numel
  shapeCasts_S96x32_S96x32 : S96x32.ShapeCasts S96x32
  transposes_S96x128_p1_0_S128x96 : S96x128.Transposes [1, 0] S128x96
  transposes_S96x32_p1_0_S32x96 : S96x32.Transposes [1, 0] S32x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S4000x96 : S1x96.Broadcasts S4000x96
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x96 : S4000x1.Broadcasts S4000x96
  inb_S4000x96_S4000x96_0_0 : ∀ a, (![0, 0] : Fin 2 → Nat) a + S4000x96.size a ≤ S4000x96.size a
  h_S4000x96 : 0 < S4000x96.numel
  shapeCasts_S4000x32_S4000x32 : S4000x32.ShapeCasts S4000x32
  broadcasts_S4000x1_S4000x32 : S4000x1.Broadcasts S4000x32
  bcast_S_S50000x96 : S_.BroadcastsInDim S50000x96 (![] : Fin 0 → Fin S50000x96.rank)
  concatenates_S50000x32_S50000x32_S50000x64_d1 : Shape.Concatenates [S50000x32, S50000x32] S50000x64 1
  concatenates_S50000x64_S50000x64_S50000x96_S50000x224_d1 : Shape.Concatenates [S50000x64, S50000x64, S50000x96] S50000x224 1
  dot_S5000x128_S128x64_S5000x64_1_0_0_1_n_n_wf : DotDims.WF S5000x128 S128x64 S5000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  dot_S8000x32_S32x32_S8000x32_1_0_0_1_n_n_wf : DotDims.WF S8000x32 S32x32 S8000x32 [1] [0] [0] [1] [] []
  scatter_S50000x32_S800000x1_S800000x32_1_0_0_1_wf : ScatterDims.WF S50000x32 S800000x1 S800000x32 [1] [0] [0] 1
  gather_S50000x32_S800000x1_S800000x32_1_0_n_n_0_1_132_wf : GatherDims.WF S50000x32 S800000x1 S800000x32 [1] [0] [] [0] [] 1 ![1, 32]
  dot_S4000x128_S128x96_S4000x96_1_0_0_1_n_n_wf : DotDims.WF S4000x128 S128x96 S4000x96 [1] [0] [0] [1] [] []
  dot_S4000x32_S32x96_S4000x96_1_0_0_1_n_n_wf : DotDims.WF S4000x32 S32x96 S4000x96 [1] [0] [0] [1] [] []
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S800000x32.size a
  hwx1_0 : ∀ i : grid1.Coords, EltTy.bits .f32 = 32 ∨ (Rect.block (s := S800000x32) S8000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x32.size a ≤ S800000x32.size a
  hwx1_3 : ∀ i : grid1.Coords, EltTy.bits .f32 = 32 ∨ (Rect.block (s := S800000x32) S8000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S800000x128.size a
  hwx2_0 : ∀ i : grid2.Coords, EltTy.bits .f32 = 32 ∨ (Rect.block (s := S800000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x32.size a ≤ S800000x32.size a
  hwx2_1 : ∀ i : grid2.Coords, EltTy.bits .f32 = 32 ∨ (Rect.block (s := S800000x32) S4000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S800000x1.size a
  hwx2_2 : ∀ i : grid2.Coords, EltTy.bits .f32 = 32 ∨ (Rect.block (s := S800000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x32.size a ≤ S800000x32.size a
  hwx2_3 : ∀ i : grid2.Coords, EltTy.bits .f32 = 32 ∨ (Rect.block (s := S800000x32) S4000x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96x128.size a ≤ S96x128.size a
  hwx2_4 : ∀ i : grid2.Coords, EltTy.bits .f32 = 32 ∨ (Rect.block (s := S96x128) S96x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S96x32.size a ≤ S96x32.size a
  hwx2_5 : ∀ i : grid2.Coords, EltTy.bits .f32 = 32 ∨ (Rect.block (s := S96x32) S96x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x96.size a ≤ S1x96.size a
  hwx2_6 : ∀ i : grid2.Coords, EltTy.bits .f32 = 32 ∨ (Rect.block (s := S1x96) S1x96.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x96.size a ≤ S800000x96.size a
  hwx2_7 : ∀ i : grid2.Coords, EltTy.bits .f32 = 32 ∨ (Rect.block (s := S800000x96) S4000x96.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x32.size a ≤ S800000x32.size a
  hwx2_8 : ∀ i : grid2.Coords, EltTy.bits .f32 = 32 ∨ (Rect.block (s := S800000x32) S4000x32.size (cc2_transform_8 i) (hinb2_8 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S4000x128_S128x96_S4000x96_1_0_0_1_n_n : DotDims S4000x128 S128x96 S4000x96 where
  lhsContracting := [1]
  rhsContracting := [0]
  lhsNonContracting := [0]
  rhsNonContracting := [1]
  lhsBatch := []
  rhsBatch := []
  wf := dot_S4000x128_S128x96_S4000x96_1_0_0_1_n_n_wf
def dot_S4000x32_S32x96_S4000x96_1_0_0_1_n_n : DotDims S4000x32 S32x96 S4000x96 where
  lhsContracting := [1]
  rhsContracting := [0]
  lhsNonContracting := [0]
  rhsNonContracting := [1]
  lhsBatch := []
  rhsBatch := []
  wf := dot_S4000x32_S32x96_S4000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S8000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S4000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S4000x32.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41) S96x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S96x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S1x96.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v45_0) S4000x96.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v45_1) S4000x32.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x32 : Shape := ⟨2, ![800000, 32]⟩
abbrev S96x160 : Shape := ⟨2, ![96, 160]⟩
abbrev S96 : Shape := ⟨1, ![96]⟩
abbrev S64x128 : Shape := ⟨2, ![64, 128]⟩
abbrev S64 : Shape := ⟨1, ![64]⟩
abbrev S32x32 : Shape := ⟨2, ![32, 32]⟩
abbrev S32 : Shape := ⟨1, ![32]⟩
abbrev S2x800000 : Shape := ⟨2, ![2, 800000]⟩
abbrev S1x800000 : Shape := ⟨2, ![1, 800000]⟩
abbrev S800000 : Shape := ⟨1, ![800000]⟩
abbrev S128x64 : Shape := ⟨2, ![128, 64]⟩
abbrev S50000x64 : Shape := ⟨2, ![50000, 64]⟩
abbrev S1x64 : Shape := ⟨2, ![1, 64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S800000x160 : Shape := ⟨2, ![800000, 160]⟩
abbrev S160x96 : Shape := ⟨2, ![160, 96]⟩
abbrev S800000x96 : Shape := ⟨2, ![800000, 96]⟩
abbrev S1x96 : Shape := ⟨2, ![1, 96]⟩
abbrev S50000x96 : Shape := ⟨2, ![50000, 96]⟩
abbrev S1x32 : Shape := ⟨2, ![1, 32]⟩
abbrev S50000x32 : Shape := ⟨2, ![50000, 32]⟩
abbrev S50000x224 : Shape := ⟨2, ![50000, 224]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S96x160, .f32⟩
  | .hbm, ⟨3, _⟩ => ⟨S96, .f32⟩
  | .hbm, ⟨4, _⟩ => ⟨S64x128, .f32⟩
  | .hbm, ⟨5, _⟩ => ⟨S64, .f32⟩
  | .hbm, ⟨6, _⟩ => ⟨S32x32, .f32⟩
  | .hbm, ⟨7, _⟩ => ⟨S32, .f32⟩
  | .hbm, ⟨8, _⟩ => ⟨S2x800000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S128x64, .f32⟩
  | .hbm, ⟨14, _⟩ => ⟨S50000x64, .f32⟩
  | .hbm, ⟨15, _⟩ => ⟨S1x64, .f32⟩
  | .hbm, ⟨16, _⟩ => ⟨S50000x64, .f32⟩
  | .hbm, ⟨17, _⟩ => ⟨S50000x64, .f32⟩
  | .hbm, ⟨18, _⟩ => ⟨S_, .f32⟩
  | .hbm, ⟨19, _⟩ => ⟨S50000x64, .f32⟩
  | .hbm, ⟨20, _⟩ => ⟨S50000x64, .f32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .i1⟩
  | .hbm, ⟨37, _⟩ => ⟨S50000, .f32⟩
  | .hbm, ⟨38, _⟩ => ⟨S50000, .f32⟩
  | .hbm, ⟨39, _⟩ => ⟨S_, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .i1⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S_, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S800000x160, .f32⟩
  | .hbm, ⟨72, _⟩ => ⟨S800000x1, .f32⟩
  | .hbm, ⟨73, _⟩ => ⟨S160x96, .f32⟩
  | .hbm, ⟨74, _⟩ => ⟨S800000x96, .f32⟩
  | .hbm, ⟨75, _⟩ => ⟨S1x96, .f32⟩
  | .hbm, ⟨76, _⟩ => ⟨S800000x96, .f32⟩
  | .hbm, ⟨77, _⟩ => ⟨S800000x96, .f32⟩
  | .hbm, ⟨78, _⟩ => ⟨S800000x96, .f32⟩
  | .hbm, ⟨79, _⟩ => ⟨S800000x96, .f32⟩
  | .hbm, ⟨80, _⟩ => ⟨S_, .f32⟩
  | .hbm, ⟨81, _⟩ => ⟨S50000x96, .f32⟩
  | .hbm, ⟨82, _⟩ => ⟨S800000x1, .i32⟩
  | .hbm, ⟨83, _⟩ => ⟨S50000x96, .f32⟩
  | .hbm, ⟨84, _⟩ => ⟨S_, .f32⟩
  | .hbm, ⟨85, _⟩ => ⟨S50000x96, .f32⟩
  | .hbm, ⟨86, _⟩ => ⟨S50000x96, .f32⟩
  | .hbm, ⟨87, _⟩ => ⟨S32x32, .f32⟩
  | .hbm, ⟨88, _⟩ => ⟨S800000x32, .f32⟩
  | .hbm, ⟨89, _⟩ => ⟨S1x32, .f32⟩
  | .hbm, ⟨90, _⟩ => ⟨S800000x32, .f32⟩
  | .hbm, ⟨91, _⟩ => ⟨S800000x32, .f32⟩
  | .hbm, ⟨92, _⟩ => ⟨S_, .f32⟩
  | .hbm, ⟨93, _⟩ => ⟨S800000x32, .f32⟩
  | .hbm, ⟨94, _⟩ => ⟨S800000x32, .f32⟩
  | .hbm, ⟨95, _⟩ => ⟨S_, .f32⟩
  | .hbm, ⟨96, _⟩ => ⟨S50000x32, .f32⟩
  | .hbm, ⟨97, _⟩ => ⟨S800000x1, .i32⟩
  | .hbm, ⟨98, _⟩ => ⟨S50000x32, .f32⟩
  | .hbm, ⟨99, _⟩ => ⟨S800000x1, .f32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000x32, .f32⟩
  | .hbm, ⟨109, _⟩ => ⟨S800000x32, .f32⟩
  | .hbm, ⟨110, _⟩ => ⟨S800000x32, .f32⟩
  | .hbm, ⟨111, _⟩ => ⟨S_, .f32⟩
  | .hbm, ⟨112, _⟩ => ⟨S50000x32, .f32⟩
  | .hbm, ⟨113, _⟩ => ⟨S800000x1, .i32⟩
  | .hbm, ⟨114, _⟩ => ⟨S50000x32, .f32⟩
  | .hbm, ⟨115, _⟩ => ⟨S50000x64, .f32⟩
  | .hbm, ⟨116, _⟩ => ⟨S50000x224, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_call2_v0 : Ref sig .tc := ⟨.hbm, 50, rfl⟩
abbrev main_call2_v1 : Ref sig .tc := ⟨.hbm, 51, rfl⟩
abbrev main_v28 : Ref sig .tc := ⟨.hbm, 52, rfl⟩
abbrev main_c : Ref sig .tc := ⟨.hbm, 53, rfl⟩
abbrev main_v29 : Ref sig .tc := ⟨.hbm, 54, rfl⟩
abbrev main_v30 : Ref sig .tc := ⟨.hbm, 55, rfl⟩
abbrev main_c_8 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_9 : Ref sig .tc := ⟨.hbm, 62, rfl⟩
abbrev main_v36 : Ref sig .tc := ⟨.hbm, 63, rfl⟩
abbrev main_v37 : Ref sig .tc := ⟨.hbm, 64, rfl⟩
abbrev main_c_10 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call3_cst : Ref sig .tc := ⟨.hbm, 84, rfl⟩
abbrev main_call3_v0 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call4_cst : Ref sig .tc := ⟨.hbm, 92, rfl⟩
abbrev main_call4_v0 : Ref sig .tc := ⟨.hbm, 93, rfl⟩
abbrev main_v61 : Ref sig .tc := ⟨.hbm, 94, rfl⟩
abbrev main_cst_12 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_13 : Ref sig .tc := ⟨.hbm, 100, rfl⟩
abbrev main_v66 : Ref sig .tc := ⟨.hbm, 101, rfl⟩
abbrev main_v67 : Ref sig .tc := ⟨.hbm, 102, rfl⟩
abbrev main_c_14 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  slices_S2x800000_S1x800000_0_0 : S2x800000.Slices ![0, 0] S1x800000
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  concatenates_S800000x128_S800000x32_S800000x160_d1 : Shape.Concatenates [S800000x128, S800000x32] S800000x160 1
  transposes_S96x160_S160x96_1_0 : S96x160.Transposes [1, 0] S160x96
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  transposes_S32x32_S32x32_1_0 : S32x32.Transposes [1, 0] S32x32
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S_S50000x32 : S_.BroadcastsInDim S50000x32 (![] : Fin 0 → Fin S50000x32.rank)
  bcast_S800000x1_S800000x32_0_1 : S800000x1.BroadcastsInDim S800000x32 (![0, 1] : Fin 2 → Fin S800000x32.rank)
  concatenates_S50000x32_S50000x32_S50000x64_d1 : Shape.Concatenates [S50000x32, S50000x32] S50000x64 1
  concatenates_S50000x64_S50000x64_S50000x96_S50000x224_d1 : Shape.Concatenates [S50000x64, S50000x64, S50000x96] S50000x224 1
  dot_S50000x128_S128x64_S50000x64_1_0_0_1_n_n_wf : DotDims.WF S50000x128 S128x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  dot_S800000x160_S160x96_S800000x96_1_0_0_1_n_n_wf : DotDims.WF S800000x160 S160x96 S800000x96 [1] [0] [0] [1] [] []
  scatter_S50000x96_S800000x1_S800000x96_1_0_0_1_wf : ScatterDims.WF S50000x96 S800000x1 S800000x96 [1] [0] [0] 1
  dot_S800000x32_S32x32_S800000x32_1_0_0_1_n_n_wf : DotDims.WF S800000x32 S32x32 S800000x32 [1] [0] [0] [1] [] []
  scatter_S50000x32_S800000x1_S800000x32_1_0_0_1_wf : ScatterDims.WF S50000x32 S800000x1 S800000x32 [1] [0] [0] 1
  gather_S50000x32_S800000x1_S800000x32_1_0_n_n_0_1_132_wf : GatherDims.WF S50000x32 S800000x1 S800000x32 [1] [0] [] [0] [] 1 ![1, 32]

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x160_S160x96_S800000x96_1_0_0_1_n_n : DotDims S800000x160 S160x96 S800000x96 where
  lhsContracting := [1]
  rhsContracting := [0]
  lhsNonContracting := [0]
  rhsNonContracting := [1]
  lhsBatch := []
  rhsBatch := []
  wf := dot_S800000x160_S160x96_S800000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf

class Facts : Prop extends Facts₀ where

variable [Facts]
-- ==== Proof.Kernel.Region0.lean ====
/- The first pallas_call (the node branch: a row block of x against the whole weight matrix, plus the bias row, clipped
   below at zero), taken by itself at the buffer contents `V` it is entered from: what each of its windows holds at a
   grid point, what one run of the body leaves in the output block, and the pipeline's obligation for the body at every
   point. Nothing here depends on the float instance. -/
import proofs.«107213_j40037685133334_1_alg».proof.Proof.Gen.Kernel.Launch
import proofs.«107213_j40037685133334_1_alg».proof.Proof.Gen.Kernel.Skeleton
import proofs.«107213_j40037685133334_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the call finds it) that the index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether or not the pipeline fetched it
    there: where it did not, the block index has not moved since the last fetch and the body left the buffer alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body reads each input block whole and writes the output block whole: the four rectangles. -/
abbrev rx0 : Rect S5000x128 := Rect.unit (s := S5000x128) ![0, 0] S5000x128.size inb_S5000x128_S5000x128_0_0
abbrev rw0 : Rect S64x128 := Rect.unit (s := S64x128) ![0, 0] S64x128.size inb_S64x128_S64x128_0_0
abbrev rb0 : Rect S1x64 := Rect.unit (s := S1x64) ![0, 0] S1x64.size inb_S1x64_S1x64_0_0
abbrev ro0 : Rect S5000x64 := Rect.unit (s := S5000x64) ![0, 0] S5000x64.size inb_S5000x64_S5000x64_0_0

/-- What one run of the body leaves in the output block, from the three input blocks: its single store. -/
def out0_3 (x0 : Vec F S5000x128 .f32) (x1 : Vec F S64x128 .f32) (x2 : Vec F S1x64 .f32) : Vec F S5000x64 .f32 :=
  View.canon [⟨ro0, k0_pay1 (View.ld x0 rx0) (View.ld x1 rw0) (View.ld x2 rb0)⟩]

/-- That store covers the whole block. -/
theorem cover0_3 (p0 : Vec F S5000x64 .f32) (y : S5000x64.Idx) :
    ∃ pc ∈ ([⟨ro0, p0⟩] : List (View.Piece (Elt F) S5000x64 .f32)), y ∈ pc.1.set :=
  View.cover_of_tiled [⟨ro0, p0⟩] S5000x64.size (by rfl) y

set_option maxHeartbeats 1000000 in
/-- The body on whole buffers: the inputs at `x0 x1 x2` and the output at anything run to the continuation with the inputs
    unchanged and the output at `out0_3 x0 x1 x2`. -/
theorem sound_kernel0 (c : Dev nD) (E : Set ℕ) (i : grid0.Coords)
    (arg1 : Memref sig .tc .vmem S5000x128 .f32) (harg1 : arg1.IsWhole) (arg2 : Memref sig .tc .vmem S64x128 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x128 .f32) (x1 : Vec F S64x128 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__ego_kernel i arg1 harg1 arg2 harg2 arg3 harg3 arg4 harg4) K := by
  simp only [cc0__ego_kernel_eq_skeleton]; unfold cc0__ego_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data for this call on core `c`: its arrays as the call finds them; after the body at point `t`
    each input's buffer still at its block and the output's at `out0_3` of the three blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the pipeline hands the body at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it takes back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1.lean ====
/- The second pallas_call (the edge branch: a row block of the edge attributes against the whole weight matrix, plus the bias row, clipped
   below at zero), taken by itself at the buffer contents `V` it is entered from: what each of its windows holds at a
   grid point, what one run of the body leaves in the output block, and the pipeline's obligation for the body at every
   point. Nothing here depends on the float instance. -/
import proofs.«107213_j40037685133334_1_alg».proof.Proof.Gen.Kernel.Launch
import proofs.«107213_j40037685133334_1_alg».proof.Proof.Gen.Kernel.Skeleton
import proofs.«107213_j40037685133334_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the call finds it) that the index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether or not the pipeline fetched it
    there: where it did not, the block index has not moved since the last fetch and the body left the buffer alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body reads each input block whole and writes the output block whole: the four rectangles. -/
abbrev rx1 : Rect S8000x32 := Rect.unit (s := S8000x32) ![0, 0] S8000x32.size inb_S8000x32_S8000x32_0_0
abbrev rw1 : Rect S32x32 := Rect.unit (s := S32x32) ![0, 0] S32x32.size inb_S32x32_S32x32_0_0
abbrev rb1 : Rect S1x32 := Rect.unit (s := S1x32) ![0, 0] S1x32.size inb_S1x32_S1x32_0_0
abbrev ro1 : Rect S8000x32 := Rect.unit (s := S8000x32) ![0, 0] S8000x32.size inb_S8000x32_S8000x32_0_0

/-- What one run of the body leaves in the output block, from the three input blocks: its single store. -/
def out1_3 (x0 : Vec F S8000x32 .f32) (x1 : Vec F S32x32 .f32) (x2 : Vec F S1x32 .f32) : Vec F S8000x32 .f32 :=
  View.canon [⟨ro1, k1_pay1 (View.ld x0 rx1) (View.ld x1 rw1) (View.ld x2 rb1)⟩]

/-- That store covers the whole block. -/
theorem cover1_3 (p0 : Vec F S8000x32 .f32) (y : S8000x32.Idx) :
    ∃ pc ∈ ([⟨ro1, p0⟩] : List (View.Piece (Elt F) S8000x32 .f32)), y ∈ pc.1.set :=
  View.cover_of_tiled [⟨ro1, p0⟩] S8000x32.size (by rfl) y

set_option maxHeartbeats 1000000 in
/-- The body on whole buffers: the inputs at `x0 x1 x2` and the output at anything run to the continuation with the inputs
    unchanged and the output at `out1_3 x0 x1 x2`. -/
theorem sound_kernel1 (c : Dev nD) (E : Set ℕ) (i : grid1.Coords)
    (arg1 : Memref sig .tc .vmem S8000x32 .f32) (harg1 : arg1.IsWhole) (arg2 : Memref sig .tc .vmem S32x32 .f32) (harg2 : arg2.IsWhole)
    (arg3 : Memref sig .tc .vmem S1x32 .f32) (harg3 : arg3.IsWhole) (arg4 : Memref sig .tc .vmem S8000x32 .f32) (harg4 : arg4.IsWhole)
    (x0 : Vec F S8000x32 .f32) (x1 : Vec F S32x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__edge_kernel i arg1 harg1 arg2 harg2 arg3 harg3 arg4 harg4) K := by
  simp only [cc1__edge_kernel_eq_skeleton]; unfold cc1__edge_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data for this call on core `c`: its arrays as the call finds them; after the body at point `t`
    each input's buffer still at its block and the output's at `out1_3` of the three blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the pipeline hands the body at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it takes back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Region2.lean ====
/- The third pallas_call (the neighbour branch: a block of gathered node rows against the first 128 columns of the weight
   matrix, plus the same block of edge attributes against the last 32 columns, plus the bias row, every row then scaled by
   its edge's normalisation factor; beside it the gathered aggregate rows scaled by the same factor), taken by itself at
   the buffer contents `V` it is entered from: what each of its nine windows holds at a grid point, what one run of the
   body leaves in the two output blocks, and the pipeline's obligation for the body at every point. Nothing here depends
   on the float instance. -/
import proofs.«107213_j40037685133334_1_alg».proof.Proof.Gen.Kernel.Launch
import proofs.«107213_j40037685133334_1_alg».proof.Proof.Gen.Kernel.Skeleton
import proofs.«107213_j40037685133334_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the call finds it) that the index map selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether or not the pipeline fetched it
    there: where it did not, the block index has not moved since the last fetch and the body left the buffer alone.
    One statement per input window (windows 0 to 6). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The body reads each input block whole and writes each output block whole: one rectangle per block shape. -/
abbrev r2_128 : Rect S4000x128 := Rect.unit (s := S4000x128) ![0, 0] S4000x128.size inb_S4000x128_S4000x128_0_0
abbrev r2_32 : Rect S4000x32 := Rect.unit (s := S4000x32) ![0, 0] S4000x32.size inb_S4000x32_S4000x32_0_0
abbrev r2_1 : Rect S4000x1 := Rect.unit (s := S4000x1) ![0, 0] S4000x1.size inb_S4000x1_S4000x1_0_0
abbrev r2_w1 : Rect S96x128 := Rect.unit (s := S96x128) ![0, 0] S96x128.size inb_S96x128_S96x128_0_0
abbrev r2_w2 : Rect S96x32 := Rect.unit (s := S96x32) ![0, 0] S96x32.size inb_S96x32_S96x32_0_0
abbrev r2_b : Rect S1x96 := Rect.unit (s := S1x96) ![0, 0] S1x96.size inb_S1x96_S1x96_0_0
abbrev r2_96 : Rect S4000x96 := Rect.unit (s := S4000x96) ![0, 0] S4000x96.size inb_S4000x96_S4000x96_0_0

/-- What one run of the body leaves in the first output block (the scaled linear map), from the six input blocks it
    reads: its single store. -/
def out2_7 (x0 : Vec F S4000x128 .f32) (x1 : Vec F S4000x32 .f32) (x2 : Vec F S4000x1 .f32) (x4 : Vec F S96x128 .f32)
    (x5 : Vec F S96x32 .f32) (x6 : Vec F S1x96 .f32) : Vec F S4000x96 .f32 :=
  View.canon [⟨r2_96, k2_pay2 (View.ld x0 r2_128) (View.ld x1 r2_32) (View.ld x4 r2_w1) (View.ld x5 r2_w2) (View.ld x6 r2_b) (View.ld x2 r2_1)⟩]

/-- What it leaves in the second output block (the scaled aggregate rows), from the factor column and the aggregate
    block: its single store. -/
def out2_8 (x2 : Vec F S4000x1 .f32) (x3 : Vec F S4000x32 .f32) : Vec F S4000x32 .f32 :=
  View.canon [⟨r2_32, k2_pay3 (View.ld x2 r2_1) (View.ld x3 r2_32)⟩]

/-- Each store covers its whole block. -/
theorem cover2_7 (p0 : Vec F S4000x96 .f32) (y : S4000x96.Idx) :
    ∃ pc ∈ ([⟨r2_96, p0⟩] : List (View.Piece (Elt F) S4000x96 .f32)), y ∈ pc.1.set :=
  View.cover_of_tiled [⟨r2_96, p0⟩] S4000x96.size (by rfl) y
theorem cover2_8 (p0 : Vec F S4000x32 .f32) (y : S4000x32.Idx) :
    ∃ pc ∈ ([⟨r2_32, p0⟩] : List (View.Piece (Elt F) S4000x32 .f32)), y ∈ pc.1.set :=
  View.cover_of_tiled [⟨r2_32, p0⟩] S4000x32.size (by rfl) y

set_option maxHeartbeats 2000000 in
/-- The body on whole buffers: the seven inputs at `x0 … x6` and the two outputs at anything run to the continuation
    with the inputs unchanged and the outputs at `out2_7` and `out2_8` of the inputs. -/
theorem sound_kernel2 (c : Dev nD) (E : Set ℕ) (i : grid2.Coords)
    (arg1 : Memref sig .tc .vmem S4000x128 .f32) (harg1 : arg1.IsWhole) (arg2 : Memref sig .tc .vmem S4000x32 .f32) (harg2 : arg2.IsWhole)
    (arg3 : Memref sig .tc .vmem S4000x1 .f32) (harg3 : arg3.IsWhole) (arg4 : Memref sig .tc .vmem S4000x32 .f32) (harg4 : arg4.IsWhole)
    (arg5 : Memref sig .tc .vmem S96x128 .f32) (harg5 : arg5.IsWhole) (arg6 : Memref sig .tc .vmem S96x32 .f32) (harg6 : arg6.IsWhole)
    (arg7 : Memref sig .tc .vmem S1x96 .f32) (harg7 : arg7.IsWhole) (arg8 : Memref sig .tc .vmem S4000x96 .f32) (harg8 : arg8.IsWhole)
    (arg9 : Memref sig .tc .vmem S4000x32 .f32) (harg9 : arg9.IsWhole)
    (x0 : Vec F S4000x128 .f32) (x1 : Vec F S4000x32 .f32) (x2 : Vec F S4000x1 .f32) (x3 : Vec F S4000x32 .f32)
    (x4 : Vec F S96x128 .f32) (x5 : Vec F S96x32 .f32) (x6 : Vec F S1x96 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out2_7 x0 x1 x2 x4 x5 x6) ∗ owns (c : Thread nD τ) arg9 fullShare (out2_8 x2 x3)) -∗ K ⟨⟩))
      ⊢ wp frame (wpE (defs₀ (F := F)) Variants.none c none) E
          (cc2__peer_kernel i arg1 harg1 arg2 harg2 arg3 harg3 arg4 harg4 arg5 harg5 arg6 harg6 arg7 harg7 arg8 harg8 arg9 harg9) K := by
  simp only [cc2__peer_kernel_eq_skeleton]; unfold cc2__peer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_7 _)
  iexists _; isplitr
  swap; · iexact H8
  ipureintro
  exact View.read_writes_eq_canon _ _ _ (cover2_8 _)

/-- The pipeline's proof data for this call on core `c`: its arrays as the call finds them; after the body at point `t`
    each input's buffer still at its block and the two outputs' at `out2_7` and `out2_8` of the blocks; nothing owed,
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 4 t) (iblk2 V c 5 t) (iblk2 V c 6 t)
    | ⟨8, _⟩ => out2_8 (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 4 t) (iblk2 V c 5 t) (iblk2 V c 6 t) := by
  dsimp only [dat2]
theorem after2_8 (c : Dev nD) (t : Fin cfg2.N) : (dat2 V c).after 8 t = out2_8 (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the pipeline hands the body at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it takes back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Run.lean ====
/- The whole program as a chain of eleven items — eight stretches of host operations and the three pallas_calls — run
   from the launch to the return. At each boundary between two items every buffer of the TensorCore has known contents:
   the launch memory pushed through the host stretches' operations, and through each call as "the call's output arrays at
   what its write-backs leave, every other buffer untouched". The chain's end is read against the final memory, so the one
   run theorem here names the final contents of EVERY buffer; the frame claim (the nine argument arrays end as launched)
   is read off it, because no host operation and no call writes an argument. Nothing here depends on the float instance. -/
import proofs.«107213_j40037685133334_1_alg».proof.Proof.Kernel.Region0
import proofs.«107213_j40037685133334_1_alg».proof.Proof.Kernel.Region1
import proofs.«107213_j40037685133334_1_alg».proof.Proof.Kernel.Region2
import proofs.«107213_j40037685133334_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch: where the first call is entered. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the first call: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the three host stretches between the first and the second call. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev U5 : (c : Dev nD) → (b : Ref sig .tc) → Buf (Elt F) ((c : Thread nD τ).loc b) := fun c b => W5 m ρ c b
/-- After the second call. -/
def W6 (c : Dev nD) : Valuation τ sig (Elt F) :=
  Pipeline.withArrays spec1 c (W5 m ρ c) fun w => (dat1 (U5 m ρ) c).arrAt w cfg1.N
theorem W6_arr (c : Dev nD) (w : Fin cfg1.W) :
    W6 m ρ c (Proc.devRef .tc (Pipeline.arrRef spec1 w)) = (dat1 (U5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev U6 : (c : Dev nD) → (b : Ref sig .tc) → Buf (Elt F) ((c : Thread nD τ).loc b) := fun c b => W6 m ρ c b
theorem hF1 (c : Dev nD) (w : Fin cfg1.W) : (dat1 (U5 m ρ) c).arrAt w cfg1.N = U6 m ρ c (Pipeline.arrRef spec1 w) :=
  (W6_arr m ρ c w).symm
theorem hrest1 (c : Dev nD) : ∀ b, b ∉ Finset.univ.image (Pipeline.arrRef spec1) → U6 m ρ c b = U5 m ρ c b :=
  fun b hb => W6_of_ne m ρ c b fun w e => hb (Finset.mem_image.mpr ⟨w, Finset.mem_univ _, e⟩)

/-- After the host stretch between the second and the third call. -/
abbrev W7 : Dev nD → Valuation τ sig (Elt F) := fun c => StableHlo.after hostOps2 (W6 m ρ c)
abbrev U7 : (c : Dev nD) → (b : Ref sig .tc) → Buf (Elt F) ((c : Thread nD τ).loc b) := fun c b => W7 m ρ c b
/-- After the third call. -/
def W8 (c : Dev nD) : Valuation τ sig (Elt F) :=
  Pipeline.withArrays spec2 c (W7 m ρ c) fun w => (dat2 (U7 m ρ) c).arrAt w cfg2.N
theorem W8_arr (c : Dev nD) (w : Fin cfg2.W) :
    W8 m ρ c (Proc.devRef .tc (Pipeline.arrRef spec2 w)) = (dat2 (U7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev U8 : (c : Dev nD) → (b : Ref sig .tc) → Buf (Elt F) ((c : Thread nD τ).loc b) := fun c b => W8 m ρ c b
theorem hF2 (c : Dev nD) (w : Fin cfg2.W) : (dat2 (U7 m ρ) c).arrAt w cfg2.N = U8 m ρ c (Pipeline.arrRef spec2 w) :=
  (W8_arr m ρ c w).symm
theorem hrest2 (c : Dev nD) : ∀ b, b ∉ Finset.univ.image (Pipeline.arrRef spec2) → U8 m ρ c b = U7 m ρ c b :=
  fun b hb => W8_of_ne m ρ c b fun w e => hb (Finset.mem_image.mpr ⟨w, Finset.mem_univ _, e⟩)

/-- After the three closing host stretches: the contents at the return. -/
abbrev W9 : Dev nD → Valuation τ sig (Elt F) := fun c => StableHlo.after hostOps3 (W8 m ρ c)
abbrev W10 : Dev nD → Valuation τ sig (Elt F) := fun c => StableHlo.after hostOps3_1 (W9 m ρ c)
abbrev W11 : Dev nD → Valuation τ sig (Elt F) := fun c => StableHlo.after hostOps3_2 (W10 m ρ c)

/-! ## A call changes only its output arrays -/

/-- The first call leaves every buffer but its output array `main_v5` as it found it: an input array is never written
    back, and a buffer that is no array of the call is not touched. -/
theorem W2_keep (c : Dev nD) (b : Ref sig .tc) (hb : b ≠ main_v5) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      match w, hb with
      | ⟨0, _⟩, _ => rfl
      | ⟨1, _⟩, _ => rfl
      | ⟨2, _⟩, _ => rfl
      | ⟨3, _⟩, hb => exact absurd rfl hb
    rw [W2_arr]
    exact ((dat0 (U1 m ρ) c).arrAt_in w hw _).trans (A_eq0 (U1 m ρ) c w)
  · exact W2_of_ne m ρ c b fun w e => h ⟨w, e⟩

/-- The second call leaves every buffer but `main_v30` as it found it. -/
theorem W6_keep (c : Dev nD) (b : Ref sig .tc) (hb : b ≠ main_v30) :
    W6 m ρ c (Proc.devRef .tc b) = W5 m ρ c (Proc.devRef .tc b) := by
  by_cases h : ∃ w, Pipeline.arrRef spec1 w = b
  · obtain ⟨w, rfl⟩ := h
    have hw : (cfg1.win w).isOut = false := by
      match w, hb with
      | ⟨0, _⟩, _ => rfl
      | ⟨1, _⟩, _ => rfl
      | ⟨2, _⟩, _ => rfl
      | ⟨3, _⟩, hb => exact absurd rfl hb
    rw [W6_arr]
    exact ((dat1 (U5 m ρ) c).arrAt_in w hw _).trans (A_eq1 (U5 m ρ) c w)
  · exact W6_of_ne m ρ c b fun w e => h ⟨w, e⟩

/-- The third call leaves every buffer but `main_v45_0` and `main_v45_1` as it found it. -/
theorem W8_keep (c : Dev nD) (b : Ref sig .tc) (hb0 : b ≠ main_v45_0) (hb1 : b ≠ main_v45_1) :
    W8 m ρ c (Proc.devRef .tc b) = W7 m ρ c (Proc.devRef .tc b) := by
  by_cases h : ∃ w, Pipeline.arrRef spec2 w = b
  · obtain ⟨w, rfl⟩ := h
    have hw : (cfg2.win w).isOut = false := by
      match w, hb0, hb1 with
      | ⟨0, _⟩, _, _ => rfl
      | ⟨1, _⟩, _, _ => rfl
      | ⟨2, _⟩, _, _ => rfl
      | ⟨3, _⟩, _, _ => rfl
      | ⟨4, _⟩, _, _ => rfl
      | ⟨5, _⟩, _, _ => rfl
      | ⟨6, _⟩, _, _ => rfl
      | ⟨7, _⟩, hb0, _ => exact absurd rfl hb0
      | ⟨8, _⟩, _, hb1 => exact absurd rfl hb1
    rw [W8_arr]
    exact ((dat2 (U7 m ρ) c).arrAt_in w hw _).trans (A_eq2 (U7 m ρ) c w)
  · exact W8_of_ne m ρ c b fun w e => h ⟨w, e⟩

/-- A buffer that no host stretch writes and that is no call's output array holds at the return what it held at launch. -/
theorem W11_keep (c : Dev nD) (b : Ref sig .tc)
    (h0 : b ∉ hostOps0_W) (h1 : b ≠ main_v5) (h2 : b ∉ hostOps1_W) (h3 : b ∉ hostOps1_1_W) (h4 : b ∉ hostOps1_2_W)
    (h5 : b ≠ main_v30) (h6 : b ∉ hostOps2_W) (h7 : b ≠ main_v45_0) (h7' : b ≠ main_v45_1)
    (h8 : b ∉ hostOps3_W) (h9 : b ∉ hostOps3_1_W) (h10 : b ∉ hostOps3_2_W) :
    W11 m ρ c (Proc.devRef .tc b) = m ((c : Thread nD τ).loc b) :=
  calc W11 m ρ c (Proc.devRef .tc b)
    _ = W10 m ρ c (Proc.devRef .tc b) := StableHlo.after_of_writes_sub hostOps3_2 _ hostOps3_2_writes h10
    _ = W9 m ρ c (Proc.devRef .tc b) := StableHlo.after_of_writes_sub hostOps3_1 _ hostOps3_1_writes h9
    _ = W8 m ρ c (Proc.devRef .tc b) := StableHlo.after_of_writes_sub hostOps3 _ hostOps3_writes h8
    _ = W7 m ρ c (Proc.devRef .tc b) := W8_keep m ρ c b h7 h7'
    _ = W6 m ρ c (Proc.devRef .tc b) := StableHlo.after_of_writes_sub hostOps2 _ hostOps2_writes h6
    _ = W5 m ρ c (Proc.devRef .tc b) := W6_keep m ρ c b h5
    _ = W4 m ρ c (Proc.devRef .tc b) := StableHlo.after_of_writes_sub hostOps1_2 _ hostOps1_2_writes h4
    _ = W3 m ρ c (Proc.devRef .tc b) := StableHlo.after_of_writes_sub hostOps1_1 _ hostOps1_1_writes h3
    _ = W2 m ρ c (Proc.devRef .tc b) := StableHlo.after_of_writes_sub hostOps1 _ hostOps1_writes h2
    _ = W1 m ρ c (Proc.devRef .tc b) := W2_keep m ρ c b h1
    _ = W0 m ρ c (Proc.devRef .tc b) := StableHlo.after_of_writes_sub hostOps0 _ hostOps0_writes h0
    _ = m ((c : Thread nD τ).loc b) := rfl

/-! ## The proof data family and the thread state -/

/-- Every pipeline's proof data, each at its call's entry contents. -/
def pdat : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U5 m ρ) c
  | ⟨2, _⟩ => fun c => dat2 (U7 m ρ) c
abbrev 𝒱n : Variants := Variants.none
/-- No core owes another anything: no level is assigned. -/
abbrev Ln : GSem nD τ sig → Finset Unit := fun _ => ∅
abbrev lvn : GSem nD τ sig → Unit → ℕ := fun _ _ => 0
/-- What rides beside the buffers through every item: the core's generator register at some state and its debt, at nothing. -/
abbrev Rst (c : Dev nD) : sProp 𝕄 := iprop((∃ r, prngReg c r) ∗ ∃ W, owes (c : Thread nD τ) (0 : CellTallies nD τ sig Unit) W)
/-- A host stretch as an item: from the contents `W` to those contents pushed through its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as items -/

set_option backward.isDefEq.respectTransparency.types false in
/-- The first call: entered with every unscoped buffer at `W1`, left with them at `W2`. Its arrays are split out of the
    unscoped buffers at entry and put back at the exit contents; the generator register goes into the pipeline's
    invariant and comes back; nothing is owed. -/
def reg0 : Pipeline.RegionSeg (pcfgs (F := F)) adm (pdat m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Ln lvn 0 fun _ _ => rfl
  pre c := iprop(StableHlo.held (c : Thread nD τ) (Pipeline.ucRefs τ sig) (W1 m ρ c) ∗ Rst c)
  post c := iprop(StableHlo.held (c : Thread nD τ) (Pipeline.ucRefs τ sig) (W2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdat m ρ) launch0.win launch0.arr_whole c
      ((pdat m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdat m ρ) ((pdat m ρ 0 c).share_full fun _ => rfl)
      (U1 m ρ c) (U2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered with every unscoped buffer at `W5`, left with them at `W6`. -/
def reg1 : Pipeline.RegionSeg (pcfgs (F := F)) adm (pdat m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ Ln lvn 1 fun _ _ => rfl
  pre c := iprop(StableHlo.held (c : Thread nD τ) (Pipeline.ucRefs τ sig) (W5 m ρ c) ∗ Rst c)
  post c := iprop(StableHlo.held (c : Thread nD τ) (Pipeline.ucRefs τ sig) (W6 m ρ c) ∗ Rst c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) adm (pdat m ρ) launch1.win launch1.arr_whole c
      ((pdat m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat m ρ) ((pdat m ρ 1 c).share_full fun _ => rfl)
      (U5 m ρ c) (U6 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call: entered with every unscoped buffer at `W7`, left with them at `W8`. -/
def reg2 : Pipeline.RegionSeg (pcfgs (F := F)) adm (pdat m ρ) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ Ln lvn 2 fun _ _ => rfl
  pre c := iprop(StableHlo.held (c : Thread nD τ) (Pipeline.ucRefs τ sig) (W7 m ρ c) ∗ Rst c)
  post c := iprop(StableHlo.held (c : Thread nD τ) (Pipeline.ucRefs τ sig) (W8 m ρ c) ∗ Rst c)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) adm (pdat m ρ) launch2.win launch2.arr_whole c
      ((pdat m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdat m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdat m ρ) ((pdat m ρ 2 c).share_full fun _ => rfl)
      (U7 m ρ c) (U8 m ρ c) ((pdat m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the launch -/

/-- The eleven items in order. -/
abbrev items : List (Pipeline.Seg (pcfgs (F := F)) adm (pdat m ρ) () defs₀ 𝒱n Ln lvn) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .host (hseg hostOps3_1 hostOps3_1_sub hostOps3_1_fresh (W9 m ρ)),
    .host (hseg hostOps3_2 hostOps3_2_sub hostOps3_2_fresh (W10 m ρ)) ]

/-- The program IS the run of its items. -/
theorem main_items (c : Dev nD) : main (F := F) c = Pipeline.Seg.run (items m ρ) := (main_chain c).trans (by chain_rfl)

set_option backward.isDefEq.respectTransparency.types false in
/-- THE RUN. From any memory with zero counters, every weakly fair execution of the program on the TensorCores
    terminates, nothing faulting, and in every final state each unscoped buffer of each core holds the contents `W11`
    names for it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdat m ρ) () cellOf_inj emb₁ defs₀ 𝒱n Ln lvn m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c))
    (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m ρ c) ∗ Rst c) ⊢ _
        iintro ⟨Hh, Hp, Ho⟩
        isplitl [Hh Hp]
        · isplitl [Hh]; · iexact Hh
          iexact Hp
        iexact Ho⟩)
    (hinit := by
      refine Pipeline.initEach Ln lvn fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-! ## The frame: the nine arguments end as launched -/

theorem W11_arg0 (c : Dev nD) : W11 m ρ c (Proc.devRef .tc main_arg0) = m ((c : Thread nD τ).loc main_arg0) :=
  W11_keep m ρ c main_arg0 (by decide) (by decide) (by decide) (by decide) (by decide) (by decide) (by decide) (by decide) (by decide) (by decide) (by decide) (by decide)
theorem W11_arg1 (c : Dev nD) : W11 m ρ c (Proc.devRef .tc main_arg1) = m ((c : Thread nD τ).loc main_arg1) :=
  W11_keep m ρ c main_arg1 (by decide) (by decide) (by decide) (by decide) (by decide) (by decide) (by decide) (by decide) (by decide) (by decide) (by decide) (by decide)
theorem W11_arg2 (c : Dev nD) : W11 m ρ c (Proc.devRef .tc main_arg2) = m ((c : Thread nD τ).loc main_arg2) :=
  W11_keep m ρ c main_arg2 (by decide) (by decide) (by decide) (by decide) (by decide) (by decide) (by decide) (by decide) (by decide) (by decide) (by decide) (by decide)
theorem W11_arg3 (c : Dev nD) : W11 m ρ c (Proc.devRef .tc main_arg3) = m ((c : Thread nD τ).loc main_arg3) :=
  W11_keep m ρ c main_arg3 (by decide) (by decide) (by decide) (by decide) (by decide) (by decide) (by decide) (by decide) (by decide) (by decide) (by decide) (by decide)
theorem W11_arg4 (c : Dev nD) : W11 m ρ c (Proc.devRef .tc main_arg4) = m ((c : Thread nD τ).loc main_arg4) :=
  W11_keep m ρ c main_arg4 (by decide) (by decide) (by decide) (by decide) (by decide) (by decide) (by decide) (by decide) (by decide) (by decide) (by decide) (by decide)
theorem W11_arg5 (c : Dev nD) : W11 m ρ c (Proc.devRef .tc main_arg5) = m ((c : Thread nD τ).loc main_arg5) :=
  W11_keep m ρ c main_arg5 (by decide) (by decide) (by decide) (by decide) (by decide) (by decide) (by decide) (by decide) (by decide) (by decide) (by decide) (by decide)
theorem W11_arg6 (c : Dev nD) : W11 m ρ c (Proc.devRef .tc main_arg6) = m ((c : Thread nD τ).loc main_arg6) :=
  W11_keep m ρ c main_arg6 (by decide) (by decide) (by decide) (by decide) (by decide) (by decide) (by decide) (by decide) (by decide) (by decide) (by decide) (by decide)
theorem W11_arg7 (c : Dev nD) : W11 m ρ c (Proc.devRef .tc main_arg7) = m ((c : Thread nD τ).loc main_arg7) :=
  W11_keep m ρ c main_arg7 (by decide) (by decide) (by decide) (by decide) (by decide) (by decide) (by decide) (by decide) (by decide) (by decide) (by decide) (by decide)
theorem W11_arg8 (c : Dev nD) : W11 m ρ c (Proc.devRef .tc main_arg8) = m ((c : Thread nD τ).loc main_arg8) :=
  W11_keep m ρ c main_arg8 (by decide) (by decide) (by decide) (by decide) (by decide) (by decide) (by decide) (by decide) (by decide) (by decide) (by decide) (by decide)

/-- The frame claim at any float instance: the program runs to the end, faults nowhere, and its nine argument arrays end
    holding what they held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W11_arg0 m ρ c),
     (h c _ (mem_uc main_arg1 (by decide))).trans (W11_arg1 m ρ c),
     (h c _ (mem_uc main_arg2 (by decide))).trans (W11_arg2 m ρ c),
     (h c _ (mem_uc main_arg3 (by decide))).trans (W11_arg3 m ρ c),
     (h c _ (mem_uc main_arg4 (by decide))).trans (W11_arg4 m ρ c),
     (h c _ (mem_uc main_arg5 (by decide))).trans (W11_arg5 m ρ c),
     (h c _ (mem_uc main_arg6 (by decide))).trans (W11_arg6 m ρ c),
     (h c _ (mem_uc main_arg7 (by decide))).trans (W11_arg7 m ρ c),
     (h c _ (mem_uc main_arg8 (by decide))).trans (W11_arg8 m ρ c)⟩) (run_all m ρ)

end Cert.Kernel.Hand

end
-- ==== Proof.KernelIdeal.Region0.lean ====
/- The first pallas_call (the node branch: a row block of x against the whole weight matrix, plus the bias row, clipped
   below at zero), taken by itself at the buffer contents `V` it is entered from: what each of its windows holds at a
   grid point, what one run of the body leaves in the output block, and the pipeline's obligation for the body at every
   point. Nothing here depends on the float instance. -/
import proofs.«107213_j40037685133334_1_alg».proof.Proof.Gen.KernelIdeal.Launch
import proofs.«107213_j40037685133334_1_alg».proof.Proof.Gen.KernelIdeal.Skeleton
import proofs.«107213_j40037685133334_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the call finds it) that the index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether or not the pipeline fetched it
    there: where it did not, the block index has not moved since the last fetch and the body left the buffer alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body reads each input block whole and writes the output block whole: the four rectangles. -/
abbrev rx0 : Rect S5000x128 := Rect.unit (s := S5000x128) ![0, 0] S5000x128.size inb_S5000x128_S5000x128_0_0
abbrev rw0 : Rect S64x128 := Rect.unit (s := S64x128) ![0, 0] S64x128.size inb_S64x128_S64x128_0_0
abbrev rb0 : Rect S1x64 := Rect.unit (s := S1x64) ![0, 0] S1x64.size inb_S1x64_S1x64_0_0
abbrev ro0 : Rect S5000x64 := Rect.unit (s := S5000x64) ![0, 0] S5000x64.size inb_S5000x64_S5000x64_0_0

/-- What one run of the body leaves in the output block, from the three input blocks: its single store. -/
def out0_3 (x0 : Vec F S5000x128 .f32) (x1 : Vec F S64x128 .f32) (x2 : Vec F S1x64 .f32) : Vec F S5000x64 .f32 :=
  View.canon [⟨ro0, k0_pay1 (View.ld x0 rx0) (View.ld x1 rw0) (View.ld x2 rb0)⟩]

/-- That store covers the whole block. -/
theorem cover0_3 (p0 : Vec F S5000x64 .f32) (y : S5000x64.Idx) :
    ∃ pc ∈ ([⟨ro0, p0⟩] : List (View.Piece (Elt F) S5000x64 .f32)), y ∈ pc.1.set :=
  View.cover_of_tiled [⟨ro0, p0⟩] S5000x64.size (by rfl) y

set_option maxHeartbeats 1000000 in
/-- The body on whole buffers: the inputs at `x0 x1 x2` and the output at anything run to the continuation with the inputs
    unchanged and the output at `out0_3 x0 x1 x2`. -/
theorem sound_kernel0 (c : Dev nD) (E : Set ℕ) (i : grid0.Coords)
    (arg1 : Memref sig .tc .vmem S5000x128 .f32) (harg1 : arg1.IsWhole) (arg2 : Memref sig .tc .vmem S64x128 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x128 .f32) (x1 : Vec F S64x128 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__ego_kernel i arg1 harg1 arg2 harg2 arg3 harg3 arg4 harg4) K := by
  simp only [cc0__ego_kernel_eq_skeleton]; unfold cc0__ego_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data for this call on core `c`: its arrays as the call finds them; after the body at point `t`
    each input's buffer still at its block and the output's at `out0_3` of the three blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the pipeline hands the body at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it takes back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1.lean ====
/- The second pallas_call (the edge branch: a row block of the edge attributes against the whole weight matrix, plus the bias row, clipped
   below at zero), taken by itself at the buffer contents `V` it is entered from: what each of its windows holds at a
   grid point, what one run of the body leaves in the output block, and the pipeline's obligation for the body at every
   point. Nothing here depends on the float instance. -/
import proofs.«107213_j40037685133334_1_alg».proof.Proof.Gen.KernelIdeal.Launch
import proofs.«107213_j40037685133334_1_alg».proof.Proof.Gen.KernelIdeal.Skeleton
import proofs.«107213_j40037685133334_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the call finds it) that the index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether or not the pipeline fetched it
    there: where it did not, the block index has not moved since the last fetch and the body left the buffer alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body reads each input block whole and writes the output block whole: the four rectangles. -/
abbrev rx1 : Rect S8000x32 := Rect.unit (s := S8000x32) ![0, 0] S8000x32.size inb_S8000x32_S8000x32_0_0
abbrev rw1 : Rect S32x32 := Rect.unit (s := S32x32) ![0, 0] S32x32.size inb_S32x32_S32x32_0_0
abbrev rb1 : Rect S1x32 := Rect.unit (s := S1x32) ![0, 0] S1x32.size inb_S1x32_S1x32_0_0
abbrev ro1 : Rect S8000x32 := Rect.unit (s := S8000x32) ![0, 0] S8000x32.size inb_S8000x32_S8000x32_0_0

/-- What one run of the body leaves in the output block, from the three input blocks: its single store. -/
def out1_3 (x0 : Vec F S8000x32 .f32) (x1 : Vec F S32x32 .f32) (x2 : Vec F S1x32 .f32) : Vec F S8000x32 .f32 :=
  View.canon [⟨ro1, k1_pay1 (View.ld x0 rx1) (View.ld x1 rw1) (View.ld x2 rb1)⟩]

/-- That store covers the whole block. -/
theorem cover1_3 (p0 : Vec F S8000x32 .f32) (y : S8000x32.Idx) :
    ∃ pc ∈ ([⟨ro1, p0⟩] : List (View.Piece (Elt F) S8000x32 .f32)), y ∈ pc.1.set :=
  View.cover_of_tiled [⟨ro1, p0⟩] S8000x32.size (by rfl) y

set_option maxHeartbeats 1000000 in
/-- The body on whole buffers: the inputs at `x0 x1 x2` and the output at anything run to the continuation with the inputs
    unchanged and the output at `out1_3 x0 x1 x2`. -/
theorem sound_kernel1 (c : Dev nD) (E : Set ℕ) (i : grid1.Coords)
    (arg1 : Memref sig .tc .vmem S8000x32 .f32) (harg1 : arg1.IsWhole) (arg2 : Memref sig .tc .vmem S32x32 .f32) (harg2 : arg2.IsWhole)
    (arg3 : Memref sig .tc .vmem S1x32 .f32) (harg3 : arg3.IsWhole) (arg4 : Memref sig .tc .vmem S8000x32 .f32) (harg4 : arg4.IsWhole)
    (x0 : Vec F S8000x32 .f32) (x1 : Vec F S32x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__edge_kernel i arg1 harg1 arg2 harg2 arg3 harg3 arg4 harg4) K := by
  simp only [cc1__edge_kernel_eq_skeleton]; unfold cc1__edge_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data for this call on core `c`: its arrays as the call finds them; after the body at point `t`
    each input's buffer still at its block and the output's at `out1_3` of the three blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the pipeline hands the body at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it takes back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Region2.lean ====
/- The third pallas_call (the neighbour branch: a block of gathered node rows against the first 128 columns of the weight
   matrix, plus the same block of edge attributes against the last 32 columns, plus the bias row, every row then scaled by
   its edge's normalisation factor; beside it the gathered aggregate rows scaled by the same factor), taken by itself at
   the buffer contents `V` it is entered from: what each of its nine windows holds at a grid point, what one run of the
   body leaves in the two output blocks, and the pipeline's obligation for the body at every point. Nothing here depends
   on the float instance. -/
import proofs.«107213_j40037685133334_1_alg».proof.Proof.Gen.KernelIdeal.Launch
import proofs.«107213_j40037685133334_1_alg».proof.Proof.Gen.KernelIdeal.Skeleton
import proofs.«107213_j40037685133334_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the call finds it) that the index map selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether or not the pipeline fetched it
    there: where it did not, the block index has not moved since the last fetch and the body left the buffer alone.
    One statement per input window (windows 0 to 6). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The body reads each input block whole and writes each output block whole: one rectangle per block shape. -/
abbrev r2_128 : Rect S4000x128 := Rect.unit (s := S4000x128) ![0, 0] S4000x128.size inb_S4000x128_S4000x128_0_0
abbrev r2_32 : Rect S4000x32 := Rect.unit (s := S4000x32) ![0, 0] S4000x32.size inb_S4000x32_S4000x32_0_0
abbrev r2_1 : Rect S4000x1 := Rect.unit (s := S4000x1) ![0, 0] S4000x1.size inb_S4000x1_S4000x1_0_0
abbrev r2_w1 : Rect S96x128 := Rect.unit (s := S96x128) ![0, 0] S96x128.size inb_S96x128_S96x128_0_0
abbrev r2_w2 : Rect S96x32 := Rect.unit (s := S96x32) ![0, 0] S96x32.size inb_S96x32_S96x32_0_0
abbrev r2_b : Rect S1x96 := Rect.unit (s := S1x96) ![0, 0] S1x96.size inb_S1x96_S1x96_0_0
abbrev r2_96 : Rect S4000x96 := Rect.unit (s := S4000x96) ![0, 0] S4000x96.size inb_S4000x96_S4000x96_0_0

/-- What one run of the body leaves in the first output block (the scaled linear map), from the six input blocks it
    reads: its single store. -/
def out2_7 (x0 : Vec F S4000x128 .f32) (x1 : Vec F S4000x32 .f32) (x2 : Vec F S4000x1 .f32) (x4 : Vec F S96x128 .f32)
    (x5 : Vec F S96x32 .f32) (x6 : Vec F S1x96 .f32) : Vec F S4000x96 .f32 :=
  View.canon [⟨r2_96, k2_pay2 (View.ld x0 r2_128) (View.ld x1 r2_32) (View.ld x4 r2_w1) (View.ld x5 r2_w2) (View.ld x6 r2_b) (View.ld x2 r2_1)⟩]

/-- What it leaves in the second output block (the scaled aggregate rows), from the factor column and the aggregate
    block: its single store. -/
def out2_8 (x2 : Vec F S4000x1 .f32) (x3 : Vec F S4000x32 .f32) : Vec F S4000x32 .f32 :=
  View.canon [⟨r2_32, k2_pay3 (View.ld x2 r2_1) (View.ld x3 r2_32)⟩]

/-- Each store covers its whole block. -/
theorem cover2_7 (p0 : Vec F S4000x96 .f32) (y : S4000x96.Idx) :
    ∃ pc ∈ ([⟨r2_96, p0⟩] : List (View.Piece (Elt F) S4000x96 .f32)), y ∈ pc.1.set :=
  View.cover_of_tiled [⟨r2_96, p0⟩] S4000x96.size (by rfl) y
theorem cover2_8 (p0 : Vec F S4000x32 .f32) (y : S4000x32.Idx) :
    ∃ pc ∈ ([⟨r2_32, p0⟩] : List (View.Piece (Elt F) S4000x32 .f32)), y ∈ pc.1.set :=
  View.cover_of_tiled [⟨r2_32, p0⟩] S4000x32.size (by rfl) y

set_option maxHeartbeats 2000000 in
/-- The body on whole buffers: the seven inputs at `x0 … x6` and the two outputs at anything run to the continuation
    with the inputs unchanged and the outputs at `out2_7` and `out2_8` of the inputs. -/
theorem sound_kernel2 (c : Dev nD) (E : Set ℕ) (i : grid2.Coords)
    (arg1 : Memref sig .tc .vmem S4000x128 .f32) (harg1 : arg1.IsWhole) (arg2 : Memref sig .tc .vmem S4000x32 .f32) (harg2 : arg2.IsWhole)
    (arg3 : Memref sig .tc .vmem S4000x1 .f32) (harg3 : arg3.IsWhole) (arg4 : Memref sig .tc .vmem S4000x32 .f32) (harg4 : arg4.IsWhole)
    (arg5 : Memref sig .tc .vmem S96x128 .f32) (harg5 : arg5.IsWhole) (arg6 : Memref sig .tc .vmem S96x32 .f32) (harg6 : arg6.IsWhole)
    (arg7 : Memref sig .tc .vmem S1x96 .f32) (harg7 : arg7.IsWhole) (arg8 : Memref sig .tc .vmem S4000x96 .f32) (harg8 : arg8.IsWhole)
    (arg9 : Memref sig .tc .vmem S4000x32 .f32) (harg9 : arg9.IsWhole)
    (x0 : Vec F S4000x128 .f32) (x1 : Vec F S4000x32 .f32) (x2 : Vec F S4000x1 .f32) (x3 : Vec F S4000x32 .f32)
    (x4 : Vec F S96x128 .f32) (x5 : Vec F S96x32 .f32) (x6 : Vec F S1x96 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out2_7 x0 x1 x2 x4 x5 x6) ∗ owns (c : Thread nD τ) arg9 fullShare (out2_8 x2 x3)) -∗ K ⟨⟩))
      ⊢ wp frame (wpE (defs₀ (F := F)) Variants.none c none) E
          (cc2__peer_kernel i arg1 harg1 arg2 harg2 arg3 harg3 arg4 harg4 arg5 harg5 arg6 harg6 arg7 harg7 arg8 harg8 arg9 harg9) K := by
  simp only [cc2__peer_kernel_eq_skeleton]; unfold cc2__peer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_7 _)
  iexists _; isplitr
  swap; · iexact H8
  ipureintro
  exact View.read_writes_eq_canon _ _ _ (cover2_8 _)

/-- The pipeline's proof data for this call on core `c`: its arrays as the call finds them; after the body at point `t`
    each input's buffer still at its block and the two outputs' at `out2_7` and `out2_8` of the blocks; nothing owed,
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 4 t) (iblk2 V c 5 t) (iblk2 V c 6 t)
    | ⟨8, _⟩ => out2_8 (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 4 t) (iblk2 V c 5 t) (iblk2 V c 6 t) := by
  dsimp only [dat2]
theorem after2_8 (c : Dev nD) (t : Fin cfg2.N) : (dat2 V c).after 8 t = out2_8 (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the pipeline hands the body at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it takes back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Run.lean ====
/- The whole program as a chain of eleven items — eight stretches of host operations and the three pallas_calls — run
   from the launch to the return. At each boundary between two items every buffer of the TensorCore has known contents:
   the launch memory pushed through the host stretches' operations, and through each call as "the call's output arrays at
   what its write-backs leave, every other buffer untouched". The chain's end is read against the final memory, so the one
   run theorem here names the final contents of EVERY buffer; the frame claim (the nine argument arrays end as launched)
   is read off it, because no host operation and no call writes an argument. Nothing here depends on the float instance. -/
import proofs.«107213_j40037685133334_1_alg».proof.Proof.KernelIdeal.Region0
import proofs.«107213_j40037685133334_1_alg».proof.Proof.KernelIdeal.Region1
import proofs.«107213_j40037685133334_1_alg».proof.Proof.KernelIdeal.Region2
import proofs.«107213_j40037685133334_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch: where the first call is entered. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the first call: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the three host stretches between the first and the second call. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev U5 : (c : Dev nD) → (b : Ref sig .tc) → Buf (Elt F) ((c : Thread nD τ).loc b) := fun c b => W5 m ρ c b
/-- After the second call. -/
def W6 (c : Dev nD) : Valuation τ sig (Elt F) :=
  Pipeline.withArrays spec1 c (W5 m ρ c) fun w => (dat1 (U5 m ρ) c).arrAt w cfg1.N
theorem W6_arr (c : Dev nD) (w : Fin cfg1.W) :
    W6 m ρ c (Proc.devRef .tc (Pipeline.arrRef spec1 w)) = (dat1 (U5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev U6 : (c : Dev nD) → (b : Ref sig .tc) → Buf (Elt F) ((c : Thread nD τ).loc b) := fun c b => W6 m ρ c b
theorem hF1 (c : Dev nD) (w : Fin cfg1.W) : (dat1 (U5 m ρ) c).arrAt w cfg1.N = U6 m ρ c (Pipeline.arrRef spec1 w) :=
  (W6_arr m ρ c w).symm
theorem hrest1 (c : Dev nD) : ∀ b, b ∉ Finset.univ.image (Pipeline.arrRef spec1) → U6 m ρ c b = U5 m ρ c b :=
  fun b hb => W6_of_ne m ρ c b fun w e => hb (Finset.mem_image.mpr ⟨w, Finset.mem_univ _, e⟩)

/-- After the host stretch between the second and the third call. -/
abbrev W7 : Dev nD → Valuation τ sig (Elt F) := fun c => StableHlo.after hostOps2 (W6 m ρ c)
abbrev U7 : (c : Dev nD) → (b : Ref sig .tc) → Buf (Elt F) ((c : Thread nD τ).loc b) := fun c b => W7 m ρ c b
/-- After the third call. -/
def W8 (c : Dev nD) : Valuation τ sig (Elt F) :=
  Pipeline.withArrays spec2 c (W7 m ρ c) fun w => (dat2 (U7 m ρ) c).arrAt w cfg2.N
theorem W8_arr (c : Dev nD) (w : Fin cfg2.W) :
    W8 m ρ c (Proc.devRef .tc (Pipeline.arrRef spec2 w)) = (dat2 (U7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev U8 : (c : Dev nD) → (b : Ref sig .tc) → Buf (Elt F) ((c : Thread nD τ).loc b) := fun c b => W8 m ρ c b
theorem hF2 (c : Dev nD) (w : Fin cfg2.W) : (dat2 (U7 m ρ) c).arrAt w cfg2.N = U8 m ρ c (Pipeline.arrRef spec2 w) :=
  (W8_arr m ρ c w).symm
theorem hrest2 (c : Dev nD) : ∀ b, b ∉ Finset.univ.image (Pipeline.arrRef spec2) → U8 m ρ c b = U7 m ρ c b :=
  fun b hb => W8_of_ne m ρ c b fun w e => hb (Finset.mem_image.mpr ⟨w, Finset.mem_univ _, e⟩)

/-- After the three closing host stretches: the contents at the return. -/
abbrev W9 : Dev nD → Valuation τ sig (Elt F) := fun c => StableHlo.after hostOps3 (W8 m ρ c)
abbrev W10 : Dev nD → Valuation τ sig (Elt F) := fun c => StableHlo.after hostOps3_1 (W9 m ρ c)
abbrev W11 : Dev nD → Valuation τ sig (Elt F) := fun c => StableHlo.after hostOps3_2 (W10 m ρ c)

/-! ## A call changes only its output arrays -/

/-- The first call leaves every buffer but its output array `main_v5` as it found it: an input array is never written
    back, and a buffer that is no array of the call is not touched. -/
theorem W2_keep (c : Dev nD) (b : Ref sig .tc) (hb : b ≠ main_v5) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      match w, hb with
      | ⟨0, _⟩, _ => rfl
      | ⟨1, _⟩, _ => rfl
      | ⟨2, _⟩, _ => rfl
      | ⟨3, _⟩, hb => exact absurd rfl hb
    rw [W2_arr]
    exact ((dat0 (U1 m ρ) c).arrAt_in w hw _).trans (A_eq0 (U1 m ρ) c w)
  · exact W2_of_ne m ρ c b fun w e => h ⟨w, e⟩

/-- The second call leaves every buffer but `main_v30` as it found it. -/
theorem W6_keep (c : Dev nD) (b : Ref sig .tc) (hb : b ≠ main_v30) :
    W6 m ρ c (Proc.devRef .tc b) = W5 m ρ c (Proc.devRef .tc b) := by
  by_cases h : ∃ w, Pipeline.arrRef spec1 w = b
  · obtain ⟨w, rfl⟩ := h
    have hw : (cfg1.win w).isOut = false := by
      match w, hb with
      | ⟨0, _⟩, _ => rfl
      | ⟨1, _⟩, _ => rfl
      | ⟨2, _⟩, _ => rfl
      | ⟨3, _⟩, hb => exact absurd rfl hb
    rw [W6_arr]
    exact ((dat1 (U5 m ρ) c).arrAt_in w hw _).trans (A_eq1 (U5 m ρ) c w)
  · exact W6_of_ne m ρ c b fun w e => h ⟨w, e⟩

/-- The third call leaves every buffer but `main_v45_0` and `main_v45_1` as it found it. -/
theorem W8_keep (c : Dev nD) (b : Ref sig .tc) (hb0 : b ≠ main_v45_0) (hb1 : b ≠ main_v45_1) :
    W8 m ρ c (Proc.devRef .tc b) = W7 m ρ c (Proc.devRef .tc b) := by
  by_cases h : ∃ w, Pipeline.arrRef spec2 w = b
  · obtain ⟨w, rfl⟩ := h
    have hw : (cfg2.win w).isOut = false := by
      match w, hb0, hb1 with
      | ⟨0, _⟩, _, _ => rfl
      | ⟨1, _⟩, _, _ => rfl
      | ⟨2, _⟩, _, _ => rfl
      | ⟨3, _⟩, _, _ => rfl
      | ⟨4, _⟩, _, _ => rfl
      | ⟨5, _⟩, _, _ => rfl
      | ⟨6, _⟩, _, _ => rfl
      | ⟨7, _⟩, hb0, _ => exact absurd rfl hb0
      | ⟨8, _⟩, _, hb1 => exact absurd rfl hb1
    rw [W8_arr]
    exact ((dat2 (U7 m ρ) c).arrAt_in w hw _).trans (A_eq2 (U7 m ρ) c w)
  · exact W8_of_ne m ρ c b fun w e => h ⟨w, e⟩

/-- A buffer that no host stretch writes and that is no call's output array holds at the return what it held at launch. -/
theorem W11_keep (c : Dev nD) (b : Ref sig .tc)
    (h0 : b ∉ hostOps0_W) (h1 : b ≠ main_v5) (h2 : b ∉ hostOps1_W) (h3 : b ∉ hostOps1_1_W) (h4 : b ∉ hostOps1_2_W)
    (h5 : b ≠ main_v30) (h6 : b ∉ hostOps2_W) (h7 : b ≠ main_v45_0) (h7' : b ≠ main_v45_1)
    (h8 : b ∉ hostOps3_W) (h9 : b ∉ hostOps3_1_W) (h10 : b ∉ hostOps3_2_W) :
    W11 m ρ c (Proc.devRef .tc b) = m ((c : Thread nD τ).loc b) :=
  calc W11 m ρ c (Proc.devRef .tc b)
    _ = W10 m ρ c (Proc.devRef .tc b) := StableHlo.after_of_writes_sub hostOps3_2 _ hostOps3_2_writes h10
    _ = W9 m ρ c (Proc.devRef .tc b) := StableHlo.after_of_writes_sub hostOps3_1 _ hostOps3_1_writes h9
    _ = W8 m ρ c (Proc.devRef .tc b) := StableHlo.after_of_writes_sub hostOps3 _ hostOps3_writes h8
    _ = W7 m ρ c (Proc.devRef .tc b) := W8_keep m ρ c b h7 h7'
    _ = W6 m ρ c (Proc.devRef .tc b) := StableHlo.after_of_writes_sub hostOps2 _ hostOps2_writes h6
    _ = W5 m ρ c (Proc.devRef .tc b) := W6_keep m ρ c b h5
    _ = W4 m ρ c (Proc.devRef .tc b) := StableHlo.after_of_writes_sub hostOps1_2 _ hostOps1_2_writes h4
    _ = W3 m ρ c (Proc.devRef .tc b) := StableHlo.after_of_writes_sub hostOps1_1 _ hostOps1_1_writes h3
    _ = W2 m ρ c (Proc.devRef .tc b) := StableHlo.after_of_writes_sub hostOps1 _ hostOps1_writes h2
    _ = W1 m ρ c (Proc.devRef .tc b) := W2_keep m ρ c b h1
    _ = W0 m ρ c (Proc.devRef .tc b) := StableHlo.after_of_writes_sub hostOps0 _ hostOps0_writes h0
    _ = m ((c : Thread nD τ).loc b) := rfl

/-! ## The proof data family and the thread state -/

/-- Every pipeline's proof data, each at its call's entry contents. -/
def pdat : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U5 m ρ) c
  | ⟨2, _⟩ => fun c => dat2 (U7 m ρ) c
abbrev 𝒱n : Variants := Variants.none
/-- No core owes another anything: no level is assigned. -/
abbrev Ln : GSem nD τ sig → Finset Unit := fun _ => ∅
abbrev lvn : GSem nD τ sig → Unit → ℕ := fun _ _ => 0
/-- What rides beside the buffers through every item: the core's generator register at some state and its debt, at nothing. -/
abbrev Rst (c : Dev nD) : sProp 𝕄 := iprop((∃ r, prngReg c r) ∗ ∃ W, owes (c : Thread nD τ) (0 : CellTallies nD τ sig Unit) W)
/-- A host stretch as an item: from the contents `W` to those contents pushed through its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as items -/

set_option backward.isDefEq.respectTransparency.types false in
/-- The first call: entered with every unscoped buffer at `W1`, left with them at `W2`. Its arrays are split out of the
    unscoped buffers at entry and put back at the exit contents; the generator register goes into the pipeline's
    invariant and comes back; nothing is owed. -/
def reg0 : Pipeline.RegionSeg (pcfgs (F := F)) adm (pdat m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Ln lvn 0 fun _ _ => rfl
  pre c := iprop(StableHlo.held (c : Thread nD τ) (Pipeline.ucRefs τ sig) (W1 m ρ c) ∗ Rst c)
  post c := iprop(StableHlo.held (c : Thread nD τ) (Pipeline.ucRefs τ sig) (W2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdat m ρ) launch0.win launch0.arr_whole c
      ((pdat m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdat m ρ) ((pdat m ρ 0 c).share_full fun _ => rfl)
      (U1 m ρ c) (U2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered with every unscoped buffer at `W5`, left with them at `W6`. -/
def reg1 : Pipeline.RegionSeg (pcfgs (F := F)) adm (pdat m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ Ln lvn 1 fun _ _ => rfl
  pre c := iprop(StableHlo.held (c : Thread nD τ) (Pipeline.ucRefs τ sig) (W5 m ρ c) ∗ Rst c)
  post c := iprop(StableHlo.held (c : Thread nD τ) (Pipeline.ucRefs τ sig) (W6 m ρ c) ∗ Rst c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) adm (pdat m ρ) launch1.win launch1.arr_whole c
      ((pdat m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat m ρ) ((pdat m ρ 1 c).share_full fun _ => rfl)
      (U5 m ρ c) (U6 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call: entered with every unscoped buffer at `W7`, left with them at `W8`. -/
def reg2 : Pipeline.RegionSeg (pcfgs (F := F)) adm (pdat m ρ) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ Ln lvn 2 fun _ _ => rfl
  pre c := iprop(StableHlo.held (c : Thread nD τ) (Pipeline.ucRefs τ sig) (W7 m ρ c) ∗ Rst c)
  post c := iprop(StableHlo.held (c : Thread nD τ) (Pipeline.ucRefs τ sig) (W8 m ρ c) ∗ Rst c)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) adm (pdat m ρ) launch2.win launch2.arr_whole c
      ((pdat m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdat m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdat m ρ) ((pdat m ρ 2 c).share_full fun _ => rfl)
      (U7 m ρ c) (U8 m ρ c) ((pdat m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the launch -/

/-- The eleven items in order. -/
abbrev items : List (Pipeline.Seg (pcfgs (F := F)) adm (pdat m ρ) () defs₀ 𝒱n Ln lvn) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .host (hseg hostOps3_1 hostOps3_1_sub hostOps3_1_fresh (W9 m ρ)),
    .host (hseg hostOps3_2 hostOps3_2_sub hostOps3_2_fresh (W10 m ρ)) ]

/-- The program IS the run of its items. -/
theorem main_items (c : Dev nD) : main (F := F) c = Pipeline.Seg.run (items m ρ) := (main_chain c).trans (by chain_rfl)

set_option backward.isDefEq.respectTransparency.types false in
/-- THE RUN. From any memory with zero counters, every weakly fair execution of the program on the TensorCores
    terminates, nothing faulting, and in every final state each unscoped buffer of each core holds the contents `W11`
    names for it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdat m ρ) () cellOf_inj emb₁ defs₀ 𝒱n Ln lvn m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c))
    (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m ρ c) ∗ Rst c) ⊢ _
        iintro ⟨Hh, Hp, Ho⟩
        isplitl [Hh Hp]
        · isplitl [Hh]; · iexact Hh
          iexact Hp
        iexact Ho⟩)
    (hinit := by
      refine Pipeline.initEach Ln lvn fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-! ## The frame: the nine arguments end as launched -/

theorem W11_arg0 (c : Dev nD) : W11 m ρ c (Proc.devRef .tc main_arg0) = m ((c : Thread nD τ).loc main_arg0) :=
  W11_keep m ρ c main_arg0 (by decide) (by decide) (by decide) (by decide) (by decide) (by decide) (by decide) (by decide) (by decide) (by decide) (by decide) (by decide)
theorem W11_arg1 (c : Dev nD) : W11 m ρ c (Proc.devRef .tc main_arg1) = m ((c : Thread nD τ).loc main_arg1) :=
  W11_keep m ρ c main_arg1 (by decide) (by decide) (by decide) (by decide) (by decide) (by decide) (by decide) (by decide) (by decide) (by decide) (by decide) (by decide)
theorem W11_arg2 (c : Dev nD) : W11 m ρ c (Proc.devRef .tc main_arg2) = m ((c : Thread nD τ).loc main_arg2) :=
  W11_keep m ρ c main_arg2 (by decide) (by decide) (by decide) (by decide) (by decide) (by decide) (by decide) (by decide) (by decide) (by decide) (by decide) (by decide)
theorem W11_arg3 (c : Dev nD) : W11 m ρ c (Proc.devRef .tc main_arg3) = m ((c : Thread nD τ).loc main_arg3) :=
  W11_keep m ρ c main_arg3 (by decide) (by decide) (by decide) (by decide) (by decide) (by decide) (by decide) (by decide) (by decide) (by decide) (by decide) (by decide)
theorem W11_arg4 (c : Dev nD) : W11 m ρ c (Proc.devRef .tc main_arg4) = m ((c : Thread nD τ).loc main_arg4) :=
  W11_keep m ρ c main_arg4 (by decide) (by decide) (by decide) (by decide) (by decide) (by decide) (by decide) (by decide) (by decide) (by decide) (by decide) (by decide)
theorem W11_arg5 (c : Dev nD) : W11 m ρ c (Proc.devRef .tc main_arg5) = m ((c : Thread nD τ).loc main_arg5) :=
  W11_keep m ρ c main_arg5 (by decide) (by decide) (by decide) (by decide) (by decide) (by decide) (by decide) (by decide) (by decide) (by decide) (by decide) (by decide)
theorem W11_arg6 (c : Dev nD) : W11 m ρ c (Proc.devRef .tc main_arg6) = m ((c : Thread nD τ).loc main_arg6) :=
  W11_keep m ρ c main_arg6 (by decide) (by decide) (by decide) (by decide) (by decide) (by decide) (by decide) (by decide) (by decide) (by decide) (by decide) (by decide)
theorem W11_arg7 (c : Dev nD) : W11 m ρ c (Proc.devRef .tc main_arg7) = m ((c : Thread nD τ).loc main_arg7) :=
  W11_keep m ρ c main_arg7 (by decide) (by decide) (by decide) (by decide) (by decide) (by decide) (by decide) (by decide) (by decide) (by decide) (by decide) (by decide)
theorem W11_arg8 (c : Dev nD) : W11 m ρ c (Proc.devRef .tc main_arg8) = m ((c : Thread nD τ).loc main_arg8) :=
  W11_keep m ρ c main_arg8 (by decide) (by decide) (by decide) (by decide) (by decide) (by decide) (by decide) (by decide) (by decide) (by decide) (by decide) (by decide)

/-- The frame claim at any float instance: the program runs to the end, faults nowhere, and its nine argument arrays end
    holding what they held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W11_arg0 m ρ c),
     (h c _ (mem_uc main_arg1 (by decide))).trans (W11_arg1 m ρ c),
     (h c _ (mem_uc main_arg2 (by decide))).trans (W11_arg2 m ρ c),
     (h c _ (mem_uc main_arg3 (by decide))).trans (W11_arg3 m ρ c),
     (h c _ (mem_uc main_arg4 (by decide))).trans (W11_arg4 m ρ c),
     (h c _ (mem_uc main_arg5 (by decide))).trans (W11_arg5 m ρ c),
     (h c _ (mem_uc main_arg6 (by decide))).trans (W11_arg6 m ρ c),
     (h c _ (mem_uc main_arg7 (by decide))).trans (W11_arg7 m ρ c),
     (h c _ (mem_uc main_arg8 (by decide))).trans (W11_arg8 m ρ c)⟩) (run_all m ρ)

end Cert.KernelIdeal.Hand

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.ValEgo.lean ====
/- The first two pallas_calls' output arrays, at the exact (extended real) values, are the reference's own stages: the
   node branch `max(x · W_egoᵀ + b_ego, 0)` and the edge branch `max(e · W_edgeᵀ + b_edge, 0)`. Each call writes its output
   block by block; every block is the restriction of one whole-array function, the blocks tile the array, and that
   function is, index by index, the reference's product, bias and clip. -/
import proofs.«107213_j40037685133334_1_alg».proof.Proof.KernelIdeal.Region0
import proofs.«107213_j40037685133334_1_alg».proof.Proof.KernelIdeal.Region1
import proofs.«107213_j40037685133334_1_alg».proof.Proof.RefRead
import proofs.«107213_j40037685133334_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-- The whole-block rectangles start at the zero offsets. -/
theorem zero_offsets : (![0, 0] : Fin 2 → Nat) = fun _ => 0 := funext fun a => by fin_cases a <;> rfl

/-! ## The node branch -/

/-- Entry `(p, q)` of the node branch: row `p` of `x` against row `q` of the weight (the weight enters transposed), plus
    entry `q` of the bias row, clipped below at zero. -/
def egoAt (x : Vec Ideal S50000x128 .f32) (w : Vec Ideal S64x128 .f32) (b : Vec Ideal S1x64 .f32)
    (p : Fin 50000) (q : Fin 64) : EReal :=
  max ((∑ k : Fin 128, x (ix2 p k) * w (ix2 q k)) + b (ix2 (0 : Fin 1) q)) 0

/-- The node branch as one function of the three whole arrays. -/
def egoG (x : Vec Ideal S50000x128 .f32) (w : Vec Ideal S64x128 .f32) (b : Vec Ideal S1x64 .f32) :
    Vec Ideal S50000x64 .f32 := fun i => egoAt x w b (i 0) (i 1)

theorem egoG_ix2 (x : Vec Ideal S50000x128 .f32) (w : Vec Ideal S64x128 .f32) (b : Vec Ideal S1x64 .f32)
    (p : Fin 50000) (q : Fin 64) : egoG x w b (ix2 p q) = egoAt x w b p q := rfl

/-- The body's arithmetic on one block, read at an entry: the casts to bf16 change nothing at the exact values, the
    matrix product into the zero accumulator is the sum over the contracted coordinate, the transpose swaps the weight's
    coordinates, and the bias row is repeated down the rows. -/
theorem ego_payload_apply (x0 : Vec Ideal S5000x128 .f32) (x1 : Vec Ideal S64x128 .f32) (x2 : Vec Ideal S1x64 .f32)
    (p : Fin 5000) (q : Fin 64) :
    k0_pay1 (F := Ideal) x0 x1 x2 (ix2 p q)
      = max ((∑ k : Fin 128, x0 (ix2 p k) * x1 (ix2 q k)) + x2 (ix2 (0 : Fin 1) q)) 0 := by
  have hm := Cert.LibDot.matmul_10_zero_apply dot_S5000x128_S128x64_S5000x64_1_0_0_1_n_n rfl rfl rfl rfl rfl rfl none
    (truncf .bf16 x0 bitsLt_bf16_f32 : FVec Ideal S5000x128 .bf16)
    (transpose S128x64 [1, 0] (truncf .bf16 x1 bitsLt_bf16_f32 : FVec Ideal S64x128 .bf16) transposes_S64x128_p1_0_S128x64)
    p q
  have hb := broadcastTo_1b_ab_apply (shapeCast S1x64 x2 shapeCasts_S1x64_S1x64) broadcasts_S1x64_S5000x64 p q
  refine (congrArg₂ max (congrArg₂ (· + ·) hm hb) Ideal.ofBits_zero_f32).trans ?_
  have ht : ∀ k : Fin 128, transpose S128x64 [1, 0] (truncf .bf16 x1 bitsLt_bf16_f32 : FVec Ideal S64x128 .bf16)
      transposes_S64x128_p1_0_S128x64 (ix2 k q) = x1 (ix2 q k) := fun k =>
    transpose_ix2_apply (truncf .bf16 x1 bitsLt_bf16_f32 : FVec Ideal S64x128 .bf16) transposes_S64x128_p1_0_S128x64 k q
  rw [shapeCast_self]
  simp only [truncf_apply, ht]

/-- One block of the body's output is the same block of `egoG`: if the block of `x` holds rows `5000 n …` of `x` and
    the weight and bias blocks are the whole weight and bias, the body's entry `j` is `egoG` at row `5000 n + j 0`. -/
theorem ego_block (x : Vec Ideal S50000x128 .f32) (w : Vec Ideal S64x128 .f32) (b : Vec Ideal S1x64 .f32)
    (x0 : Vec Ideal S5000x128 .f32) (x1 : Vec Ideal S64x128 .f32) (x2 : Vec Ideal S1x64 .f32)
    (n : Nat) (j : S5000x64.Idx) (i : S50000x64.Idx)
    (hi0 : (i 0).val = n * 5000 + (j 0).val) (hi1 : (i 1).val = (j 1).val)
    (h0 : ∀ (y : S5000x128.Idx) (z : S50000x128.Idx), (z 0).val = n * 5000 + (y 0).val → (z 1).val = (y 1).val → x0 y = x z)
    (h1 : x1 = w) (h2 : x2 = b) :
    k0_pay1 (F := Ideal) x0 x1 x2 j = egoG x w b i := by
  subst h1; subst h2
  obtain ⟨p, q, rfl⟩ : ∃ (p : Fin 5000) (q : Fin 64), j = ix2 p q := ⟨j 0, j 1, eq_ix2 j⟩
  obtain ⟨P, Q, rfl⟩ : ∃ (P : Fin 50000) (Q : Fin 64), i = ix2 P Q := ⟨i 0, i 1, eq_ix2 i⟩
  have hPp : P.val = n * 5000 + p.val := hi0
  have hQ : Q = q := Fin.ext hi1
  subst hQ
  rw [ego_payload_apply, egoG_ix2]
  unfold egoAt
  have e : ∀ k : Fin 128, x0 (ix2 p k) = x (ix2 P k) := fun k => h0 (ix2 p k) (ix2 P k) hPp rfl
  simp only [e]

/-- The four index maps over the grid: the `x` and output windows move with the point along the rows, the weight and
    bias windows stay at block (0, 0). -/
theorem ego_index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What grid point `t` writes back is block `t` of `egoG` of the arrays as the call finds them: the output block's entry
    `j` sits at row `5000 t + j 0`, the `x` block holds those same rows of `x`, and the weight's and the bias row's
    blocks are the whole arrays. -/
theorem ego_flushed (c : Dev nD) (t : Fin cfg0.N) :
    (dat0 (F := Ideal) V c).flushed 3 t
      = ((cfg0.win 3).blk t).view.read (Elt Ideal) (egoG (V c main_arg0) (V c main_arg4) (V c main_v4)) := by
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S64x128) zero_offsets,
    View.ld_unit_zero (S := S1x64) zero_offsets]
  obtain ⟨e0, e1, e2, e3, e4, e5, e6, e7⟩ := ego_index_maps t
  funext j
  refine ego_block (V c main_arg0) (V c main_arg4) (V c main_v4) (iblk0 V c 0 t) (iblk0 V c 1 t) (iblk0 V c 2 t)
    t.val j (((cfg0.win 3).blk t).view.emb j) ?_ ?_ ?_ ?_ ?_
  · show win0_3.index t (0 : Fin 2) * 5000 + 1 * (j 0).val = t.val * 5000 + (j 0).val
    rw [e6]; omega
  · show win0_3.index t (1 : Fin 2) * 64 + 1 * (j 1).val = (j 1).val
    rw [e7]; omega
  · intro y z hz0 hz1
    show V c main_arg0 (((cfg0.win 0).blk t).view.emb y) = V c main_arg0 z
    refine congrArg _ (funext fun a => Fin.ext ?_)
    match a with
    | ⟨0, _⟩ => show win0_0.index t (0 : Fin 2) * 5000 + 1 * (y 0).val = (z 0).val; rw [e0, hz0]; omega
    | ⟨1, _⟩ => show win0_0.index t (1 : Fin 2) * 128 + 1 * (y 1).val = (z 1).val; rw [e1, hz1]; omega
  · funext y
    show V c main_arg4 (((cfg0.win 1).blk t).view.emb y) = V c main_arg4 y
    refine congrArg _ (funext fun a => Fin.ext ?_)
    match a with
    | ⟨0, _⟩ => show win0_1.index t (0 : Fin 2) * 64 + 1 * (y 0).val = (y 0).val; rw [e2]; omega
    | ⟨1, _⟩ => show win0_1.index t (1 : Fin 2) * 128 + 1 * (y 1).val = (y 1).val; rw [e3]; omega
  · funext y
    show V c main_v4 (((cfg0.win 2).blk t).view.emb y) = V c main_v4 y
    refine congrArg _ (funext fun a => Fin.ext ?_)
    match a with
    | ⟨0, _⟩ => show win0_2.index t (0 : Fin 2) * 1 + 1 * (y 0).val = (y 0).val; rw [e4]; omega
    | ⟨1, _⟩ => show win0_2.index t (1 : Fin 2) * 64 + 1 * (y 1).val = (y 1).val; rw [e5]; omega

/-- An index of the output array is in point `t`'s block iff each coordinate is in the block's range on its axis. -/
theorem ego_mem_blk (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v5).slice (win0_3.rect t)).set ↔ _
  rw [View.set_slice_whole, Rect.mem_set_unit]
  exact Iff.rfl

/-- The ten row blocks tile the output: row `r` is in the block of point `r / 5000`. -/
theorem ego_cover (i : S50000x64.Idx) :
    ∃ t : Fin cfg0.N, (cfg0.win 3).flush t = true ∧ i ∈ ((cfg0.win 3).blk t).view.set := by
  have h0 : (i 0).val < 50000 := (i 0).isLt
  have h1 : (i 1).val < 64 := (i 1).isLt
  have hN : cfg0.N = 10 := N_0
  have ht : (i 0).val / 5000 < cfg0.N := by rw [hN]; omega
  obtain ⟨-, -, -, -, -, -, e6, e7⟩ := ego_index_maps ⟨(i 0).val / 5000, ht⟩
  refine ⟨⟨(i 0).val / 5000, ht⟩, flush0_3 _, ?_⟩
  rw [ego_mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    rw [e7]; omega

/-- So the first call leaves `egoG` of its three input arrays in its output array. -/
theorem ego_array (c : Dev nD) :
    (dat0 (F := Ideal) V c).arrAt 3 cfg0.N = egoG (V c main_arg0) (V c main_arg4) (V c main_v4) :=
  (dat0 (F := Ideal) V c).arrAt_eq_of_cover 3 (egoG (V c main_arg0) (V c main_arg4) (V c main_v4))
    (fun t _ => ego_flushed V c t) ego_cover

/-- `egoG` is the reference's node stage, entry by entry: its product contracts `x`'s columns against the transposed
    weight's rows, its two bias broadcasts read entry `q` of the bias vector, and its clip is against the zero constant. -/
theorem ego_reference (x0 : Vec Ideal S50000x128 .f32) (x4 : Vec Ideal S64x128 .f32) (b : Vec Ideal S1x64 .f32)
    (x5 : (⟨S64, .f32⟩ : BufTy).Contents (Elt Ideal))
    (hb : ∀ q : Fin 64, b (ix2 (0 : Fin 1) q) = x5 (ix1 q)) :
    egoG x0 x4 b = Cert.ReferenceIdeal.Read.val_main_v9 (F := Ideal) x0 x4 x5 := by
  funext i
  obtain ⟨p, q, rfl⟩ : ∃ (p : Fin 50000) (q : Fin 64), i = ix2 p q := ⟨i 0, i 1, eq_ix2 i⟩
  have el : ∀ k : Fin 128, Cert.ReferenceIdeal.Read.lidx_main_v5 (ix2 p q) k = ix2 p k := fun k =>
    funext fun a => by match a with | ⟨0, _⟩ => rfl | ⟨1, _⟩ => rfl
  have er : ∀ k : Fin 128,
      Cert.ReferenceIdeal.Read.idx_main_v4 (Cert.ReferenceIdeal.Read.ridx_main_v5 (ix2 p q) k) = ix2 q k := fun k =>
    funext fun a => by match a with | ⟨0, _⟩ => rfl | ⟨1, _⟩ => rfl
  have eb : Cert.ReferenceIdeal.Read.idx_main_v6 (Cert.ReferenceIdeal.Read.idx_main_v7 (ix2 p q)) = ix1 q :=
    funext fun a => by match a with | ⟨0, _⟩ => rfl
  rw [egoG_ix2, Cert.ReferenceIdeal.Read.val_main_v9_apply, Cert.ReferenceIdeal.Read.val_main_v8_apply,
    Cert.ReferenceIdeal.Read.val_main_v5_apply, Cert.ReferenceIdeal.Read.val_main_v7_apply,
    Cert.ReferenceIdeal.Read.val_main_v6_apply, Cert.ReferenceIdeal.Read.val_main_call0_v0_apply,
    Cert.ReferenceIdeal.Read.val_main_call0_cst_apply]
  unfold egoAt
  simp only [Cert.ReferenceIdeal.Read.val_main_v4_apply, el, er, eb, hb, Ideal.addf_def, Ideal.maximumf_def,
    Ideal.ofBits_def, Ideal.ofBits_zero_f32]

/-- The node branch. `h4`: the bias row the call stages is the bias vector `x5` laid out as one row. -/
theorem ego_final (c : Dev nD) (x5 : (⟨S64, .f32⟩ : BufTy).Contents (Elt Ideal))
    (h4 : ∀ q : Fin 64, V c main_v4 (ix2 (0 : Fin 1) q) = x5 (ix1 q)) :
    (dat0 (F := Ideal) V c).arrAt 3 cfg0.N
      = Cert.ReferenceIdeal.Read.val_main_v9 (F := Ideal) (V c main_arg0) (V c main_arg4) x5 :=
  (ego_array V c).trans (ego_reference (V c main_arg0) (V c main_arg4) (V c main_v4) x5 h4)

/-! ## The edge branch -/

/-- Entry `(p, q)` of the edge branch: row `p` of `e` against row `q` of the weight (the weight enters transposed), plus
    entry `q` of the bias row, clipped below at zero. -/
def edgeAt (x : Vec Ideal S800000x32 .f32) (w : Vec Ideal S32x32 .f32) (b : Vec Ideal S1x32 .f32)
    (p : Fin 800000) (q : Fin 32) : EReal :=
  max ((∑ k : Fin 32, x (ix2 p k) * w (ix2 q k)) + b (ix2 (0 : Fin 1) q)) 0

/-- The edge branch as one function of the three whole arrays. -/
def edgeG (x : Vec Ideal S800000x32 .f32) (w : Vec Ideal S32x32 .f32) (b : Vec Ideal S1x32 .f32) :
    Vec Ideal S800000x32 .f32 := fun i => edgeAt x w b (i 0) (i 1)

theorem edgeG_ix2 (x : Vec Ideal S800000x32 .f32) (w : Vec Ideal S32x32 .f32) (b : Vec Ideal S1x32 .f32)
    (p : Fin 800000) (q : Fin 32) : edgeG x w b (ix2 p q) = edgeAt x w b p q := rfl

/-- The body's arithmetic on one block of edges, read at an entry: as for the node branch, with 32 contracted
    coordinates and a square weight. -/
theorem edge_payload_apply (x0 : Vec Ideal S8000x32 .f32) (x1 : Vec Ideal S32x32 .f32) (x2 : Vec Ideal S1x32 .f32)
    (p : Fin 8000) (q : Fin 32) :
    k1_pay1 (F := Ideal) x0 x1 x2 (ix2 p q)
      = max ((∑ k : Fin 32, x0 (ix2 p k) * x1 (ix2 q k)) + x2 (ix2 (0 : Fin 1) q)) 0 := by
  have hm := Cert.LibDot.matmul_10_zero_apply dot_S8000x32_S32x32_S8000x32_1_0_0_1_n_n rfl rfl rfl rfl rfl rfl none
    (truncf .bf16 x0 bitsLt_bf16_f32 : FVec Ideal S8000x32 .bf16)
    (transpose S32x32 [1, 0] (truncf .bf16 x1 bitsLt_bf16_f32 : FVec Ideal S32x32 .bf16) transposes_S32x32_p1_0_S32x32)
    p q
  have hb := broadcastTo_1b_ab_apply (shapeCast S1x32 x2 shapeCasts_S1x32_S1x32) broadcasts_S1x32_S8000x32 p q
  refine (congrArg₂ max (congrArg₂ (· + ·) hm hb) Ideal.ofBits_zero_f32).trans ?_
  have ht : ∀ k : Fin 32, transpose S32x32 [1, 0] (truncf .bf16 x1 bitsLt_bf16_f32 : FVec Ideal S32x32 .bf16)
      transposes_S32x32_p1_0_S32x32 (ix2 k q) = x1 (ix2 q k) := fun k =>
    transpose_ix2_apply (truncf .bf16 x1 bitsLt_bf16_f32 : FVec Ideal S32x32 .bf16) transposes_S32x32_p1_0_S32x32 k q
  rw [shapeCast_self]
  simp only [truncf_apply, ht]

/-- One block of the body's output is the same block of `edgeG`: if the block of `e` holds rows `8000 n …` of `e` and
    the weight and bias blocks are the whole weight and bias, the body's entry `j` is `edgeG` at row `8000 n + j 0`. -/
theorem edge_block (x : Vec Ideal S800000x32 .f32) (w : Vec Ideal S32x32 .f32) (b : Vec Ideal S1x32 .f32)
    (x0 : Vec Ideal S8000x32 .f32) (x1 : Vec Ideal S32x32 .f32) (x2 : Vec Ideal S1x32 .f32)
    (n : Nat) (j : S8000x32.Idx) (i : S800000x32.Idx)
    (hi0 : (i 0).val = n * 8000 + (j 0).val) (hi1 : (i 1).val = (j 1).val)
    (h0 : ∀ (y : S8000x32.Idx) (z : S800000x32.Idx), (z 0).val = n * 8000 + (y 0).val → (z 1).val = (y 1).val → x0 y = x z)
    (h1 : x1 = w) (h2 : x2 = b) :
    k1_pay1 (F := Ideal) x0 x1 x2 j = edgeG x w b i := by
  subst h1; subst h2
  obtain ⟨p, q, rfl⟩ : ∃ (p : Fin 8000) (q : Fin 32), j = ix2 p q := ⟨j 0, j 1, eq_ix2 j⟩
  obtain ⟨P, Q, rfl⟩ : ∃ (P : Fin 800000) (Q : Fin 32), i = ix2 P Q := ⟨i 0, i 1, eq_ix2 i⟩
  have hPp : P.val = n * 8000 + p.val := hi0
  have hQ : Q = q := Fin.ext hi1
  subst hQ
  rw [edge_payload_apply, edgeG_ix2]
  unfold edgeAt
  have e : ∀ k : Fin 32, x0 (ix2 p k) = x (ix2 P k) := fun k => h0 (ix2 p k) (ix2 P k) hPp rfl
  simp only [e]

/-- The four index maps over the grid of a hundred points: the `e` and output windows move with the point along the
    rows, the weight and bias windows stay at block (0, 0). -/
theorem edge_index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point `t` writes back is block `t` of `edgeG` of the arrays as the call finds them: the output block's
    entry `j` sits at row `8000 t + j 0`, the `e` block holds those same rows of `e`, and the weight's and the bias
    row's blocks are the whole arrays. -/
theorem edge_flushed (c : Dev nD) (t : Fin cfg1.N) :
    (dat1 (F := Ideal) V c).flushed 3 t
      = ((cfg1.win 3).blk t).view.read (Elt Ideal) (edgeG (V c main_arg1) (V c main_arg6) (V c main_v29)) := by
  show (cfg1.win 3).cut (grid1.coords t) ((dat1 (F := Ideal) V c).after 3 t) = _
  rw [after1_3]
  unfold out1_3
  rw [View.canon_unit_zero zero_offsets]
  simp only [View.ld_unit_zero (S := S8000x32) zero_offsets, View.ld_unit_zero (S := S32x32) zero_offsets,
    View.ld_unit_zero (S := S1x32) zero_offsets]
  obtain ⟨e0, e1, e2, e3, e4, e5, e6, e7⟩ := edge_index_maps t
  funext j
  refine edge_block (V c main_arg1) (V c main_arg6) (V c main_v29) (iblk1 V c 0 t) (iblk1 V c 1 t) (iblk1 V c 2 t)
    t.val j (((cfg1.win 3).blk t).view.emb j) ?_ ?_ ?_ ?_ ?_
  · show win1_3.index t (0 : Fin 2) * 8000 + 1 * (j 0).val = t.val * 8000 + (j 0).val
    rw [e6]; omega
  · show win1_3.index t (1 : Fin 2) * 32 + 1 * (j 1).val = (j 1).val
    rw [e7]; omega
  · intro y z hz0 hz1
    show V c main_arg1 (((cfg1.win 0).blk t).view.emb y) = V c main_arg1 z
    refine congrArg _ (funext fun a => Fin.ext ?_)
    match a with
    | ⟨0, _⟩ => show win1_0.index t (0 : Fin 2) * 8000 + 1 * (y 0).val = (z 0).val; rw [e0, hz0]; omega
    | ⟨1, _⟩ => show win1_0.index t (1 : Fin 2) * 32 + 1 * (y 1).val = (z 1).val; rw [e1, hz1]; omega
  · funext y
    show V c main_arg6 (((cfg1.win 1).blk t).view.emb y) = V c main_arg6 y
    refine congrArg _ (funext fun a => Fin.ext ?_)
    match a with
    | ⟨0, _⟩ => show win1_1.index t (0 : Fin 2) * 32 + 1 * (y 0).val = (y 0).val; rw [e2]; omega
    | ⟨1, _⟩ => show win1_1.index t (1 : Fin 2) * 32 + 1 * (y 1).val = (y 1).val; rw [e3]; omega
  · funext y
    show V c main_v29 (((cfg1.win 2).blk t).view.emb y) = V c main_v29 y
    refine congrArg _ (funext fun a => Fin.ext ?_)
    match a with
    | ⟨0, _⟩ => show win1_2.index t (0 : Fin 2) * 1 + 1 * (y 0).val = (y 0).val; rw [e4]; omega
    | ⟨1, _⟩ => show win1_2.index t (1 : Fin 2) * 32 + 1 * (y 1).val = (y 1).val; rw [e5]; omega

/-- An index of the output array is in point `t`'s block iff each coordinate is in the block's range on its axis. -/
theorem edge_mem_blk (t : Fin cfg1.N) (i : S800000x32.Idx) :
    i ∈ ((cfg1.win 3).blk t).view.set ↔ ∀ a : Fin 2, win1_3.index t a * S8000x32.size a ≤ (i a).val
      ∧ (i a).val < win1_3.index t a * S8000x32.size a + S8000x32.size a := by
  show i ∈ ((View.whole main_v30).slice (win1_3.rect t)).set ↔ _
  rw [View.set_slice_whole, Rect.mem_set_unit]
  exact Iff.rfl

/-- The hundred row blocks tile the output: row `r` is in the block of point `r / 8000`. -/
theorem edge_cover (i : S800000x32.Idx) :
    ∃ t : Fin cfg1.N, (cfg1.win 3).flush t = true ∧ i ∈ ((cfg1.win 3).blk t).view.set := by
  have h0 : (i 0).val < 800000 := (i 0).isLt
  have h1 : (i 1).val < 32 := (i 1).isLt
  have hN : cfg1.N = 100 := N_1
  have ht : (i 0).val / 8000 < cfg1.N := by rw [hN]; omega
  obtain ⟨-, -, -, -, -, -, e6, e7⟩ := edge_index_maps ⟨(i 0).val / 8000, ht⟩
  refine ⟨⟨(i 0).val / 8000, ht⟩, flush1_3 _, ?_⟩
  rw [edge_mem_blk]
  intro a
  match a with
  | ⟨0, _⟩ =>
    show win1_3.index ⟨(i 0).val / 8000, ht⟩ (0 : Fin 2) * 8000 ≤ (i 0).val
      ∧ (i 0).val < win1_3.index ⟨(i 0).val / 8000, ht⟩ (0 : Fin 2) * 8000 + 8000
    rw [e6]
    show (i 0).val / 8000 * 8000 ≤ (i 0).val ∧ (i 0).val < (i 0).val / 8000 * 8000 + 8000
    omega
  | ⟨1, _⟩ =>
    show win1_3.index ⟨(i 0).val / 8000, ht⟩ (1 : Fin 2) * 32 ≤ (i 1).val
      ∧ (i 1).val < win1_3.index ⟨(i 0).val / 8000, ht⟩ (1 : Fin 2) * 32 + 32
    rw [e7]; omega

/-- So the second call leaves `edgeG` of its three input arrays in its output array. -/
theorem edge_array (c : Dev nD) :
    (dat1 (F := Ideal) V c).arrAt 3 cfg1.N = edgeG (V c main_arg1) (V c main_arg6) (V c main_v29) :=
  (dat1 (F := Ideal) V c).arrAt_eq_of_cover 3 (edgeG (V c main_arg1) (V c main_arg6) (V c main_v29))
    (fun t _ => edge_flushed V c t) edge_cover

/-- `edgeG` is the reference's edge stage, entry by entry: its product contracts `e`'s columns against the transposed
    weight's rows, its two bias broadcasts read entry `q` of the bias vector, and its clip is against the zero constant. -/
theorem edge_reference (x1 : Vec Ideal S800000x32 .f32) (x6 : Vec Ideal S32x32 .f32) (b : Vec Ideal S1x32 .f32)
    (x7 : (⟨S32, .f32⟩ : BufTy).Contents (Elt Ideal))
    (hb : ∀ q : Fin 32, b (ix2 (0 : Fin 1) q) = x7 (ix1 q)) :
    edgeG x1 x6 b = Cert.ReferenceIdeal.Read.val_main_v61 (F := Ideal) x1 x6 x7 := by
  funext i
  obtain ⟨p, q, rfl⟩ : ∃ (p : Fin 800000) (q : Fin 32), i = ix2 p q := ⟨i 0, i 1, eq_ix2 i⟩
  have el : ∀ k : Fin 32, Cert.ReferenceIdeal.Read.lidx_main_v57 (ix2 p q) k = ix2 p k := fun k =>
    funext fun a => by match a with | ⟨0, _⟩ => rfl | ⟨1, _⟩ => rfl
  have er : ∀ k : Fin 32,
      Cert.ReferenceIdeal.Read.idx_main_v56 (Cert.ReferenceIdeal.Read.ridx_main_v57 (ix2 p q) k) = ix2 q k := fun k =>
    funext fun a => by match a with | ⟨0, _⟩ => rfl | ⟨1, _⟩ => rfl
  have eb : Cert.ReferenceIdeal.Read.idx_main_v58 (Cert.ReferenceIdeal.Read.idx_main_v59 (ix2 p q)) = ix1 q :=
    funext fun a => by match a with | ⟨0, _⟩ => rfl
  rw [edgeG_ix2, Cert.ReferenceIdeal.Read.val_main_v61_apply, Cert.ReferenceIdeal.Read.val_main_v60_apply,
    Cert.ReferenceIdeal.Read.val_main_v57_apply, Cert.ReferenceIdeal.Read.val_main_v59_apply,
    Cert.ReferenceIdeal.Read.val_main_v58_apply, Cert.ReferenceIdeal.Read.val_main_call4_v0_apply,
    Cert.ReferenceIdeal.Read.val_main_call4_cst_apply]
  unfold edgeAt
  simp only [Cert.ReferenceIdeal.Read.val_main_v56_apply, el, er, eb, hb, Ideal.addf_def, Ideal.maximumf_def,
    Ideal.ofBits_def, Ideal.ofBits_zero_f32]

/-- The edge branch. `h29`: the bias row the call stages is the bias vector `x7` laid out as one row. -/
theorem edge_final (c : Dev nD) (x7 : (⟨S32, .f32⟩ : BufTy).Contents (Elt Ideal))
    (h29 : ∀ q : Fin 32, V c main_v29 (ix2 (0 : Fin 1) q) = x7 (ix1 q)) :
    (dat1 (F := Ideal) V c).arrAt 3 cfg1.N
      = Cert.ReferenceIdeal.Read.val_main_v61 (F := Ideal) (V c main_arg1) (V c main_arg6) x7 :=
  (edge_array V c).trans (edge_reference (V c main_arg1) (V c main_arg6) (V c main_v29) x7 h29)

end Cert.Bridge

end
-- ==== Proof.ValPeer.lean ====
/- The third pallas_call's two output arrays, at the exact (extended real) values, are the reference's own stages: the
   neighbour message `nv · ([x[row] , e] · W_peerᵀ + b_peer)` — the call multiplies the gathered node rows by the first 128
   columns of W_peer and the edge attributes by the last 32 and adds the two, which is the one product over the 160
   joined columns with its sum over the contracted coordinate split at 128 — and the scaled aggregate rows
   `nv · agg[col]`. -/
import proofs.«107213_j40037685133334_1_alg».proof.Proof.KernelIdeal.Region2
import proofs.«107213_j40037685133334_1_alg».proof.Proof.RefRead
import proofs.«107213_j40037685133334_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

namespace Peer

/-! ## Offsets, index maps, rows -/

/-- The zero offsets of a whole-block rectangle, as a constant function. -/
theorem zeroOff : (![0, 0] : Fin 2 → Nat) = fun _ => 0 :=
  funext fun a => match a with
    | ⟨0, _⟩ => rfl
    | ⟨1, _⟩ => rfl

/-- The printed index maps, decided once over the 200 grid points: the six row-blocked windows take block t of rows
    at point t (and the only block of columns), the three small windows always take their only block. -/
theorem index2_0 : ∀ t : Fin cfg2.N, win2_0.index t (0 : Fin 2) = t.val ∧ win2_0.index t (1 : Fin 2) = 0 :=
  (by decide +kernel : ∀ t : Fin grid2.N, _)
theorem index2_1 : ∀ t : Fin cfg2.N, win2_1.index t (0 : Fin 2) = t.val ∧ win2_1.index t (1 : Fin 2) = 0 :=
  (by decide +kernel : ∀ t : Fin grid2.N, _)
theorem index2_2 : ∀ t : Fin cfg2.N, win2_2.index t (0 : Fin 2) = t.val ∧ win2_2.index t (1 : Fin 2) = 0 :=
  (by decide +kernel : ∀ t : Fin grid2.N, _)
theorem index2_3 : ∀ t : Fin cfg2.N, win2_3.index t (0 : Fin 2) = t.val ∧ win2_3.index t (1 : Fin 2) = 0 :=
  (by decide +kernel : ∀ t : Fin grid2.N, _)
theorem index2_4 : ∀ t : Fin cfg2.N, win2_4.index t (0 : Fin 2) = 0 ∧ win2_4.index t (1 : Fin 2) = 0 :=
  (by decide +kernel : ∀ t : Fin grid2.N, _)
theorem index2_5 : ∀ t : Fin cfg2.N, win2_5.index t (0 : Fin 2) = 0 ∧ win2_5.index t (1 : Fin 2) = 0 :=
  (by decide +kernel : ∀ t : Fin grid2.N, _)
theorem index2_6 : ∀ t : Fin cfg2.N, win2_6.index t (0 : Fin 2) = 0 ∧ win2_6.index t (1 : Fin 2) = 0 :=
  (by decide +kernel : ∀ t : Fin grid2.N, _)
theorem index2_7 : ∀ t : Fin cfg2.N, win2_7.index t (0 : Fin 2) = t.val ∧ win2_7.index t (1 : Fin 2) = 0 :=
  (by decide +kernel : ∀ t : Fin grid2.N, _)
theorem index2_8 : ∀ t : Fin cfg2.N, win2_8.index t (0 : Fin 2) = t.val ∧ win2_8.index t (1 : Fin 2) = 0 :=
  (by decide +kernel : ∀ t : Fin grid2.N, _)

/-- The array row under row p of a block at grid point t: the blocks are 4000 rows high and follow one another. -/
def rowAt (t : Fin cfg2.N) (p : Fin 4000) : Fin 800000 :=
  ⟨4000 * t.val + p.val, by
    have h : t.val < 200 := Nat.lt_of_lt_of_eq t.isLt N_2
    have hp : p.val < 4000 := p.isLt
    omega⟩

theorem rowAt_val (t : Fin cfg2.N) (p : Fin 4000) : (rowAt t p).val = 4000 * t.val + p.val := rfl

/-! ## The scaled aggregate rows (output window 8) -/

/-- The scaled aggregate rows as one function of the factor column and the aggregate rows, entry by entry:
    entry (r, q) is the factor of row r times the aggregate entry (r, q). -/
def mixArr (f : Vec Ideal S800000x1 .f32) (g : Vec Ideal S800000x32 .f32) : Vec Ideal S800000x32 .f32 :=
  fun i => f (ix2 (i 0) (0 : Fin 1)) * g i

theorem mixArr_apply (f : Vec Ideal S800000x1 .f32) (g : Vec Ideal S800000x32 .f32) (r : Fin 800000) (q : Fin 32) :
    mixArr f g (ix2 r q) = f (ix2 r (0 : Fin 1)) * g (ix2 r q) := rfl

/-- A column of height 4000 broadcast along rows of 32 reads the column's entry of the same row. -/
theorem bcast_col32 (f : Vec Ideal S4000x1 .f32) (p : Fin 4000) (q : Fin 32) :
    broadcastTo S4000x32 f broadcasts_S4000x1_S4000x32 (ix2 p q) = f (ix2 p (0 : Fin 1)) :=
  broadcastTo_apply f broadcasts_S4000x1_S4000x32 (ix2 p q) (ix2 p (0 : Fin 1)) (fun a => match a with
    | ⟨0, _⟩ => by show p.val = if (4000 : Nat) = 1 then 0 else p.val; rw [if_neg (by decide)]
    | ⟨1, _⟩ => by show 0 = if (1 : Nat) = 1 then 0 else q.val; rw [if_pos rfl])

/-- The body's second stored value at an entry: the factor of the row times the aggregate block's entry. -/
theorem pay3_apply (f : Vec Ideal S4000x1 .f32) (g : Vec Ideal S4000x32 .f32) (p : Fin 4000) (q : Fin 32) :
    k2_pay3 (F := Ideal) f g (ix2 p q) = f (ix2 p (0 : Fin 1)) * g (ix2 p q) := by
  unfold k2_pay3 k2_pay1
  simp only [shapeCast_self]
  show broadcastTo S4000x32 f broadcasts_S4000x1_S4000x32 (ix2 p q) * g (ix2 p q) = _
  rw [bcast_col32]

/-- Window 2's block at point t is rows 4000 t to 4000 t + 3999 of the factor column. -/
theorem iblk2_2_apply (c : Dev nD) (t : Fin cfg2.N) (p : Fin 4000) :
    (iblk2 V c 2 t : Vec Ideal S4000x1 .f32) (ix2 p (0 : Fin 1))
      = (V c main_v43 : Vec Ideal S800000x1 .f32) (ix2 (rowAt t p) (0 : Fin 1)) := by
  obtain ⟨e0, e1⟩ := index2_2 t
  unfold iblk2
  show V c main_v43 (((cfg2.win 2).blk t).view.emb (ix2 p (0 : Fin 1))) = V c main_v43 (ix2 (rowAt t p) (0 : Fin 1))
  congr 1
  funext a
  apply Fin.ext
  match a with
  | ⟨0, _⟩ => show win2_2.index t (0 : Fin 2) * 4000 + 1 * p.val = 4000 * t.val + p.val; rw [e0]; omega
  | ⟨1, _⟩ => show win2_2.index t (1 : Fin 2) * 1 + 1 * 0 = 0; rw [e1]

/-- Window 3's block at point t is the same rows of the aggregate array. -/
theorem iblk2_3_apply (c : Dev nD) (t : Fin cfg2.N) (p : Fin 4000) (q : Fin 32) :
    (iblk2 V c 3 t : Vec Ideal S4000x32 .f32) (ix2 p q)
      = (V c main_v40 : Vec Ideal S800000x32 .f32) (ix2 (rowAt t p) q) := by
  obtain ⟨e0, e1⟩ := index2_3 t
  unfold iblk2
  show V c main_v40 (((cfg2.win 3).blk t).view.emb (ix2 p q)) = V c main_v40 (ix2 (rowAt t p) q)
  congr 1
  funext a
  apply Fin.ext
  match a with
  | ⟨0, _⟩ => show win2_3.index t (0 : Fin 2) * 4000 + 1 * p.val = 4000 * t.val + p.val; rw [e0]; omega
  | ⟨1, _⟩ => show win2_3.index t (1 : Fin 2) * 32 + 1 * q.val = q.val; rw [e1]; omega

/-- An entry of output window 8's block at point t sits in the array at the same rows. -/
theorem blk2_8_emb (t : Fin cfg2.N) (p : Fin 4000) (q : Fin 32) :
    ((cfg2.win 8).blk t).view.emb (ix2 p q) = (ix2 (rowAt t p) q : S800000x32.Idx) := by
  obtain ⟨e0, e1⟩ := index2_8 t
  funext a
  apply Fin.ext
  match a with
  | ⟨0, _⟩ => show win2_8.index t (0 : Fin 2) * 4000 + 1 * p.val = 4000 * t.val + p.val; rw [e0]; omega
  | ⟨1, _⟩ => show win2_8.index t (1 : Fin 2) * 32 + 1 * q.val = q.val; rw [e1]; omega

/-- What point t writes back through window 8 is block t of mixArr of the two arrays the call finds. -/
theorem mix_flushed (c : Dev nD) (t : Fin cfg2.N) :
    (dat2 (F := Ideal) V c).flushed 8 t
      = ((cfg2.win 8).blk t).view.read (Elt Ideal) (mixArr (V c main_v43) (V c main_v40)) := by
  show (cfg2.win 8).cut (grid2.coords t) ((dat2 (F := Ideal) V c).after 8 t) = _
  rw [after2_8]
  unfold out2_8
  rw [View.canon_unit_zero zeroOff]
  simp only [View.ld_unit_zero (S := S4000x1) zeroOff, View.ld_unit_zero (S := S4000x32) zeroOff]
  funext j
  obtain ⟨p, q, rfl⟩ : ∃ (p : Fin 4000) (q : Fin 32), j = ix2 p q := ⟨j 0, j 1, eq_ix2 j⟩
  show k2_pay3 (F := Ideal) (iblk2 V c 2 t) (iblk2 V c 3 t) (ix2 p q)
    = mixArr (V c main_v43) (V c main_v40) (((cfg2.win 8).blk t).view.emb (ix2 p q))
  rw [blk2_8_emb t p q, mixArr_apply]
  refine (pay3_apply (iblk2 V c 2 t) (iblk2 V c 3 t) p q).trans ?_
  rw [iblk2_2_apply V c t p, iblk2_3_apply V c t p q]

/-- An index of the array is in point t's block of window 8 iff each coordinate is in the block's range. -/
theorem mem_blk2_8 (t : Fin cfg2.N) (i : S800000x32.Idx) :
    i ∈ ((cfg2.win 8).blk t).view.set ↔ ∀ a : Fin 2, win2_8.index t a * S4000x32.size a ≤ (i a).val
      ∧ (i a).val < win2_8.index t a * S4000x32.size a + S4000x32.size a := by
  show i ∈ ((View.whole main_v45_1).slice (win2_8.rect t)).set ↔ _
  rw [View.set_slice_whole, Rect.mem_set_unit]
  exact Iff.rfl

/-- Every index of the array is written back: row r by the point r / 4000. -/
theorem mix_cover (i : S800000x32.Idx) :
    ∃ t : Fin cfg2.N, (cfg2.win 8).flush t = true ∧ i ∈ ((cfg2.win 8).blk t).view.set := by
  have hi0 : (i 0).val < 800000 := (i 0).isLt
  have hi1 : (i 1).val < 32 := (i 1).isLt
  have hN : cfg2.N = 200 := N_2
  have ht : (i 0).val / 4000 < cfg2.N := by rw [hN]; omega
  obtain ⟨e0, e1⟩ := index2_8 ⟨(i 0).val / 4000, ht⟩
  refine ⟨⟨(i 0).val / 4000, ht⟩, flush2_8 _, ?_⟩
  rw [mem_blk2_8]
  intro a
  match a with
  | ⟨0, _⟩ =>
    show win2_8.index ⟨(i 0).val / 4000, ht⟩ (0 : Fin 2) * 4000 ≤ (i 0).val
      ∧ (i 0).val < win2_8.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win2_8.index ⟨(i 0).val / 4000, ht⟩ (1 : Fin 2) * 32 ≤ (i 1).val
      ∧ (i 1).val < win2_8.index ⟨(i 0).val / 4000, ht⟩ (1 : Fin 2) * 32 + 32
    rw [e1]
    omega

/-- So the array window 8 writes ends holding mixArr of the factor column and the aggregate rows. -/
theorem mix_arr (c : Dev nD) :
    (dat2 (F := Ideal) V c).arrAt 8 cfg2.N = mixArr (V c main_v43) (V c main_v40) :=
  (dat2 (F := Ideal) V c).arrAt_eq_of_cover 8 (mixArr (V c main_v43) (V c main_v40))
    (fun t _ => mix_flushed V c t) mix_cover

/-! ## The neighbour message (output window 7) -/

/-- The neighbour message as one function of the six arrays the call finds, entry by entry: entry (r, j) is the factor
    of row r times (the sum over the 128 node-feature columns of row r against row j of the first weight piece, plus
    the sum over the 32 edge-attribute columns of row r against row j of the second weight piece, plus bias j). -/
def peerArr (xg : Vec Ideal S800000x128 .f32) (xe : Vec Ideal S800000x32 .f32) (f : Vec Ideal S800000x1 .f32)
    (w1 : Vec Ideal S96x128 .f32) (w2 : Vec Ideal S96x32 .f32) (b : Vec Ideal S1x96 .f32) : Vec Ideal S800000x96 .f32 :=
  fun i => f (ix2 (i 0) (0 : Fin 1))
    * ((∑ k : Fin 128, xg (ix2 (i 0) k) * w1 (ix2 (i 1) k) + ∑ k : Fin 32, xe (ix2 (i 0) k) * w2 (ix2 (i 1) k))
      + b (ix2 (0 : Fin 1) (i 1)))

theorem peerArr_apply (xg : Vec Ideal S800000x128 .f32) (xe : Vec Ideal S800000x32 .f32) (f : Vec Ideal S800000x1 .f32)
    (w1 : Vec Ideal S96x128 .f32) (w2 : Vec Ideal S96x32 .f32) (b : Vec Ideal S1x96 .f32) (r : Fin 800000) (j : Fin 96) :
    peerArr xg xe f w1 w2 b (ix2 r j) = f (ix2 r (0 : Fin 1))
      * ((∑ k : Fin 128, xg (ix2 r k) * w1 (ix2 j k) + ∑ k : Fin 32, xe (ix2 r k) * w2 (ix2 j k))
        + b (ix2 (0 : Fin 1) j)) := rfl

/-- A column of height 4000 broadcast along rows of 96 reads the column's entry of the same row. -/
theorem bcast_col96 (f : Vec Ideal S4000x1 .f32) (p : Fin 4000) (j : Fin 96) :
    broadcastTo S4000x96 f broadcasts_S4000x1_S4000x96 (ix2 p j) = f (ix2 p (0 : Fin 1)) :=
  broadcastTo_apply f broadcasts_S4000x1_S4000x96 (ix2 p j) (ix2 p (0 : Fin 1)) (fun a => match a with
    | ⟨0, _⟩ => by show p.val = if (4000 : Nat) = 1 then 0 else p.val; rw [if_neg (by decide)]
    | ⟨1, _⟩ => by show 0 = if (1 : Nat) = 1 then 0 else j.val; rw [if_pos rfl])

/-- A row of length 96 broadcast down 4000 rows reads the row's entry of the same column. -/
theorem bcast_row96 (b : Vec Ideal S1x96 .f32) (p : Fin 4000) (j : Fin 96) :
    broadcastTo S4000x96 b broadcasts_S1x96_S4000x96 (ix2 p j) = b (ix2 (0 : Fin 1) j) :=
  broadcastTo_apply b broadcasts_S1x96_S4000x96 (ix2 p j) (ix2 (0 : Fin 1) j) (fun a => match a with
    | ⟨0, _⟩ => by show 0 = if (1 : Nat) = 1 then 0 else p.val; rw [if_pos rfl]
    | ⟨1, _⟩ => by show j.val = if (96 : Nat) = 1 then 0 else j.val; rw [if_neg (by decide)])

/-- The transposed first weight piece at (k, j) is the piece at (j, k). -/
theorem transpose_w1 (w : FVec Ideal S96x128 .bf16) (k : Fin 128) (j : Fin 96) :
    transpose S128x96 [1, 0] w transposes_S96x128_p1_0_S128x96 (ix2 k j) = w (ix2 j k) :=
  transpose_apply [1, 0] w transposes_S96x128_p1_0_S128x96 (ix2 k j) (ix2 j k) (fun b => match b with
    | ⟨0, _⟩ => rfl
    | ⟨1, _⟩ => rfl)

/-- The transposed second weight piece at (k, j) is the piece at (j, k). -/
theorem transpose_w2 (w : FVec Ideal S96x32 .bf16) (k : Fin 32) (j : Fin 96) :
    transpose S32x96 [1, 0] w transposes_S96x32_p1_0_S32x96 (ix2 k j) = w (ix2 j k) :=
  transpose_apply [1, 0] w transposes_S96x32_p1_0_S32x96 (ix2 k j) (ix2 j k) (fun b => match b with
    | ⟨0, _⟩ => rfl
    | ⟨1, _⟩ => rfl)

/-- The first product of the body into the zero accumulator, at an entry: rows by columns over 128. -/
theorem mm1_apply (A : FVec Ideal S4000x128 .bf16) (B : FVec Ideal S128x96 .bf16) (p : Fin 4000) (j : Fin 96) :
    matmul (F := Ideal) dot_S4000x128_S128x96_S4000x96_1_0_0_1_n_n none A B
        (constant (F := Ideal) S4000x96 .f32 0x00000000#32) (ix2 p j)
      = ∑ k : Fin 128, A (ix2 p k) * B (ix2 k j) :=
  Cert.LibDot.matmul_10_zero_apply dot_S4000x128_S128x96_S4000x96_1_0_0_1_n_n rfl rfl rfl rfl rfl rfl none A B p j

/-- The second product, over 32. -/
theorem mm2_apply (A : FVec Ideal S4000x32 .bf16) (B : FVec Ideal S32x96 .bf16) (p : Fin 4000) (j : Fin 96) :
    matmul (F := Ideal) dot_S4000x32_S32x96_S4000x96_1_0_0_1_n_n none A B
        (constant (F := Ideal) S4000x96 .f32 0x00000000#32) (ix2 p j)
      = ∑ k : Fin 32, A (ix2 p k) * B (ix2 k j) :=
  Cert.LibDot.matmul_10_zero_apply dot_S4000x32_S32x96_S4000x96_1_0_0_1_n_n rfl rfl rfl rfl rfl rfl none A B p j

/-- The first product against the transposed first weight piece: entry (p, j) is the sum over k of A (p, k) times the
    piece's entry (j, k). -/
theorem mm1T_apply (A : FVec Ideal S4000x128 .bf16) (W : FVec Ideal S96x128 .bf16) (p : Fin 4000) (j : Fin 96) :
    matmul (F := Ideal) dot_S4000x128_S128x96_S4000x96_1_0_0_1_n_n none A
        (transpose S128x96 [1, 0] W transposes_S96x128_p1_0_S128x96)
        (constant (F := Ideal) S4000x96 .f32 0x00000000#32) (ix2 p j)
      = ∑ k : Fin 128, A (ix2 p k) * W (ix2 j k) :=
  (mm1_apply A (transpose S128x96 [1, 0] W transposes_S96x128_p1_0_S128x96) p j).trans
    (Finset.sum_congr rfl fun k _ => congrArg (A (ix2 p k) * ·) (transpose_w1 W k j))

/-- The second product against the transposed second weight piece, likewise. -/
theorem mm2T_apply (A : FVec Ideal S4000x32 .bf16) (W : FVec Ideal S96x32 .bf16) (p : Fin 4000) (j : Fin 96) :
    matmul (F := Ideal) dot_S4000x32_S32x96_S4000x96_1_0_0_1_n_n none A
        (transpose S32x96 [1, 0] W transposes_S96x32_p1_0_S32x96)
        (constant (F := Ideal) S4000x96 .f32 0x00000000#32) (ix2 p j)
      = ∑ k : Fin 32, A (ix2 p k) * W (ix2 j k) :=
  (mm2_apply A (transpose S32x96 [1, 0] W transposes_S96x32_p1_0_S32x96) p j).trans
    (Finset.sum_congr rfl fun k _ => congrArg (A (ix2 p k) * ·) (transpose_w2 W k j))

/-- The body's first stored value at an entry, from the six blocks it loads: at the exact values the casts to the
    narrow format are the identity, each product into zero is its sum over the contracted coordinate, and the
    transposed weight pieces read the pieces with the coordinates exchanged. -/
theorem pay2_apply (x : Vec Ideal S4000x128 .f32) (e : Vec Ideal S4000x32 .f32) (w1 : Vec Ideal S96x128 .f32)
    (w2 : Vec Ideal S96x32 .f32) (b : Vec Ideal S1x96 .f32) (f : Vec Ideal S4000x1 .f32) (p : Fin 4000) (j : Fin 96) :
    k2_pay2 (F := Ideal) x e w1 w2 b f (ix2 p j)
      = f (ix2 p (0 : Fin 1))
        * ((∑ k : Fin 128, x (ix2 p k) * w1 (ix2 j k) + ∑ k : Fin 32, e (ix2 p k) * w2 (ix2 j k))
          + b (ix2 (0 : Fin 1) j)) := by
  unfold k2_pay2 k2_pay1
  simp only [shapeCast_self]
  show broadcastTo S4000x96 f broadcasts_S4000x1_S4000x96 (ix2 p j)
      * ((matmul (F := Ideal) dot_S4000x128_S128x96_S4000x96_1_0_0_1_n_n none (truncf .bf16 x bitsLt_bf16_f32)
            (transpose S128x96 [1, 0] (truncf .bf16 w1 bitsLt_bf16_f32) transposes_S96x128_p1_0_S128x96)
            (constant (F := Ideal) S4000x96 .f32 0x00000000#32) (ix2 p j)
          + matmul (F := Ideal) dot_S4000x32_S32x96_S4000x96_1_0_0_1_n_n none (truncf .bf16 e bitsLt_bf16_f32)
            (transpose S32x96 [1, 0] (truncf .bf16 w2 bitsLt_bf16_f32) transposes_S96x32_p1_0_S32x96)
            (constant (F := Ideal) S4000x96 .f32 0x00000000#32) (ix2 p j))
        + broadcastTo S4000x96 b broadcasts_S1x96_S4000x96 (ix2 p j)) = _
  rw [bcast_col96, bcast_row96, mm1T_apply, mm2T_apply]
  rfl

/-- Window 0's block at point t is rows 4000 t to 4000 t + 3999 of the gathered node rows. -/
theorem iblk2_0_apply (c : Dev nD) (t : Fin cfg2.N) (p : Fin 4000) (k : Fin 128) :
    (iblk2 V c 0 t : Vec Ideal S4000x128 .f32) (ix2 p k)
      = (V c main_v28 : Vec Ideal S800000x128 .f32) (ix2 (rowAt t p) k) := by
  obtain ⟨e0, e1⟩ := index2_0 t
  unfold iblk2
  show V c main_v28 (((cfg2.win 0).blk t).view.emb (ix2 p k)) = V c main_v28 (ix2 (rowAt t p) k)
  congr 1
  funext a
  apply Fin.ext
  match a with
  | ⟨0, _⟩ => show win2_0.index t (0 : Fin 2) * 4000 + 1 * p.val = 4000 * t.val + p.val; rw [e0]; omega
  | ⟨1, _⟩ => show win2_0.index t (1 : Fin 2) * 128 + 1 * k.val = k.val; rw [e1]; omega

/-- Window 1's block at point t is the same rows of the edge attributes. -/
theorem iblk2_1_apply (c : Dev nD) (t : Fin cfg2.N) (p : Fin 4000) (k : Fin 32) :
    (iblk2 V c 1 t : Vec Ideal S4000x32 .f32) (ix2 p k)
      = (V c main_arg1 : Vec Ideal S800000x32 .f32) (ix2 (rowAt t p) k) := by
  obtain ⟨e0, e1⟩ := index2_1 t
  unfold iblk2
  show V c main_arg1 (((cfg2.win 1).blk t).view.emb (ix2 p k)) = V c main_arg1 (ix2 (rowAt t p) k)
  congr 1
  funext a
  apply Fin.ext
  match a with
  | ⟨0, _⟩ => show win2_1.index t (0 : Fin 2) * 4000 + 1 * p.val = 4000 * t.val + p.val; rw [e0]; omega
  | ⟨1, _⟩ => show win2_1.index t (1 : Fin 2) * 32 + 1 * k.val = k.val; rw [e1]; omega

/-- Window 4's block at every point is the whole first weight piece. -/
theorem iblk2_4_apply (c : Dev nD) (t : Fin cfg2.N) (j : Fin 96) (k : Fin 128) :
    (iblk2 V c 4 t : Vec Ideal S96x128 .f32) (ix2 j k) = (V c main_v41 : Vec Ideal S96x128 .f32) (ix2 j k) := by
  obtain ⟨e0, e1⟩ := index2_4 t
  unfold iblk2
  show V c main_v41 (((cfg2.win 4).blk t).view.emb (ix2 j k)) = V c main_v41 (ix2 j k)
  congr 1
  funext a
  apply Fin.ext
  match a with
  | ⟨0, _⟩ => show win2_4.index t (0 : Fin 2) * 96 + 1 * j.val = j.val; rw [e0]; omega
  | ⟨1, _⟩ => show win2_4.index t (1 : Fin 2) * 128 + 1 * k.val = k.val; rw [e1]; omega

/-- Window 5's block at every point is the whole second weight piece. -/
theorem iblk2_5_apply (c : Dev nD) (t : Fin cfg2.N) (j : Fin 96) (k : Fin 32) :
    (iblk2 V c 5 t : Vec Ideal S96x32 .f32) (ix2 j k) = (V c main_v42 : Vec Ideal S96x32 .f32) (ix2 j k) := by
  obtain ⟨e0, e1⟩ := index2_5 t
  unfold iblk2
  show V c main_v42 (((cfg2.win 5).blk t).view.emb (ix2 j k)) = V c main_v42 (ix2 j k)
  congr 1
  funext a
  apply Fin.ext
  match a with
  | ⟨0, _⟩ => show win2_5.index t (0 : Fin 2) * 96 + 1 * j.val = j.val; rw [e0]; omega
  | ⟨1, _⟩ => show win2_5.index t (1 : Fin 2) * 32 + 1 * k.val = k.val; rw [e1]; omega

/-- Window 6's block at every point is the whole bias row. -/
theorem iblk2_6_apply (c : Dev nD) (t : Fin cfg2.N) (j : Fin 96) :
    (iblk2 V c 6 t : Vec Ideal S1x96 .f32) (ix2 (0 : Fin 1) j) = (V c main_v44 : Vec Ideal S1x96 .f32) (ix2 (0 : Fin 1) j) := by
  obtain ⟨e0, e1⟩ := index2_6 t
  unfold iblk2
  show V c main_v44 (((cfg2.win 6).blk t).view.emb (ix2 (0 : Fin 1) j)) = V c main_v44 (ix2 (0 : Fin 1) j)
  congr 1
  funext a
  apply Fin.ext
  match a with
  | ⟨0, _⟩ => show win2_6.index t (0 : Fin 2) * 1 + 1 * 0 = 0; rw [e0]
  | ⟨1, _⟩ => show win2_6.index t (1 : Fin 2) * 96 + 1 * j.val = j.val; rw [e1]; omega

/-- An entry of output window 7's block at point t sits in the array at rows 4000 t onwards. -/
theorem blk2_7_emb (t : Fin cfg2.N) (p : Fin 4000) (j : Fin 96) :
    ((cfg2.win 7).blk t).view.emb (ix2 p j) = (ix2 (rowAt t p) j : S800000x96.Idx) := by
  obtain ⟨e0, e1⟩ := index2_7 t
  funext a
  apply Fin.ext
  match a with
  | ⟨0, _⟩ => show win2_7.index t (0 : Fin 2) * 4000 + 1 * p.val = 4000 * t.val + p.val; rw [e0]; omega
  | ⟨1, _⟩ => show win2_7.index t (1 : Fin 2) * 96 + 1 * j.val = j.val; rw [e1]; omega

/-- An entry of the message depends on its factors only through their values: equal factors, summand by summand, give
    equal entries. -/
theorem entry_congr (f d : EReal) (a a' u u' : Fin 128 → EReal) (b b' v v' : Fin 32 → EReal)
    (ha : ∀ k, a k = a' k) (hu : ∀ k, u k = u' k) (hb : ∀ k, b k = b' k) (hv : ∀ k, v k = v' k) :
    f * ((∑ k, a k * u k + ∑ k, b k * v k) + d) = f * ((∑ k, a' k * u' k + ∑ k, b' k * v' k) + d) := by
  obtain rfl : a = a' := funext ha
  obtain rfl : u = u' := funext hu
  obtain rfl : b = b' := funext hb
  obtain rfl : v = v' := funext hv
  rfl

/-- What point t writes back through window 7 is block t of peerArr of the six arrays the call finds. -/
theorem peer_flushed (c : Dev nD) (t : Fin cfg2.N) :
    (dat2 (F := Ideal) V c).flushed 7 t
      = ((cfg2.win 7).blk t).view.read (Elt Ideal)
          (peerArr (V c main_v28) (V c main_arg1) (V c main_v43) (V c main_v41) (V c main_v42) (V c main_v44)) := by
  show (cfg2.win 7).cut (grid2.coords t) ((dat2 (F := Ideal) V c).after 7 t) = _
  rw [after2_7]
  unfold out2_7
  rw [View.canon_unit_zero zeroOff]
  simp only [View.ld_unit_zero (S := S4000x128) zeroOff, View.ld_unit_zero (S := S4000x32) zeroOff,
    View.ld_unit_zero (S := S4000x1) zeroOff, View.ld_unit_zero (S := S96x128) zeroOff,
    View.ld_unit_zero (S := S96x32) zeroOff, View.ld_unit_zero (S := S1x96) zeroOff]
  funext y
  obtain ⟨p, j, rfl⟩ : ∃ (p : Fin 4000) (j : Fin 96), y = ix2 p j := ⟨y 0, y 1, eq_ix2 y⟩
  show k2_pay2 (F := Ideal) (iblk2 V c 0 t) (iblk2 V c 1 t) (iblk2 V c 4 t) (iblk2 V c 5 t) (iblk2 V c 6 t)
      (iblk2 V c 2 t) (ix2 p j)
    = peerArr (V c main_v28) (V c main_arg1) (V c main_v43) (V c main_v41) (V c main_v42) (V c main_v44)
      (((cfg2.win 7).blk t).view.emb (ix2 p j))
  rw [blk2_7_emb t p j, peerArr_apply]
  refine (pay2_apply (iblk2 V c 0 t) (iblk2 V c 1 t) (iblk2 V c 4 t) (iblk2 V c 5 t) (iblk2 V c 6 t)
    (iblk2 V c 2 t) p j).trans ?_
  rw [iblk2_2_apply V c t p, iblk2_6_apply V c t j]
  exact entry_congr _ _ _ _ _ _ _ _ _ _ (iblk2_0_apply V c t p) (iblk2_4_apply V c t j)
    (iblk2_1_apply V c t p) (iblk2_5_apply V c t j)

/-- An index of the array is in point t's block of window 7 iff each coordinate is in the block's range. -/
theorem mem_blk2_7 (t : Fin cfg2.N) (i : S800000x96.Idx) :
    i ∈ ((cfg2.win 7).blk t).view.set ↔ ∀ a : Fin 2, win2_7.index t a * S4000x96.size a ≤ (i a).val
      ∧ (i a).val < win2_7.index t a * S4000x96.size a + S4000x96.size a := by
  show i ∈ ((View.whole main_v45_0).slice (win2_7.rect t)).set ↔ _
  rw [View.set_slice_whole, Rect.mem_set_unit]
  exact Iff.rfl

/-- Every index of the array is written back: row r by the point r / 4000. -/
theorem peer_cover (i : S800000x96.Idx) :
    ∃ t : Fin cfg2.N, (cfg2.win 7).flush t = true ∧ i ∈ ((cfg2.win 7).blk t).view.set := by
  have hi0 : (i 0).val < 800000 := (i 0).isLt
  have hi1 : (i 1).val < 96 := (i 1).isLt
  have hN : cfg2.N = 200 := N_2
  have ht : (i 0).val / 4000 < cfg2.N := by rw [hN]; omega
  obtain ⟨e0, e1⟩ := index2_7 ⟨(i 0).val / 4000, ht⟩
  refine ⟨⟨(i 0).val / 4000, ht⟩, flush2_7 _, ?_⟩
  rw [mem_blk2_7]
  intro a
  match a with
  | ⟨0, _⟩ =>
    show win2_7.index ⟨(i 0).val / 4000, ht⟩ (0 : Fin 2) * 4000 ≤ (i 0).val
      ∧ (i 0).val < win2_7.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win2_7.index ⟨(i 0).val / 4000, ht⟩ (1 : Fin 2) * 96 ≤ (i 1).val
      ∧ (i 1).val < win2_7.index ⟨(i 0).val / 4000, ht⟩ (1 : Fin 2) * 96 + 96
    rw [e1]
    omega

/-- So the array window 7 writes ends holding peerArr of the six arrays the call finds. -/
theorem peer_arr (c : Dev nD) :
    (dat2 (F := Ideal) V c).arrAt 7 cfg2.N
      = peerArr (V c main_v28) (V c main_arg1) (V c main_v43) (V c main_v41) (V c main_v42) (V c main_v44) :=
  (dat2 (F := Ideal) V c).arrAt_eq_of_cover 7
    (peerArr (V c main_v28) (V c main_arg1) (V c main_v43) (V c main_v41) (V c main_v42) (V c main_v44))
    (fun t _ => peer_flushed V c t) peer_cover

/-! ## The reference's neighbour message at an entry -/

/-- The joined array (gathered node rows beside edge attributes) at a column below 128 is the node rows' entry. -/
theorem joined_left (h : Shape.Concatenates [S800000x128, S800000x32] Cert.ReferenceIdeal.S800000x160 1)
    (y : Vec Ideal S800000x128 .f32) (z : Vec Ideal S800000x32 .f32) (i : Cert.ReferenceIdeal.S800000x160.Idx)
    (r : Fin 800000) (k : Fin 128) (h0 : (i 0).val = r.val) (h1 : (i 1).val = k.val) :
    concatenate Cert.ReferenceIdeal.S800000x160 1 [⟨S800000x128, y⟩, ⟨S800000x32, z⟩] h i = y (ix2 r k) :=
  concatenate_pair_apply_left 1 y z h i rfl (ix2 r k) (fun b => match b with
    | ⟨0, _⟩ => h0.symm
    | ⟨1, _⟩ => h1.symm)

/-- At column 128 + k it is the edge attributes' entry at column k. -/
theorem joined_right (h : Shape.Concatenates [S800000x128, S800000x32] Cert.ReferenceIdeal.S800000x160 1)
    (y : Vec Ideal S800000x128 .f32) (z : Vec Ideal S800000x32 .f32) (i : Cert.ReferenceIdeal.S800000x160.Idx)
    (r : Fin 800000) (k : Fin 32) (h0 : (i 0).val = r.val) (h1 : (i 1).val = 128 + k.val) :
    concatenate Cert.ReferenceIdeal.S800000x160 1 [⟨S800000x128, y⟩, ⟨S800000x32, z⟩] h i = z (ix2 r k) :=
  concatenate_pair_apply_right 1 y z h i rfl rfl (ix2 r k) (fun b => match b with
    | ⟨0, _⟩ => fun _ => h0.symm
    | ⟨1, _⟩ => fun hb => absurd (Fin.ext rfl) hb)
    (by show k.val + 128 = (i 1).val; omega)

/-- THE LAW. The reference's one sum over the 160 joined columns is the sum over the first 128 (node features against
    the first 128 columns of the weight matrix) plus the sum over the last 32 (edge attributes against the last 32):
    a sum over a range splits at 128, in the same order. -/
theorem ref_sum_split (x0 : (⟨S50000x128, .f32⟩ : BufTy).Contents (Elt Ideal))
    (x1 : (⟨S800000x32, .f32⟩ : BufTy).Contents (Elt Ideal)) (x2 : (⟨S96x160, .f32⟩ : BufTy).Contents (Elt Ideal))
    (x8 : (⟨S2x800000, .i32⟩ : BufTy).Contents (Elt Ideal)) (r : Fin 800000) (j : Fin 96) :
    ∑ k : Fin 160, Cert.ReferenceIdeal.Read.val_main_v43 (F := Ideal) x0 x1 x8 (Cert.ReferenceIdeal.Read.lidx_main_v46 (ix2 r j) k)
        * Cert.ReferenceIdeal.Read.val_main_v45 (F := Ideal) x2 (Cert.ReferenceIdeal.Read.ridx_main_v46 (ix2 r j) k)
      = ∑ k : Fin 128, Cert.ReferenceIdeal.Read.val_main_v42 (F := Ideal) x0 x8 (ix2 r k) * x2 (ix2 j (⟨k.val, by omega⟩ : Fin 160))
        + ∑ k : Fin 32, x1 (ix2 r k) * x2 (ix2 j (⟨128 + k.val, by omega⟩ : Fin 160)) := by
  refine (Fin.sum_univ_add (a := 128) (b := 32) (fun k : Fin (128 + 32) =>
    Cert.ReferenceIdeal.Read.val_main_v43 (F := Ideal) x0 x1 x8 (Cert.ReferenceIdeal.Read.lidx_main_v46 (ix2 r j) k)
      * Cert.ReferenceIdeal.Read.val_main_v45 (F := Ideal) x2 (Cert.ReferenceIdeal.Read.ridx_main_v46 (ix2 r j) k))).trans ?_
  congr 1
  · refine Finset.sum_congr rfl fun k _ => ?_
    show Cert.ReferenceIdeal.Read.val_main_v43 (F := Ideal) x0 x1 x8
          (Cert.ReferenceIdeal.Read.lidx_main_v46 (ix2 r j) (Fin.castAdd 32 k))
        * Cert.ReferenceIdeal.Read.val_main_v45 (F := Ideal) x2
          (Cert.ReferenceIdeal.Read.ridx_main_v46 (ix2 r j) (Fin.castAdd 32 k)) = _
    rw [Cert.ReferenceIdeal.Read.val_main_v45_apply]
    unfold Cert.ReferenceIdeal.Read.val_main_v43
    rw [joined_left _ _ _ _ r k rfl rfl]
    exact congrArg (_ * x2 ·) (funext fun a => Fin.ext (by match a with | ⟨0, _⟩ => rfl | ⟨1, _⟩ => rfl))
  · refine Finset.sum_congr rfl fun k _ => ?_
    show Cert.ReferenceIdeal.Read.val_main_v43 (F := Ideal) x0 x1 x8
          (Cert.ReferenceIdeal.Read.lidx_main_v46 (ix2 r j) (Fin.natAdd 128 k))
        * Cert.ReferenceIdeal.Read.val_main_v45 (F := Ideal) x2
          (Cert.ReferenceIdeal.Read.ridx_main_v46 (ix2 r j) (Fin.natAdd 128 k)) = _
    rw [Cert.ReferenceIdeal.Read.val_main_v45_apply]
    unfold Cert.ReferenceIdeal.Read.val_main_v43
    rw [joined_right _ _ _ _ r k rfl rfl]
    exact congrArg (_ * x2 ·) (funext fun a => Fin.ext (by match a with | ⟨0, _⟩ => rfl | ⟨1, _⟩ => rfl))

/-- The reference's neighbour message at entry (r, j): the factor of row r times (the split sum plus bias j). -/
theorem ref_peer_apply (x0 : (⟨S50000x128, .f32⟩ : BufTy).Contents (Elt Ideal))
    (x1 : (⟨S800000x32, .f32⟩ : BufTy).Contents (Elt Ideal)) (x2 : (⟨S96x160, .f32⟩ : BufTy).Contents (Elt Ideal))
    (x3 : (⟨S96, .f32⟩ : BufTy).Contents (Elt Ideal)) (x8 : (⟨S2x800000, .i32⟩ : BufTy).Contents (Elt Ideal))
    (r : Fin 800000) (j : Fin 96) :
    Cert.ReferenceIdeal.Read.val_main_v51 (F := Ideal) x0 x1 x2 x3 x8 (ix2 r j)
      = Cert.ReferenceIdeal.Read.val_main_v35 (F := Ideal) x8 (ix1 r)
        * ((∑ k : Fin 128, Cert.ReferenceIdeal.Read.val_main_v42 (F := Ideal) x0 x8 (ix2 r k) * x2 (ix2 j (⟨k.val, by omega⟩ : Fin 160))
            + ∑ k : Fin 32, x1 (ix2 r k) * x2 (ix2 j (⟨128 + k.val, by omega⟩ : Fin 160)))
          + x3 (ix1 j)) := by
  have e1 : Cert.ReferenceIdeal.Read.idx_main_v44 (Cert.ReferenceIdeal.Read.idx_main_v50 (ix2 r j)) = ix1 r :=
    funext fun a => Fin.ext (by match a with | ⟨0, _⟩ => rfl)
  have e2 : Cert.ReferenceIdeal.Read.idx_main_v47 (Cert.ReferenceIdeal.Read.idx_main_v48 (ix2 r j)) = ix1 j :=
    funext fun a => Fin.ext (by match a with | ⟨0, _⟩ => rfl)
  rw [Cert.ReferenceIdeal.Read.val_main_v51_apply, Cert.ReferenceIdeal.Read.val_main_v50_apply,
    Cert.ReferenceIdeal.Read.val_main_v44_apply, Cert.ReferenceIdeal.Read.val_main_v49_apply,
    Cert.ReferenceIdeal.Read.val_main_v46_apply, Cert.ReferenceIdeal.Read.val_main_v48_apply,
    Cert.ReferenceIdeal.Read.val_main_v47_apply, e1, e2, ref_sum_split x0 x1 x2 x8 r j]
  rfl

end Peer

open Peer

/-- The neighbour message. The hypotheses say what the call finds in its seven input arrays, in terms of the program's
    arguments `x0` (node features), `x1` (edge attributes), `x2` (the peer weight matrix), `x3` (its bias), `x8` (the edge
    index): the gathered node rows, the edge attributes, the normalisation factor as a column, the two column ranges of
    the weight matrix, the bias as a row. -/
theorem peer_final (c : Dev nD)
    (x0 : (⟨S50000x128, .f32⟩ : BufTy).Contents (Elt Ideal)) (x1 : (⟨S800000x32, .f32⟩ : BufTy).Contents (Elt Ideal))
    (x2 : (⟨S96x160, .f32⟩ : BufTy).Contents (Elt Ideal)) (x3 : (⟨S96, .f32⟩ : BufTy).Contents (Elt Ideal))
    (x8 : (⟨S2x800000, .i32⟩ : BufTy).Contents (Elt Ideal))
    (h28 : V c main_v28 = Cert.ReferenceIdeal.Read.val_main_v42 (F := Ideal) x0 x8)
    (h1 : V c main_arg1 = x1)
    (h43 : ∀ e : Fin 800000, V c main_v43 (ix2 e (0 : Fin 1)) = Cert.ReferenceIdeal.Read.val_main_v35 (F := Ideal) x8 (ix1 e))
    (h41 : ∀ (j : Fin 96) (k : Fin 128), V c main_v41 (ix2 j k) = x2 (ix2 j (⟨k.val, by omega⟩ : Fin 160)))
    (h42 : ∀ (j : Fin 96) (k : Fin 32), V c main_v42 (ix2 j k) = x2 (ix2 j (⟨128 + k.val, by omega⟩ : Fin 160)))
    (h44 : ∀ j : Fin 96, V c main_v44 (ix2 (0 : Fin 1) j) = x3 (ix1 j)) :
    (dat2 (F := Ideal) V c).arrAt 7 cfg2.N
      = Cert.ReferenceIdeal.Read.val_main_v51 (F := Ideal) x0 x1 x2 x3 x8 := by
  rw [peer_arr V c]
  funext i
  obtain ⟨r, j, rfl⟩ : ∃ (r : Fin 800000) (j : Fin 96), i = ix2 r j := ⟨i 0, i 1, eq_ix2 i⟩
  rw [peerArr_apply, ref_peer_apply x0 x1 x2 x3 x8 r j, h43 r, h44 j, h28, h1]
  have s1 : ∑ k : Fin 128, Cert.ReferenceIdeal.Read.val_main_v42 (F := Ideal) x0 x8 (ix2 r k)
        * (V c main_v41 : Vec Ideal S96x128 .f32) (ix2 j k)
      = ∑ k : Fin 128, Cert.ReferenceIdeal.Read.val_main_v42 (F := Ideal) x0 x8 (ix2 r k)
        * x2 (ix2 j (⟨k.val, by omega⟩ : Fin 160)) :=
    Finset.sum_congr rfl fun k _ => congrArg (_ * ·) (h41 j k)
  have s2 : ∑ k : Fin 32, x1 (ix2 r k) * (V c main_v42 : Vec Ideal S96x32 .f32) (ix2 j k)
      = ∑ k : Fin 32, x1 (ix2 r k) * x2 (ix2 j (⟨128 + k.val, by omega⟩ : Fin 160)) :=
    Finset.sum_congr rfl fun k _ => congrArg (_ * ·) (h42 j k)
  rw [s1, s2]

/-- The scaled aggregate rows. `h40`: the call finds the aggregate rows gathered by column index, which the reference
    names `val_main_v72` of the edge attributes `x1`, the edge weight matrix `x6`, its bias `x7` and the edge index `x8`. -/
theorem mix_final (c : Dev nD)
    (x1 : (⟨S800000x32, .f32⟩ : BufTy).Contents (Elt Ideal)) (x6 : (⟨S32x32, .f32⟩ : BufTy).Contents (Elt Ideal))
    (x7 : (⟨S32, .f32⟩ : BufTy).Contents (Elt Ideal)) (x8 : (⟨S2x800000, .i32⟩ : BufTy).Contents (Elt Ideal))
    (h43 : ∀ e : Fin 800000, V c main_v43 (ix2 e (0 : Fin 1)) = Cert.ReferenceIdeal.Read.val_main_v35 (F := Ideal) x8 (ix1 e))
    (h40 : V c main_v40 = Cert.ReferenceIdeal.Read.val_main_v72 (F := Ideal) x1 x6 x7 x8) :
    (dat2 (F := Ideal) V c).arrAt 8 cfg2.N
      = Cert.ReferenceIdeal.Read.val_main_v74 (F := Ideal) x1 x6 x7 x8 := by
  rw [mix_arr V c]
  funext i
  obtain ⟨r, q, rfl⟩ : ∃ (r : Fin 800000) (q : Fin 32), i = ix2 r q := ⟨i 0, i 1, eq_ix2 i⟩
  have e1 : Cert.ReferenceIdeal.Read.idx_main_v65 (Cert.ReferenceIdeal.Read.idx_main_v73 (ix2 r q)) = ix1 r :=
    funext fun a => Fin.ext (by match a with | ⟨0, _⟩ => rfl)
  rw [mixArr_apply, Cert.ReferenceIdeal.Read.val_main_v74_apply, Cert.ReferenceIdeal.Read.val_main_v73_apply,
    Cert.ReferenceIdeal.Read.val_main_v65_apply, e1, h43 r, h40]
  rfl

end Cert.Bridge

end
-- ==== Proof.HostIn.lean ====
/- What each pallas_call finds in its input arrays, in terms of the program's nine arguments: the launch memory pushed
   through the host operations that run before the call. The host operations here are the very ones the reference
   program applies (slices of the edge index, the degree count and its inverse square root, the gathers by row and by
   column index, the segment sums), so the contents are the reference's own stages of the same arguments. Nothing here
   depends on the float instance. -/
import proofs.«107213_j40037685133334_1_alg».proof.Proof.KernelIdeal.Run
import proofs.«107213_j40037685133334_1_alg».proof.Proof.RefRead
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.Bridge

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable {F : FTy → Type} [FloatOps F]
variable (m : (ℓ : Loc nD τ sig) → Buf (Elt F) ℓ) (ρ : Dev nD → PrngReg)

namespace HostIn

open Cert.ReferenceIdeal.Read

/-! ## One host stretch, from any contents

What a stretch of host operations leaves in one of the buffers it writes, as a function of the contents `V` it starts
from. Where the buffer is a stage the reference program also computes, the value is stated as the reference's stage:
the two programs apply the same operations with the same axis lists, so once the operands agree the two terms agree
operation by operation. -/

section Stretch

variable (V : Valuation τ sig (Elt F))

/-- The first stretch: row 1 of the edge index, as a vector (the row index of every edge). -/
theorem s0_v1 :
    (StableHlo.after hostOps0 V (Proc.devRef .tc main_v1) : (⟨S800000, .i32⟩ : BufTy).Contents (Elt F))
      = val_main_v1 (V (Proc.devRef .tc main_arg8)) := by
  after_results
  unfold val_main_v1 val_main_v0
  rfl

/-- The first stretch: row 0 of the edge index, as a vector (the column index of every edge). -/
theorem s0_v3 :
    (StableHlo.after hostOps0 V (Proc.devRef .tc main_v3) : (⟨S800000, .i32⟩ : BufTy).Contents (Elt F))
      = val_main_v3 (V (Proc.devRef .tc main_arg8)) := by
  after_results
  unfold val_main_v3 val_main_v2
  rfl

/-- The first stretch: the node branch's bias vector laid out as one row. -/
theorem s0_v4 :
    (StableHlo.after hostOps0 V (Proc.devRef .tc main_v4) : (⟨S1x64, .f32⟩ : BufTy).Contents (Elt F))
      = shapeCast S1x64 (V (Proc.devRef .tc main_arg5) : (⟨S64, .f32⟩ : BufTy).Contents (Elt F)) shapeCasts_S64_S1x64 := by
  after_results
  rfl

theorem s0_v4_at (q : Fin 64) :
    (StableHlo.after hostOps0 V (Proc.devRef .tc main_v4) : (⟨S1x64, .f32⟩ : BufTy).Contents (Elt F)) (ix2 (0 : Fin 1) q)
      = (V (Proc.devRef .tc main_arg5) : (⟨S64, .f32⟩ : BufTy).Contents (Elt F)) (ix1 q) := by
  rw [s0_v4]
  exact shapeCast_a_1a_apply _ _ 0 q

/-- The second stretch: where the degree count (the segment sum of ones over the row index) is positive. -/
theorem s1_v11 (x8 : (⟨S2x800000, .i32⟩ : BufTy).Contents (Elt F))
    (hv1 : (V (Proc.devRef .tc main_v1) : (⟨S800000, .i32⟩ : BufTy).Contents (Elt F)) = val_main_v1 x8) :
    (StableHlo.after hostOps1 V (Proc.devRef .tc main_v11) : (⟨S50000, .i1⟩ : BufTy).Contents (Elt F))
      = val_main_v25 x8 := by
  after_results
  rw [hv1]
  unfold val_main_v25 val_main_v24 val_main_cst_5 val_main_v13 val_main_v12 val_main_v11 val_main_v10 val_main_cst_0 val_main_cst
  generalize val_main_v1 x8 = y
  rfl

/-- The second stretch: the degree count to the power minus one half. -/
theorem s1_v13 (x8 : (⟨S2x800000, .i32⟩ : BufTy).Contents (Elt F))
    (hv1 : (V (Proc.devRef .tc main_v1) : (⟨S800000, .i32⟩ : BufTy).Contents (Elt F)) = val_main_v1 x8) :
    (StableHlo.after hostOps1 V (Proc.devRef .tc main_v13) : (⟨S50000, .f32⟩ : BufTy).Contents (Elt F))
      = val_main_v27 x8 := by
  after_results
  rw [hv1]
  unfold val_main_v27 val_main_v26 val_main_cst_6 val_main_v13 val_main_v12 val_main_v11 val_main_v10 val_main_cst_0 val_main_cst
  generalize val_main_v1 x8 = y
  rfl

/-- The second stretch: the zero the selection falls back to. -/
theorem s1_cst3 :
    (StableHlo.after hostOps1 V (Proc.devRef .tc main_cst_3) : (⟨S_, .f32⟩ : BufTy).Contents (Elt F))
      = val_main_cst_7 := by
  after_results
  unfold val_main_cst_7
  rfl

/-- The selection: the power where the count is positive, zero elsewhere. -/
theorem s11_v14 (x8 : (⟨S2x800000, .i32⟩ : BufTy).Contents (Elt F))
    (h11 : (V (Proc.devRef .tc main_v11) : (⟨S50000, .i1⟩ : BufTy).Contents (Elt F)) = val_main_v25 x8)
    (h13 : (V (Proc.devRef .tc main_v13) : (⟨S50000, .f32⟩ : BufTy).Contents (Elt F)) = val_main_v27 x8)
    (hc : (V (Proc.devRef .tc main_cst_3) : (⟨S_, .f32⟩ : BufTy).Contents (Elt F)) = val_main_cst_7) :
    (StableHlo.after hostOps1_1 V (Proc.devRef .tc main_v14) : (⟨S50000, .f32⟩ : BufTy).Contents (Elt F))
      = val_main_v28 x8 := by
  have e : (StableHlo.after hostOps1_1 V (Proc.devRef .tc main_v14) : (⟨S50000, .f32⟩ : BufTy).Contents (Elt F))
      = select (V (Proc.devRef .tc main_v11) : (⟨S50000, .i1⟩ : BufTy).Contents (Elt F))
          (V (Proc.devRef .tc main_v13) : (⟨S50000, .f32⟩ : BufTy).Contents (Elt F))
          (broadcastInDim S50000 ![] bcast_S_S50000 (id (V (Proc.devRef .tc main_cst_3) : (⟨S_, .f32⟩ : BufTy).Contents (Elt F)))) := by
    after_results
    rfl
  rw [e, h11, h13, hc]
  unfold val_main_v28 val_main_call2_v1 val_main_call2_v0
  rfl

/-- The fourth stretch: the normalisation factor of every edge, the per-node factor gathered by the wrapped row index. -/
theorem s12_v21 (x8 : (⟨S2x800000, .i32⟩ : BufTy).Contents (Elt F))
    (h14 : (V (Proc.devRef .tc main_v14) : (⟨S50000, .f32⟩ : BufTy).Contents (Elt F)) = val_main_v28 x8)
    (hv1 : (V (Proc.devRef .tc main_v1) : (⟨S800000, .i32⟩ : BufTy).Contents (Elt F)) = val_main_v1 x8) :
    (StableHlo.after hostOps1_2 V (Proc.devRef .tc main_v21) : (⟨S800000, .f32⟩ : BufTy).Contents (Elt F))
      = val_main_v35 x8 := by
  after_results_simp
  rw [h14, hv1]
  unfold val_main_v35 val_main_v34 val_main_v33 val_main_v32 val_main_v31 val_main_c_8 val_main_v30 val_main_v29 val_main_c
  generalize val_main_v28 x8 = z
  generalize val_main_v1 x8 = y
  rfl

/-- The fourth stretch: the node rows gathered by the wrapped row index. -/
theorem s12_v28 (x0 : (⟨S50000x128, .f32⟩ : BufTy).Contents (Elt F)) (x8 : (⟨S2x800000, .i32⟩ : BufTy).Contents (Elt F))
    (h0 : (V (Proc.devRef .tc main_arg0) : (⟨S50000x128, .f32⟩ : BufTy).Contents (Elt F)) = x0)
    (hv1 : (V (Proc.devRef .tc main_v1) : (⟨S800000, .i32⟩ : BufTy).Contents (Elt F)) = val_main_v1 x8) :
    (StableHlo.after hostOps1_2 V (Proc.devRef .tc main_v28) : (⟨S800000x128, .f32⟩ : BufTy).Contents (Elt F))
      = val_main_v42 x0 x8 := by
  after_results_simp
  rw [h0, hv1]
  unfold val_main_v42 val_main_v41 val_main_v40 val_main_v39 val_main_v38 val_main_c_10 val_main_v37 val_main_v36 val_main_c_9
  generalize val_main_v1 x8 = y
  rfl

/-- The fourth stretch: the edge branch's bias vector laid out as one row. -/
theorem s12_v29 :
    (StableHlo.after hostOps1_2 V (Proc.devRef .tc main_v29) : (⟨S1x32, .f32⟩ : BufTy).Contents (Elt F))
      = shapeCast S1x32 (V (Proc.devRef .tc main_arg7) : (⟨S32, .f32⟩ : BufTy).Contents (Elt F)) shapeCasts_S32_S1x32 := by
  after_results_simp
  rfl

theorem s12_v29_at (q : Fin 32) :
    (StableHlo.after hostOps1_2 V (Proc.devRef .tc main_v29) : (⟨S1x32, .f32⟩ : BufTy).Contents (Elt F)) (ix2 (0 : Fin 1) q)
      = (V (Proc.devRef .tc main_arg7) : (⟨S32, .f32⟩ : BufTy).Contents (Elt F)) (ix1 q) := by
  rw [s12_v29]
  exact shapeCast_a_1a_apply _ _ 0 q

/-- The fifth stretch: the edge branch summed per node over the row index, gathered back by the wrapped column index. -/
theorem s2_v40 (x1 : (⟨S800000x32, .f32⟩ : BufTy).Contents (Elt F)) (x6 : (⟨S32x32, .f32⟩ : BufTy).Contents (Elt F))
    (x7 : (⟨S32, .f32⟩ : BufTy).Contents (Elt F)) (x8 : (⟨S2x800000, .i32⟩ : BufTy).Contents (Elt F))
    (h30 : (V (Proc.devRef .tc main_v30) : (⟨S800000x32, .f32⟩ : BufTy).Contents (Elt F)) = val_main_v61 x1 x6 x7)
    (hv1 : (V (Proc.devRef .tc main_v1) : (⟨S800000, .i32⟩ : BufTy).Contents (Elt F)) = val_main_v1 x8)
    (hv3 : (V (Proc.devRef .tc main_v3) : (⟨S800000, .i32⟩ : BufTy).Contents (Elt F)) = val_main_v3 x8) :
    (StableHlo.after hostOps2 V (Proc.devRef .tc main_v40) : (⟨S800000x32, .f32⟩ : BufTy).Contents (Elt F))
      = val_main_v72 x1 x6 x7 x8 := by
  after_results
  rw [h30, hv1, hv3]
  unfold val_main_v72 val_main_v71 val_main_v70 val_main_v69 val_main_v68 val_main_c_14 val_main_v67 val_main_v66 val_main_c_13
    val_main_v64 val_main_v63 val_main_v62 val_main_cst_12
  generalize val_main_v61 x1 x6 x7 = h
  generalize val_main_v1 x8 = y
  generalize val_main_v3 x8 = z
  rfl

/-- The fifth stretch: the first 128 columns of the peer weight matrix. -/
theorem s2_v41 :
    (StableHlo.after hostOps2 V (Proc.devRef .tc main_v41) : (⟨S96x128, .f32⟩ : BufTy).Contents (Elt F))
      = extractStridedSlice S96x128 ![0, 0] (V (Proc.devRef .tc main_arg2) : (⟨S96x160, .f32⟩ : BufTy).Contents (Elt F)) slices_S96x160_S96x128_0_0 := by
  after_results

theorem s2_v41_at (j : Fin 96) (k : Fin 128) :
    (StableHlo.after hostOps2 V (Proc.devRef .tc main_v41) : (⟨S96x128, .f32⟩ : BufTy).Contents (Elt F)) (ix2 j k)
      = (V (Proc.devRef .tc main_arg2) : (⟨S96x160, .f32⟩ : BufTy).Contents (Elt F)) (ix2 j (⟨k.val, by omega⟩ : Fin 160)) := by
  rw [s2_v41]
  exact extractStridedSlice_apply _ _ _ _ _ (fun a => match a with
    | ⟨0, _⟩ => by show j.val = 0 + j.val; omega
    | ⟨1, _⟩ => by show k.val = 0 + k.val; omega)

/-- The fifth stretch: the last 32 columns of the peer weight matrix. -/
theorem s2_v42 :
    (StableHlo.after hostOps2 V (Proc.devRef .tc main_v42) : (⟨S96x32, .f32⟩ : BufTy).Contents (Elt F))
      = extractStridedSlice S96x32 ![0, 128] (V (Proc.devRef .tc main_arg2) : (⟨S96x160, .f32⟩ : BufTy).Contents (Elt F)) slices_S96x160_S96x32_0_128 := by
  after_results

theorem s2_v42_at (j : Fin 96) (k : Fin 32) :
    (StableHlo.after hostOps2 V (Proc.devRef .tc main_v42) : (⟨S96x32, .f32⟩ : BufTy).Contents (Elt F)) (ix2 j k)
      = (V (Proc.devRef .tc main_arg2) : (⟨S96x160, .f32⟩ : BufTy).Contents (Elt F)) (ix2 j (⟨128 + k.val, by omega⟩ : Fin 160)) := by
  rw [s2_v42]
  exact extractStridedSlice_apply _ _ _ _ _ (fun a => match a with
    | ⟨0, _⟩ => by show j.val = 0 + j.val; omega
    | ⟨1, _⟩ => by show 128 + k.val = 128 + k.val; omega)

/-- The fifth stretch: the per-edge factor laid out as one column. -/
theorem s2_v43 :
    (StableHlo.after hostOps2 V (Proc.devRef .tc main_v43) : (⟨S800000x1, .f32⟩ : BufTy).Contents (Elt F))
      = shapeCast S800000x1 (V (Proc.devRef .tc main_v21) : (⟨S800000, .f32⟩ : BufTy).Contents (Elt F)) shapeCasts_S800000_S800000x1 := by
  after_results
  rfl

theorem s2_v43_at (e : Fin 800000) :
    (StableHlo.after hostOps2 V (Proc.devRef .tc main_v43) : (⟨S800000x1, .f32⟩ : BufTy).Contents (Elt F)) (ix2 e (0 : Fin 1))
      = (V (Proc.devRef .tc main_v21) : (⟨S800000, .f32⟩ : BufTy).Contents (Elt F)) (ix1 e) := by
  rw [s2_v43]
  refine shapeCast_apply (s := S800000) (t := S800000x1) _ _ _ _ ?_
  rw [Shape.rowMajor_val_two, Shape.rowMajor_val_one]
  show e.val = e.val * 1 + 0
  omega

/-- The fifth stretch: the neighbour branch's bias vector laid out as one row. -/
theorem s2_v44 :
    (StableHlo.after hostOps2 V (Proc.devRef .tc main_v44) : (⟨S1x96, .f32⟩ : BufTy).Contents (Elt F))
      = shapeCast S1x96 (V (Proc.devRef .tc main_arg3) : (⟨S96, .f32⟩ : BufTy).Contents (Elt F)) shapeCasts_S96_S1x96 := by
  after_results
  rfl

theorem s2_v44_at (j : Fin 96) :
    (StableHlo.after hostOps2 V (Proc.devRef .tc main_v44) : (⟨S1x96, .f32⟩ : BufTy).Contents (Elt F)) (ix2 (0 : Fin 1) j)
      = (V (Proc.devRef .tc main_arg3) : (⟨S96, .f32⟩ : BufTy).Contents (Elt F)) (ix1 j) := by
  rw [s2_v44]
  exact shapeCast_a_1a_apply _ _ 0 j

end Stretch

/-! ## A buffer nothing has written yet

A host stretch changes only the buffers it writes and a call only its output arrays, so a buffer none of the items
run so far writes holds what it held at launch. -/

theorem keep1 (c : Dev nD) (b : Ref sig .tc) (h0 : b ∉ hostOps0_W) :
    W1 m ρ c (Proc.devRef .tc b) = m ((c : Thread nD τ).loc b) :=
  (StableHlo.after_of_writes_sub hostOps0 _ hostOps0_writes h0).trans rfl

theorem W4_W1 (c : Dev nD) (b : Ref sig .tc) (h1 : b ≠ main_v5) (h2 : b ∉ hostOps1_W) (h3 : b ∉ hostOps1_1_W) :
    W4 m ρ c (Proc.devRef .tc b) = W1 m ρ c (Proc.devRef .tc b) :=
  calc W4 m ρ c (Proc.devRef .tc b)
    _ = W3 m ρ c (Proc.devRef .tc b) := StableHlo.after_of_writes_sub hostOps1_1 _ hostOps1_1_writes h3
    _ = W2 m ρ c (Proc.devRef .tc b) := StableHlo.after_of_writes_sub hostOps1 _ hostOps1_writes h2
    _ = W1 m ρ c (Proc.devRef .tc b) := W2_keep m ρ c b h1

theorem W6_W4 (c : Dev nD) (b : Ref sig .tc) (h4 : b ∉ hostOps1_2_W) (h5 : b ≠ main_v30) :
    W6 m ρ c (Proc.devRef .tc b) = W4 m ρ c (Proc.devRef .tc b) :=
  calc W6 m ρ c (Proc.devRef .tc b)
    _ = W5 m ρ c (Proc.devRef .tc b) := W6_keep m ρ c b h5
    _ = W4 m ρ c (Proc.devRef .tc b) := StableHlo.after_of_writes_sub hostOps1_2 _ hostOps1_2_writes h4

theorem keep4 (c : Dev nD) (b : Ref sig .tc) (h0 : b ∉ hostOps0_W) (h1 : b ≠ main_v5) (h2 : b ∉ hostOps1_W)
    (h3 : b ∉ hostOps1_1_W) : W4 m ρ c (Proc.devRef .tc b) = m ((c : Thread nD τ).loc b) :=
  (W4_W1 m ρ c b h1 h2 h3).trans (keep1 m ρ c b h0)

theorem keep5 (c : Dev nD) (b : Ref sig .tc) (h0 : b ∉ hostOps0_W) (h1 : b ≠ main_v5) (h2 : b ∉ hostOps1_W)
    (h3 : b ∉ hostOps1_1_W) (h4 : b ∉ hostOps1_2_W) : W5 m ρ c (Proc.devRef .tc b) = m ((c : Thread nD τ).loc b) :=
  (StableHlo.after_of_writes_sub hostOps1_2 _ hostOps1_2_writes h4).trans (keep4 m ρ c b h0 h1 h2 h3)

theorem keep6 (c : Dev nD) (b : Ref sig .tc) (h0 : b ∉ hostOps0_W) (h1 : b ≠ main_v5) (h2 : b ∉ hostOps1_W)
    (h3 : b ∉ hostOps1_1_W) (h4 : b ∉ hostOps1_2_W) (h5 : b ≠ main_v30) :
    W6 m ρ c (Proc.devRef .tc b) = m ((c : Thread nD τ).loc b) :=
  (W6_keep m ρ c b h5).trans (keep5 m ρ c b h0 h1 h2 h3 h4)

theorem keep7 (c : Dev nD) (b : Ref sig .tc) (h0 : b ∉ hostOps0_W) (h1 : b ≠ main_v5) (h2 : b ∉ hostOps1_W)
    (h3 : b ∉ hostOps1_1_W) (h4 : b ∉ hostOps1_2_W) (h5 : b ≠ main_v30) (h6 : b ∉ hostOps2_W) :
    W7 m ρ c (Proc.devRef .tc b) = m ((c : Thread nD τ).loc b) :=
  (StableHlo.after_of_writes_sub hostOps2 _ hostOps2_writes h6).trans (keep6 m ρ c b h0 h1 h2 h3 h4 h5)

/-! ## The shared host chain, boundary by boundary

The row and the column index are written by the first stretch and never again; the degree count, its power, the
selection and the per-edge factor follow in the stretches between the first and the second call. -/

theorem W1_v1 (c : Dev nD) :
    (W1 m ρ c (Proc.devRef .tc main_v1) : (⟨S800000, .i32⟩ : BufTy).Contents (Elt F))
      = val_main_v1 (m ((c : Thread nD τ).loc main_arg8)) :=
  s0_v1 (W0 m ρ c)

theorem W1_v3 (c : Dev nD) :
    (W1 m ρ c (Proc.devRef .tc main_v3) : (⟨S800000, .i32⟩ : BufTy).Contents (Elt F))
      = val_main_v3 (m ((c : Thread nD τ).loc main_arg8)) :=
  s0_v3 (W0 m ρ c)

theorem W2_v1 (c : Dev nD) :
    (W2 m ρ c (Proc.devRef .tc main_v1) : (⟨S800000, .i32⟩ : BufTy).Contents (Elt F))
      = val_main_v1 (m ((c : Thread nD τ).loc main_arg8)) :=
  (W2_keep m ρ c main_v1 (by decide)).trans (W1_v1 m ρ c)

theorem W4_v1 (c : Dev nD) :
    (W4 m ρ c (Proc.devRef .tc main_v1) : (⟨S800000, .i32⟩ : BufTy).Contents (Elt F))
      = val_main_v1 (m ((c : Thread nD τ).loc main_arg8)) :=
  (W4_W1 m ρ c main_v1 (by decide) (by decide) (by decide)).trans (W1_v1 m ρ c)

theorem W6_v1 (c : Dev nD) :
    (W6 m ρ c (Proc.devRef .tc main_v1) : (⟨S800000, .i32⟩ : BufTy).Contents (Elt F))
      = val_main_v1 (m ((c : Thread nD τ).loc main_arg8)) :=
  (W6_W4 m ρ c main_v1 (by decide) (by decide)).trans (W4_v1 m ρ c)

theorem W6_v3 (c : Dev nD) :
    (W6 m ρ c (Proc.devRef .tc main_v3) : (⟨S800000, .i32⟩ : BufTy).Contents (Elt F))
      = val_main_v3 (m ((c : Thread nD τ).loc main_arg8)) :=
  (W6_W4 m ρ c main_v3 (by decide) (by decide)).trans
    ((W4_W1 m ρ c main_v3 (by decide) (by decide) (by decide)).trans (W1_v3 m ρ c))

theorem W3_v11 (c : Dev nD) :
    (W3 m ρ c (Proc.devRef .tc main_v11) : (⟨S50000, .i1⟩ : BufTy).Contents (Elt F))
      = val_main_v25 (m ((c : Thread nD τ).loc main_arg8)) :=
  s1_v11 (W2 m ρ c) _ (W2_v1 m ρ c)

theorem W3_v13 (c : Dev nD) :
    (W3 m ρ c (Proc.devRef .tc main_v13) : (⟨S50000, .f32⟩ : BufTy).Contents (Elt F))
      = val_main_v27 (m ((c : Thread nD τ).loc main_arg8)) :=
  s1_v13 (W2 m ρ c) _ (W2_v1 m ρ c)

theorem W3_cst3 (c : Dev nD) :
    (W3 m ρ c (Proc.devRef .tc main_cst_3) : (⟨S_, .f32⟩ : BufTy).Contents (Elt F)) = val_main_cst_7 :=
  s1_cst3 (W2 m ρ c)

theorem W4_v14 (c : Dev nD) :
    (W4 m ρ c (Proc.devRef .tc main_v14) : (⟨S50000, .f32⟩ : BufTy).Contents (Elt F))
      = val_main_v28 (m ((c : Thread nD τ).loc main_arg8)) :=
  s11_v14 (W3 m ρ c) _ (W3_v11 m ρ c) (W3_v13 m ρ c) (W3_cst3 m ρ c)

theorem W6_v21 (c : Dev nD) :
    (W6 m ρ c (Proc.devRef .tc main_v21) : (⟨S800000, .f32⟩ : BufTy).Contents (Elt F))
      = val_main_v35 (m ((c : Thread nD τ).loc main_arg8)) :=
  (W6_keep m ρ c main_v21 (by decide)).trans (s12_v21 (W4 m ρ c) _ (W4_v14 m ρ c) (W4_v1 m ρ c))

theorem W5_v28 (c : Dev nD) :
    (W5 m ρ c (Proc.devRef .tc main_v28) : (⟨S800000x128, .f32⟩ : BufTy).Contents (Elt F))
      = val_main_v42 (m ((c : Thread nD τ).loc main_arg0)) (m ((c : Thread nD τ).loc main_arg8)) :=
  s12_v28 (W4 m ρ c) _ _ (keep4 m ρ c main_arg0 (by decide) (by decide) (by decide) (by decide)) (W4_v1 m ρ c)

end HostIn

/-! ## The first call (node branch) -/

theorem in0_x (c : Dev nD) : U1 m ρ c main_arg0 = m ((c : Thread nD τ).loc main_arg0) :=
  HostIn.keep1 m ρ c main_arg0 (by decide)
theorem in0_w (c : Dev nD) : U1 m ρ c main_arg4 = m ((c : Thread nD τ).loc main_arg4) :=
  HostIn.keep1 m ρ c main_arg4 (by decide)
/-- The bias row is the bias vector laid out as one row. -/
theorem in0_bias (c : Dev nD) (q : Fin 64) :
    (U1 m ρ c main_v4 : (⟨S1x64, .f32⟩ : BufTy).Contents (Elt F)) (ix2 (0 : Fin 1) q)
      = (m ((c : Thread nD τ).loc main_arg5) : (⟨S64, .f32⟩ : BufTy).Contents (Elt F)) (ix1 q) :=
  HostIn.s0_v4_at (W0 m ρ c) q

/-! ## The second call (edge branch) -/

theorem in1_e (c : Dev nD) : U5 m ρ c main_arg1 = m ((c : Thread nD τ).loc main_arg1) :=
  HostIn.keep5 m ρ c main_arg1 (by decide) (by decide) (by decide) (by decide) (by decide)
theorem in1_w (c : Dev nD) : U5 m ρ c main_arg6 = m ((c : Thread nD τ).loc main_arg6) :=
  HostIn.keep5 m ρ c main_arg6 (by decide) (by decide) (by decide) (by decide) (by decide)
theorem in1_bias (c : Dev nD) (q : Fin 32) :
    (U5 m ρ c main_v29 : (⟨S1x32, .f32⟩ : BufTy).Contents (Elt F)) (ix2 (0 : Fin 1) q)
      = (m ((c : Thread nD τ).loc main_arg7) : (⟨S32, .f32⟩ : BufTy).Contents (Elt F)) (ix1 q) := by
  refine (HostIn.s12_v29_at (W4 m ρ c) q).trans ?_
  rw [HostIn.keep4 m ρ c main_arg7 (by decide) (by decide) (by decide) (by decide)]

/-! ## The third call (neighbour branch) -/

/-- The gathered node rows are the reference's gather of the node features by the (wrapped) row index. -/
theorem in2_xrow (c : Dev nD) :
    U7 m ρ c main_v28 = Cert.ReferenceIdeal.Read.val_main_v42 (F := F) (m ((c : Thread nD τ).loc main_arg0)) (m ((c : Thread nD τ).loc main_arg8)) :=
  ((StableHlo.after_of_writes_sub hostOps2 _ hostOps2_writes (by decide)).trans (W6_keep m ρ c main_v28 (by decide))).trans
    (HostIn.W5_v28 m ρ c)
theorem in2_e (c : Dev nD) : U7 m ρ c main_arg1 = m ((c : Thread nD τ).loc main_arg1) :=
  HostIn.keep7 m ρ c main_arg1 (by decide) (by decide) (by decide) (by decide) (by decide) (by decide) (by decide)
/-- The factor column is the reference's normalisation factor per edge, laid out as one column. -/
theorem in2_nv (c : Dev nD) (e : Fin 800000) :
    (U7 m ρ c main_v43 : (⟨S800000x1, .f32⟩ : BufTy).Contents (Elt F)) (ix2 e (0 : Fin 1))
      = Cert.ReferenceIdeal.Read.val_main_v35 (F := F) (m ((c : Thread nD τ).loc main_arg8)) (ix1 e) := by
  refine (HostIn.s2_v43_at (W6 m ρ c) e).trans ?_
  rw [HostIn.W6_v21 m ρ c]
/-- The two column ranges of the peer weight matrix. -/
theorem in2_w1 (c : Dev nD) (j : Fin 96) (k : Fin 128) :
    (U7 m ρ c main_v41 : (⟨S96x128, .f32⟩ : BufTy).Contents (Elt F)) (ix2 j k)
      = (m ((c : Thread nD τ).loc main_arg2) : (⟨S96x160, .f32⟩ : BufTy).Contents (Elt F)) (ix2 j (⟨k.val, by omega⟩ : Fin 160)) := by
  refine (HostIn.s2_v41_at (W6 m ρ c) j k).trans ?_
  rw [HostIn.keep6 m ρ c main_arg2 (by decide) (by decide) (by decide) (by decide) (by decide) (by decide)]
theorem in2_w2 (c : Dev nD) (j : Fin 96) (k : Fin 32) :
    (U7 m ρ c main_v42 : (⟨S96x32, .f32⟩ : BufTy).Contents (Elt F)) (ix2 j k)
      = (m ((c : Thread nD τ).loc main_arg2) : (⟨S96x160, .f32⟩ : BufTy).Contents (Elt F)) (ix2 j (⟨128 + k.val, by omega⟩ : Fin 160)) := by
  refine (HostIn.s2_v42_at (W6 m ρ c) j k).trans ?_
  rw [HostIn.keep6 m ρ c main_arg2 (by decide) (by decide) (by decide) (by decide) (by decide) (by decide)]
theorem in2_b (c : Dev nD) (j : Fin 96) :
    (U7 m ρ c main_v44 : (⟨S1x96, .f32⟩ : BufTy).Contents (Elt F)) (ix2 (0 : Fin 1) j)
      = (m ((c : Thread nD τ).loc main_arg3) : (⟨S96, .f32⟩ : BufTy).Contents (Elt F)) (ix1 j) := by
  refine (HostIn.s2_v44_at (W6 m ρ c) j).trans ?_
  rw [HostIn.keep6 m ρ c main_arg3 (by decide) (by decide) (by decide) (by decide) (by decide) (by decide)]
/-- Given that the second call left the reference's edge branch in its output array, the aggregate rows gathered by
    column index are the reference's. -/
theorem in2_hcol (c : Dev nD)
    (h30 : U6 m ρ c main_v30 = Cert.ReferenceIdeal.Read.val_main_v61 (F := F) (m ((c : Thread nD τ).loc main_arg1)) (m ((c : Thread nD τ).loc main_arg6)) (m ((c : Thread nD τ).loc main_arg7))) :
    U7 m ρ c main_v40 = Cert.ReferenceIdeal.Read.val_main_v72 (F := F) (m ((c : Thread nD τ).loc main_arg1)) (m ((c : Thread nD τ).loc main_arg6)) (m ((c : Thread nD τ).loc main_arg7)) (m ((c : Thread nD τ).loc main_arg8)) :=
  HostIn.s2_v40 (W6 m ρ c) _ _ _ _ h30 (HostIn.W6_v1 m ρ c) (HostIn.W6_v3 m ρ c)

end Cert.Bridge

end
-- ==== Proof.HostOut.lean ====
/- The program's result array at the return, in terms of what the three pallas_calls left in their output arrays: the
   closing host operations (three segment sums by row index, a clip at zero, two joins along the feature axis) are the
   reference's own, so once each call's output is the reference's stage, the result is the reference's result. Nothing
   here depends on the float instance. -/
import proofs.«107213_j40037685133334_1_alg».proof.Proof.KernelIdeal.Run
import proofs.«107213_j40037685133334_1_alg».proof.Proof.RefRead
import Idealize.ShloMosaic.Lib.Pipeline.Value
import Idealize.ShloMosaic.Lib.StableHlo.Run

set_option maxRecDepth 16384

noncomputable section

open scoped BigOperators

namespace Cert.Bridge

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable {F : FTy → Type} [FloatOps F]

/-! ## The closing operations, each as one function of its inputs

Both programs end with the same four maps. Naming them lets the two sides be compared input by input: the kernel's
host stretches and the reference's stages are each shown to be these maps of their inputs, and the inputs are then
matched one at a time. -/

/-- The segment sum of 32-wide edge rows by row index: each edge row added into the node row its index names,
    starting from zeros. -/
def seg32 (row : (⟨S800000, .i32⟩ : BufTy).Contents (Elt F)) (u : (⟨S800000x32, .f32⟩ : BufTy).Contents (Elt F)) :
    (⟨S50000x32, .f32⟩ : BufTy).Contents (Elt F) :=
  Host.scatterAdd scatter_S50000x32_S800000x1_S800000x32_1_0_0_1
    (broadcastInDim S50000x32 ![] bcast_S_S50000x32 (constant (F := F) S_ .f32 0x00000000#32))
    (broadcastInDim S800000x1 ![0] bcast_S800000_S800000x1_0 row) u

/-- The same segment sum for 96-wide edge rows. -/
def seg96 (row : (⟨S800000, .i32⟩ : BufTy).Contents (Elt F)) (u : (⟨S800000x96, .f32⟩ : BufTy).Contents (Elt F)) :
    (⟨S50000x96, .f32⟩ : BufTy).Contents (Elt F) :=
  Host.scatterAdd scatter_S50000x96_S800000x1_S800000x96_1_0_0_1
    (broadcastInDim S50000x96 ![] bcast_S_S50000x96 (constant (F := F) S_ .f32 0x00000000#32))
    (broadcastInDim S800000x1 ![0] bcast_S800000_S800000x1_0 row) u

/-- The clip at zero: the elementwise maximum with the zero array. -/
def clip96 (a : (⟨S50000x96, .f32⟩ : BufTy).Contents (Elt F)) : (⟨S50000x96, .f32⟩ : BufTy).Contents (Elt F) :=
  maximumf a (broadcastInDim S50000x96 ![] bcast_S_S50000x96 (constant (F := F) S_ .f32 0x00000000#32))

/-- The result's layout along the feature axis: the node branch (64 columns), then the two 32-wide segment sums side
    by side (64 columns), then the clipped 96-wide segment sum. -/
def join (a : (⟨S50000x64, .f32⟩ : BufTy).Contents (Elt F)) (s₁ s₂ : (⟨S50000x32, .f32⟩ : BufTy).Contents (Elt F))
    (p : (⟨S50000x96, .f32⟩ : BufTy).Contents (Elt F)) : (⟨S50000x224, .f32⟩ : BufTy).Contents (Elt F) :=
  concatenate S50000x224 1
    [⟨S50000x64, a⟩,
     ⟨S50000x64, concatenate S50000x64 1 [⟨S50000x32, s₁⟩, ⟨S50000x32, s₂⟩] concatenates_S50000x32_S50000x32_S50000x64_d1⟩,
     ⟨S50000x96, p⟩]
    concatenates_S50000x64_S50000x64_S50000x96_S50000x224_d1

/-! ## What each closing host stretch writes, from any contents -/

/-- An operation over a literal family of three operands leaves in its result the function's value with each operand's
    contents read at its own reference (the library states this for a family of four). -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

/-- The same, with the result reference left out of the rewriting index, as the one-pass form of the other result
    lemmas is stated. -/
theorem nary3_result' {x a b y : Ref sig .tc}
    (f : ((k : Fin 3) → ((![x, a, b] : Fin 3 → Ref sig .tc) k).ty.Contents (Elt F)) → y.ty.Contents (Elt F)) (hxs hy)
    (V : Valuation τ sig (Elt F)) :
    (StableHlo.nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- The first stretch writes the row index: the second row of the edge index, laid flat. -/
theorem out1 (V : Valuation τ sig (Elt F)) :
    (StableHlo.after hostOps0 V (Proc.devRef .tc main_v1) : (⟨S800000, .i32⟩ : BufTy).Contents (Elt F))
      = shapeCast S800000
          (extractStridedSlice S1x800000 ![1, 0] (V (Proc.devRef .tc main_arg8) : (⟨S2x800000, .i32⟩ : BufTy).Contents (Elt F))
            slices_S2x800000_S1x800000_1_0)
          shapeCasts_S1x800000_S800000 := by
  show StableHlo.after hostOps0 V (Proc.devRef .tc main_v1) = _
  simp (disch := decide) only [StableHlo.after_cons, StableHlo.after_nil, StableHlo.unary_result', StableHlo.reshape_result',
    StableHlo.unary_result_ne', StableHlo.reshape_result_ne']
  <;> rfl

/-- The stretch after the second call writes the segment sum of that call's output by row index. -/
theorem out33 (V : Valuation τ sig (Elt F)) :
    (StableHlo.after hostOps2 V (Proc.devRef .tc main_v33) : (⟨S50000x32, .f32⟩ : BufTy).Contents (Elt F))
      = seg32 (V (Proc.devRef .tc main_v1)) (V (Proc.devRef .tc main_v30)) := by
  show StableHlo.after hostOps2 V (Proc.devRef .tc main_v33) = _
  simp (disch := decide) only [StableHlo.after_cons, StableHlo.after_nil, StableHlo.nullary_result', StableHlo.unary_result',
    StableHlo.ternary_result', StableHlo.nullary_result_ne', StableHlo.unary_result_ne', StableHlo.binary_result_ne',
    StableHlo.ternary_result_ne', StableHlo.reshape_result_ne']
  <;> rfl

/-- The first stretch after the third call writes the segment sum of that call's first output by row index. -/
theorem out48 (V : Valuation τ sig (Elt F)) :
    (StableHlo.after hostOps3 V (Proc.devRef .tc main_v48) : (⟨S50000x96, .f32⟩ : BufTy).Contents (Elt F))
      = seg96 (V (Proc.devRef .tc main_v1)) (V (Proc.devRef .tc main_v45_0)) := by
  show StableHlo.after hostOps3 V (Proc.devRef .tc main_v48) = _
  simp (disch := decide) only [StableHlo.after_cons, StableHlo.after_nil, StableHlo.nullary_result', StableHlo.unary_result',
    StableHlo.ternary_result', StableHlo.nullary_result_ne', StableHlo.unary_result_ne', StableHlo.ternary_result_ne']
  <;> rfl

/-- The next stretch clips that segment sum at zero. -/
theorem out49 (V : Valuation τ sig (Elt F)) :
    (StableHlo.after hostOps3_1 V (Proc.devRef .tc main_v49) : (⟨S50000x96, .f32⟩ : BufTy).Contents (Elt F))
      = clip96 (V (Proc.devRef .tc main_v48)) := by
  show StableHlo.after hostOps3_1 V (Proc.devRef .tc main_v49) = _
  simp (disch := decide) only [StableHlo.after_cons, StableHlo.after_nil, StableHlo.nullary_result', StableHlo.unary_result',
    StableHlo.binary_result', StableHlo.nullary_result_ne', StableHlo.unary_result_ne', StableHlo.binary_result_ne']
  <;> rfl

/-- The last stretch sums the third call's second output by row index and joins the four pieces. -/
theorem out54 (V : Valuation τ sig (Elt F)) :
    (StableHlo.after hostOps3_2 V (Proc.devRef .tc main_v54) : (⟨S50000x224, .f32⟩ : BufTy).Contents (Elt F))
      = join (V (Proc.devRef .tc main_v5)) (V (Proc.devRef .tc main_v33))
          (seg32 (V (Proc.devRef .tc main_v1)) (V (Proc.devRef .tc main_v45_1))) (V (Proc.devRef .tc main_v49)) := by
  show StableHlo.after hostOps3_2 V (Proc.devRef .tc main_v54) = _
  simp (disch := decide) only [StableHlo.after_cons, StableHlo.after_nil, nary3_result', StableHlo.nullary_result',
    StableHlo.unary_result', StableHlo.binary_result', StableHlo.ternary_result', StableHlo.nullary_result_ne',
    StableHlo.unary_result_ne', StableHlo.binary_result_ne', StableHlo.ternary_result_ne']
  <;> rfl

/-! ## The reference's closing stages are the same maps

The reference program's shape records are its own constants with the kernel program's unfolding (the same axis lists
over the same literal shapes), so each stage below equals the named map by unfolding the records, with the stage's
inputs held as opaque variables. -/

section Ref
open Cert.ReferenceIdeal.Read

theorem ref_v64 (x1 : (⟨Cert.ReferenceIdeal.S800000x32, .f32⟩ : BufTy).Contents (Elt F))
    (x6 : (⟨Cert.ReferenceIdeal.S32x32, .f32⟩ : BufTy).Contents (Elt F)) (x7 : (⟨Cert.ReferenceIdeal.S32, .f32⟩ : BufTy).Contents (Elt F))
    (x8 : (⟨Cert.ReferenceIdeal.S2x800000, .i32⟩ : BufTy).Contents (Elt F)) :
    val_main_v64 (F := F) x1 x6 x7 x8 = seg32 (val_main_v1 (F := F) x8) (val_main_v61 (F := F) x1 x6 x7) := by
  unfold val_main_v64 val_main_v62 val_main_v63 val_main_cst_12
  generalize val_main_v1 (F := F) x8 = row
  generalize val_main_v61 (F := F) x1 x6 x7 = u
  rfl

theorem ref_v77 (x1 : (⟨Cert.ReferenceIdeal.S800000x32, .f32⟩ : BufTy).Contents (Elt F))
    (x6 : (⟨Cert.ReferenceIdeal.S32x32, .f32⟩ : BufTy).Contents (Elt F)) (x7 : (⟨Cert.ReferenceIdeal.S32, .f32⟩ : BufTy).Contents (Elt F))
    (x8 : (⟨Cert.ReferenceIdeal.S2x800000, .i32⟩ : BufTy).Contents (Elt F)) :
    val_main_v77 (F := F) x1 x6 x7 x8 = seg32 (val_main_v1 (F := F) x8) (val_main_v74 (F := F) x1 x6 x7 x8) := by
  unfold val_main_v77 val_main_v75 val_main_v76 val_main_cst_15
  generalize val_main_v1 (F := F) x8 = row
  generalize val_main_v74 (F := F) x1 x6 x7 x8 = u
  rfl

theorem ref_v55 (x0 : (⟨Cert.ReferenceIdeal.S50000x128, .f32⟩ : BufTy).Contents (Elt F))
    (x1 : (⟨Cert.ReferenceIdeal.S800000x32, .f32⟩ : BufTy).Contents (Elt F))
    (x2 : (⟨Cert.ReferenceIdeal.S96x160, .f32⟩ : BufTy).Contents (Elt F)) (x3 : (⟨Cert.ReferenceIdeal.S96, .f32⟩ : BufTy).Contents (Elt F))
    (x8 : (⟨Cert.ReferenceIdeal.S2x800000, .i32⟩ : BufTy).Contents (Elt F)) :
    val_main_v55 (F := F) x0 x1 x2 x3 x8
      = clip96 (seg96 (val_main_v1 (F := F) x8) (val_main_v51 (F := F) x0 x1 x2 x3 x8)) := by
  unfold val_main_v55 val_main_call3_v0 val_main_call3_cst val_main_v54 val_main_v52 val_main_v53 val_main_cst_11
  generalize val_main_v1 (F := F) x8 = row
  generalize val_main_v51 (F := F) x0 x1 x2 x3 x8 = u
  rfl

theorem ref_v79 (x0 : (⟨Cert.ReferenceIdeal.S50000x128, .f32⟩ : BufTy).Contents (Elt F))
    (x1 : (⟨Cert.ReferenceIdeal.S800000x32, .f32⟩ : BufTy).Contents (Elt F))
    (x2 : (⟨Cert.ReferenceIdeal.S96x160, .f32⟩ : BufTy).Contents (Elt F)) (x3 : (⟨Cert.ReferenceIdeal.S96, .f32⟩ : BufTy).Contents (Elt F))
    (x4 : (⟨Cert.ReferenceIdeal.S64x128, .f32⟩ : BufTy).Contents (Elt F)) (x5 : (⟨Cert.ReferenceIdeal.S64, .f32⟩ : BufTy).Contents (Elt F))
    (x6 : (⟨Cert.ReferenceIdeal.S32x32, .f32⟩ : BufTy).Contents (Elt F)) (x7 : (⟨Cert.ReferenceIdeal.S32, .f32⟩ : BufTy).Contents (Elt F))
    (x8 : (⟨Cert.ReferenceIdeal.S2x800000, .i32⟩ : BufTy).Contents (Elt F)) :
    val_main_v79 (F := F) x0 x1 x2 x3 x4 x5 x6 x7 x8
      = join (val_main_v9 (F := F) x0 x4 x5) (val_main_v64 (F := F) x1 x6 x7 x8) (val_main_v77 (F := F) x1 x6 x7 x8)
          (val_main_v55 (F := F) x0 x1 x2 x3 x8) := by
  unfold val_main_v79 val_main_v78
  generalize val_main_v9 (F := F) x0 x4 x5 = a
  generalize val_main_v64 (F := F) x1 x6 x7 x8 = s₁
  generalize val_main_v77 (F := F) x1 x6 x7 x8 = s₂
  generalize val_main_v55 (F := F) x0 x1 x2 x3 x8 = p
  rfl

end Ref

/-! ## The row index at the boundaries where it is read -/

variable (m : (ℓ : Loc nD τ sig) → Buf (Elt F) ℓ) (ρ : Dev nD → PrngReg)

/-- Where the first stretch leaves it, the row index is the reference's: the same slice of the edge index, laid flat. -/
theorem row_W1 (c : Dev nD) :
    W1 m ρ c (Proc.devRef .tc main_v1)
      = Cert.ReferenceIdeal.Read.val_main_v1 (F := F) (m ((c : Thread nD τ).loc main_arg8)) :=
  (out1 (W0 m ρ c)).trans rfl

/-- Nothing between the first stretch and the second call's exit writes the row index. -/
theorem row_W6 (c : Dev nD) : W6 m ρ c (Proc.devRef .tc main_v1) = W1 m ρ c (Proc.devRef .tc main_v1) :=
  calc W6 m ρ c (Proc.devRef .tc main_v1)
    _ = W5 m ρ c (Proc.devRef .tc main_v1) := W6_keep m ρ c main_v1 (by decide)
    _ = W4 m ρ c (Proc.devRef .tc main_v1) := StableHlo.after_of_writes_sub hostOps1_2 _ hostOps1_2_writes (by decide)
    _ = W3 m ρ c (Proc.devRef .tc main_v1) := StableHlo.after_of_writes_sub hostOps1_1 _ hostOps1_1_writes (by decide)
    _ = W2 m ρ c (Proc.devRef .tc main_v1) := StableHlo.after_of_writes_sub hostOps1 _ hostOps1_writes (by decide)
    _ = W1 m ρ c (Proc.devRef .tc main_v1) := W2_keep m ρ c main_v1 (by decide)

/-- Nor anything up to the third call's exit, -/
theorem row_W8 (c : Dev nD) : W8 m ρ c (Proc.devRef .tc main_v1) = W6 m ρ c (Proc.devRef .tc main_v1) :=
  calc W8 m ρ c (Proc.devRef .tc main_v1)
    _ = W7 m ρ c (Proc.devRef .tc main_v1) := W8_keep m ρ c main_v1 (by decide) (by decide)
    _ = W6 m ρ c (Proc.devRef .tc main_v1) := StableHlo.after_of_writes_sub hostOps2 _ hostOps2_writes (by decide)

/-- nor the two stretches after it. -/
theorem row_W10 (c : Dev nD) : W10 m ρ c (Proc.devRef .tc main_v1) = W8 m ρ c (Proc.devRef .tc main_v1) :=
  calc W10 m ρ c (Proc.devRef .tc main_v1)
    _ = W9 m ρ c (Proc.devRef .tc main_v1) := StableHlo.after_of_writes_sub hostOps3_1 _ hostOps3_1_writes (by decide)
    _ = W8 m ρ c (Proc.devRef .tc main_v1) := StableHlo.after_of_writes_sub hostOps3 _ hostOps3_writes (by decide)

/-! ## The result -/

theorem result_eq (c : Dev nD)
    (h5 : U2 m ρ c main_v5 = Cert.ReferenceIdeal.Read.val_main_v9 (F := F) (m ((c : Thread nD τ).loc main_arg0)) (m ((c : Thread nD τ).loc main_arg4)) (m ((c : Thread nD τ).loc main_arg5)))
    (h30 : U6 m ρ c main_v30 = Cert.ReferenceIdeal.Read.val_main_v61 (F := F) (m ((c : Thread nD τ).loc main_arg1)) (m ((c : Thread nD τ).loc main_arg6)) (m ((c : Thread nD τ).loc main_arg7)))
    (h450 : U8 m ρ c main_v45_0 = Cert.ReferenceIdeal.Read.val_main_v51 (F := F) (m ((c : Thread nD τ).loc main_arg0)) (m ((c : Thread nD τ).loc main_arg1)) (m ((c : Thread nD τ).loc main_arg2)) (m ((c : Thread nD τ).loc main_arg3)) (m ((c : Thread nD τ).loc main_arg8)))
    (h451 : U8 m ρ c main_v45_1 = Cert.ReferenceIdeal.Read.val_main_v74 (F := F) (m ((c : Thread nD τ).loc main_arg1)) (m ((c : Thread nD τ).loc main_arg6)) (m ((c : Thread nD τ).loc main_arg7)) (m ((c : Thread nD τ).loc main_arg8))) :
    W11 m ρ c (Proc.devRef .tc main_v54)
      = Cert.ReferenceIdeal.Read.val_main_v79 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  -- the calls' outputs, read at the boundary contents
  have h5' : W2 m ρ c (Proc.devRef .tc main_v5) = _ := h5
  have h30' : W6 m ρ c (Proc.devRef .tc main_v30) = _ := h30
  have h450' : W8 m ρ c (Proc.devRef .tc main_v45_0) = _ := h450
  have h451' : W8 m ρ c (Proc.devRef .tc main_v45_1) = _ := h451
  -- the row index at the three boundaries where a segment sum reads it
  have r6 := (row_W6 m ρ c).trans (row_W1 m ρ c)
  have r8 := (row_W8 m ρ c).trans r6
  have r10 := (row_W10 m ρ c).trans r8
  -- the node branch: untouched from the first call's exit to the last stretch
  have e5 : W10 m ρ c (Proc.devRef .tc main_v5) = _ :=
    calc W10 m ρ c (Proc.devRef .tc main_v5)
      _ = W9 m ρ c (Proc.devRef .tc main_v5) := StableHlo.after_of_writes_sub hostOps3_1 _ hostOps3_1_writes (by decide)
      _ = W8 m ρ c (Proc.devRef .tc main_v5) := StableHlo.after_of_writes_sub hostOps3 _ hostOps3_writes (by decide)
      _ = W7 m ρ c (Proc.devRef .tc main_v5) := W8_keep m ρ c main_v5 (by decide) (by decide)
      _ = W6 m ρ c (Proc.devRef .tc main_v5) := StableHlo.after_of_writes_sub hostOps2 _ hostOps2_writes (by decide)
      _ = W5 m ρ c (Proc.devRef .tc main_v5) := W6_keep m ρ c main_v5 (by decide)
      _ = W4 m ρ c (Proc.devRef .tc main_v5) := StableHlo.after_of_writes_sub hostOps1_2 _ hostOps1_2_writes (by decide)
      _ = W3 m ρ c (Proc.devRef .tc main_v5) := StableHlo.after_of_writes_sub hostOps1_1 _ hostOps1_1_writes (by decide)
      _ = W2 m ρ c (Proc.devRef .tc main_v5) := StableHlo.after_of_writes_sub hostOps1 _ hostOps1_writes (by decide)
      _ = _ := h5'
  -- the edge branch's segment sum: written after the second call, untouched since
  have e33 : W10 m ρ c (Proc.devRef .tc main_v33) = _ :=
    calc W10 m ρ c (Proc.devRef .tc main_v33)
      _ = W9 m ρ c (Proc.devRef .tc main_v33) := StableHlo.after_of_writes_sub hostOps3_1 _ hostOps3_1_writes (by decide)
      _ = W8 m ρ c (Proc.devRef .tc main_v33) := StableHlo.after_of_writes_sub hostOps3 _ hostOps3_writes (by decide)
      _ = W7 m ρ c (Proc.devRef .tc main_v33) := W8_keep m ρ c main_v33 (by decide) (by decide)
      _ = seg32 (W6 m ρ c (Proc.devRef .tc main_v1)) (W6 m ρ c (Proc.devRef .tc main_v30)) := out33 (W6 m ρ c)
      _ = seg32 (Cert.ReferenceIdeal.Read.val_main_v1 (F := F) (m ((c : Thread nD τ).loc main_arg8)))
            (Cert.ReferenceIdeal.Read.val_main_v61 (F := F) (m ((c : Thread nD τ).loc main_arg1)) (m ((c : Thread nD τ).loc main_arg6)) (m ((c : Thread nD τ).loc main_arg7))) := by
          rw [r6, h30']
      _ = _ := (ref_v64 _ _ _ _).symm
  -- the neighbour branch's second output, summed by the last stretch
  have e451 : W10 m ρ c (Proc.devRef .tc main_v45_1) = _ :=
    calc W10 m ρ c (Proc.devRef .tc main_v45_1)
      _ = W9 m ρ c (Proc.devRef .tc main_v45_1) := StableHlo.after_of_writes_sub hostOps3_1 _ hostOps3_1_writes (by decide)
      _ = W8 m ρ c (Proc.devRef .tc main_v45_1) := StableHlo.after_of_writes_sub hostOps3 _ hostOps3_writes (by decide)
      _ = _ := h451'
  have e52 : seg32 (W10 m ρ c (Proc.devRef .tc main_v1)) (W10 m ρ c (Proc.devRef .tc main_v45_1))
      = Cert.ReferenceIdeal.Read.val_main_v77 (F := F) (m ((c : Thread nD τ).loc main_arg1)) (m ((c : Thread nD τ).loc main_arg6)) (m ((c : Thread nD τ).loc main_arg7)) (m ((c : Thread nD τ).loc main_arg8)) := by
    rw [r10, e451]; exact (ref_v77 _ _ _ _).symm
  -- the neighbour branch's first output: summed, then clipped
  have e49 : W10 m ρ c (Proc.devRef .tc main_v49) = _ :=
    calc W10 m ρ c (Proc.devRef .tc main_v49)
      _ = clip96 (W9 m ρ c (Proc.devRef .tc main_v48)) := out49 (W9 m ρ c)
      _ = clip96 (seg96 (W8 m ρ c (Proc.devRef .tc main_v1)) (W8 m ρ c (Proc.devRef .tc main_v45_0))) :=
          congrArg clip96 (out48 (W8 m ρ c))
      _ = clip96 (seg96 (Cert.ReferenceIdeal.Read.val_main_v1 (F := F) (m ((c : Thread nD τ).loc main_arg8)))
            (Cert.ReferenceIdeal.Read.val_main_v51 (F := F) (m ((c : Thread nD τ).loc main_arg0)) (m ((c : Thread nD τ).loc main_arg1)) (m ((c : Thread nD τ).loc main_arg2)) (m ((c : Thread nD τ).loc main_arg3)) (m ((c : Thread nD τ).loc main_arg8)))) := by
          rw [r8, h450']
      _ = _ := (ref_v55 _ _ _ _ _).symm
  -- the join
  calc W11 m ρ c (Proc.devRef .tc main_v54)
    _ = join (W10 m ρ c (Proc.devRef .tc main_v5)) (W10 m ρ c (Proc.devRef .tc main_v33))
          (seg32 (W10 m ρ c (Proc.devRef .tc main_v1)) (W10 m ρ c (Proc.devRef .tc main_v45_1)))
          (W10 m ρ c (Proc.devRef .tc main_v49)) := out54 (W10 m ρ c)
    _ = _ := by rw [e5, e33, e52, e49]
    _ = _ := (ref_v79 _ _ _ _ _ _ _ _ _).symm

end Cert.Bridge

end
-- ==== Proof.lean ====
/- The certificate's claim, assembled.

   The program is three pallas_calls among host operations. Its frames (it runs to the end, faults nowhere, leaves its
   nine argument arrays unchanged) come from one run theorem per printed program that names every buffer's contents at
   the return; the reference's frame is its generated run with the result dropped. The ideal pass rewrote nothing, so
   the idealization claim is trivial.

   The value claim: at the exact (extended real) values the kernel program and the reference compute the same array.
   Both apply the same host operations — the degree count and its inverse square root, the gathers by row and column
   index, the segment sums, the joins — around three dense pieces, and each pallas_call's output array is, index by
   index, the reference's own stage: the node branch max(x·W_egoᵀ + b_ego, 0), the edge branch
   max(e·W_edgeᵀ + b_edge, 0), and the neighbour message nv·([x[row], e]·W_peerᵀ + b_peer) beside nv·agg[col], where the
   call's two products over 128 and 32 columns are the reference's one product over the 160 joined columns with its sum
   split at 128. Sums and products of extended reals are regrouped only by commutativity and associativity, so the
   finiteness precondition is never used. -/
import proofs.«107213_j40037685133334_1_alg».proof.Defs
import proofs.«107213_j40037685133334_1_alg».proof.Proof.Kernel.Run
import proofs.«107213_j40037685133334_1_alg».proof.Proof.KernelIdeal.Run
import proofs.«107213_j40037685133334_1_alg».proof.Proof.RefRead
import proofs.«107213_j40037685133334_1_alg».proof.Proof.ValEgo
import proofs.«107213_j40037685133334_1_alg».proof.Proof.ValPeer
import proofs.«107213_j40037685133334_1_alg».proof.Proof.HostIn
import proofs.«107213_j40037685133334_1_alg».proof.Proof.HostOut
import proofs.«107213_j40037685133334_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel program's result array at the return is the reference's result stage of the same arguments: each call's
    output array is the reference's stage of what the call finds in its inputs, and the closing host chain is shared. -/
theorem kernel_result (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Hand.W11 (F := Ideal) m ρ c (Proc.devRef .tc Cert.KernelIdeal.main_v54)
      = Cert.ReferenceIdeal.Read.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  have h5 : Cert.KernelIdeal.Hand.U2 m ρ c Cert.KernelIdeal.main_v5 = Cert.ReferenceIdeal.Read.val_main_v9 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
    have h := Cert.Bridge.ego_final (Cert.KernelIdeal.Hand.U1 m ρ) c (m ((c.tc : Thread Cert.KernelIdeal.nD Cert.KernelIdeal.τ).loc Cert.KernelIdeal.main_arg5)) (Cert.Bridge.in0_bias m ρ c)
    rw [Cert.Bridge.in0_x, Cert.Bridge.in0_w] at h
    exact (Cert.KernelIdeal.Hand.W2_arr m ρ c 3).trans h
  have h30 : Cert.KernelIdeal.Hand.U6 m ρ c Cert.KernelIdeal.main_v30 = Cert.ReferenceIdeal.Read.val_main_v61 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
    have h := Cert.Bridge.edge_final (Cert.KernelIdeal.Hand.U5 m ρ) c (m ((c.tc : Thread Cert.KernelIdeal.nD Cert.KernelIdeal.τ).loc Cert.KernelIdeal.main_arg7)) (Cert.Bridge.in1_bias m ρ c)
    rw [Cert.Bridge.in1_e, Cert.Bridge.in1_w] at h
    exact (Cert.KernelIdeal.Hand.W6_arr m ρ c 3).trans h
  have h450 : Cert.KernelIdeal.Hand.U8 m ρ c Cert.KernelIdeal.main_v45_0 = Cert.ReferenceIdeal.Read.val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) :=
    (Cert.KernelIdeal.Hand.W8_arr m ρ c 7).trans (Cert.Bridge.peer_final (Cert.KernelIdeal.Hand.U7 m ρ) c _ _ _ _ _ (Cert.Bridge.in2_xrow m ρ c) (Cert.Bridge.in2_e m ρ c)
      (Cert.Bridge.in2_nv m ρ c) (Cert.Bridge.in2_w1 m ρ c) (Cert.Bridge.in2_w2 m ρ c) (Cert.Bridge.in2_b m ρ c))
  have h451 : Cert.KernelIdeal.Hand.U8 m ρ c Cert.KernelIdeal.main_v45_1 = Cert.ReferenceIdeal.Read.val_main_v74 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) :=
    (Cert.KernelIdeal.Hand.W8_arr m ρ c 8).trans (Cert.Bridge.mix_final (Cert.KernelIdeal.Hand.U7 m ρ) c _ _ _ _ (Cert.Bridge.in2_nv m ρ c) (Cert.Bridge.in2_hcol m ρ c h30))
  exact Cert.Bridge.result_eq m ρ c h5 h30 h450 h451

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- Both programs run, from memories that agree on the arguments, to the same result array. -/
theorem algebraic : Cert.algebraic_KernelIdeal_ReferenceIdeal := by
  intro m ρ m' ρ' _ hagree
  refine ⟨fun c => Cert.ReferenceIdeal.Read.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v54 (by decide))).trans (kernel_result m ρ c),
      (h c _ (Cert.KernelIdeal.Hand.mem_uc Cert.KernelIdeal.main_arg0 (by decide))).trans (Cert.KernelIdeal.Hand.W11_arg0 m ρ c),
      (h c _ (Cert.KernelIdeal.Hand.mem_uc Cert.KernelIdeal.main_arg1 (by decide))).trans (Cert.KernelIdeal.Hand.W11_arg1 m ρ c),
      (h c _ (Cert.KernelIdeal.Hand.mem_uc Cert.KernelIdeal.main_arg2 (by decide))).trans (Cert.KernelIdeal.Hand.W11_arg2 m ρ c),
      (h c _ (Cert.KernelIdeal.Hand.mem_uc Cert.KernelIdeal.main_arg3 (by decide))).trans (Cert.KernelIdeal.Hand.W11_arg3 m ρ c),
      (h c _ (Cert.KernelIdeal.Hand.mem_uc Cert.KernelIdeal.main_arg4 (by decide))).trans (Cert.KernelIdeal.Hand.W11_arg4 m ρ c),
      (h c _ (Cert.KernelIdeal.Hand.mem_uc Cert.KernelIdeal.main_arg5 (by decide))).trans (Cert.KernelIdeal.Hand.W11_arg5 m ρ c),
      (h c _ (Cert.KernelIdeal.Hand.mem_uc Cert.KernelIdeal.main_arg6 (by decide))).trans (Cert.KernelIdeal.Hand.W11_arg6 m ρ c),
      (h c _ (Cert.KernelIdeal.Hand.mem_uc Cert.KernelIdeal.main_arg7 (by decide))).trans (Cert.KernelIdeal.Hand.W11_arg7 m ρ c),
      (h c _ (Cert.KernelIdeal.Hand.mem_uc Cert.KernelIdeal.main_arg8 (by decide))).trans (Cert.KernelIdeal.Hand.W11_arg8 m ρ c)⟩
  · refine (θ_run Cert.ReferenceIdeal.defs _ _).mono (fun r h c => ⟨(h c).1.trans ?_, (h c).2⟩) (Cert.ReferenceIdeal.Value.run (F := Ideal) m' ρ')
    rw [Cert.ReferenceIdeal.Read.val_main_v79_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
